-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v112)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v112) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v191) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x4096 : Shape := ⟨2, ![1, 4096]⟩
abbrev S8x16384x128 : Shape := ⟨3, ![8, 16384, 128]⟩
abbrev S_ : Shape := ⟨0, ![]⟩

class Facts : Prop where
  bcast_S_S8x16384x128 : S_.BroadcastsInDim S8x16384x128 (![] : Fin 0 → Fin S8x16384x128.rank)
  bcast_S_S1x4096 : S_.BroadcastsInDim S1x4096 (![] : Fin 0 → Fin S1x4096.rank)
  reducesTo_S1x4096_S_d0_1 : S1x4096.ReducesTo [0, 1] S_
  h_S_ : 0 < S_.numel
  reducesTo_S8x16384x128_S_d0_1_2 : S8x16384x128.ReducesTo [0, 1, 2] S_

variable [Facts]

def fn_part1 {F : FTy → Type} [FloatOps F] (main_v13 : IVec S_ 1) (main_v15 : IVec S8x16384x128 1) (main_v16 : IVec S8x16384x128 1) : IVec S_ 1 :=
  let main_v17 : IVec S8x16384x128 1 := andi main_v15 main_v16
  let main_c_5 : IVec S_ 1 := constantI S_ 1 1#1
  let main_v18 : IVec S_ 1 := (fun x v => Host.reduce IntOp.andi x v reducesTo_S8x16384x128_S_d0_1_2 h_S_) main_v17 main_c_5
  let main_v19 : IVec S_ 1 := andi main_v13 main_v18
  main_v19

def fn {F : FTy → Type} [FloatOps F] (main_arg0 : FVec F S1x4096 .f32) (main_arg1 : FVec F S8x16384x128 .f32) (main_arg2 : IVec S8x16384x128 32) : IVec S_ 1 :=
  let main_v0 : IVec S8x16384x128 32 := iotaInDim S8x16384x128 32 0
  let main_c : IVec S_ 32 := constantI S_ 32 16384#32
  let main_v1 : IVec S8x16384x128 32 := broadcastInDim S8x16384x128 ![] bcast_S_S8x16384x128 main_c
  let main_v2 : IVec S8x16384x128 32 := muli main_v0 main_v1
  let main_c_0 : IVec S_ 32 := constantI S_ 32 4097#32
  let main_v3 : IVec S8x16384x128 32 := broadcastInDim S8x16384x128 ![] bcast_S_S8x16384x128 main_c_0
  let main_v4 : IVec S8x16384x128 32 := addi main_v2 main_v3
  let main_v5 : FVec F S1x4096 .f32 := Host.absf main_arg0
  let main_cst : FVec F S_ .f32 := constant S_ .f32 0x7F800000#32
  let main_v6 : FVec F S1x4096 .f32 := broadcastInDim S1x4096 ![] bcast_S_S1x4096 main_cst
  let main_v7 : IVec S1x4096 1 := cmpf .olt main_v5 main_v6
  let main_c_1 : IVec S_ 1 := constantI S_ 1 1#1
  let main_v8 : IVec S_ 1 := (fun x v => Host.reduce IntOp.andi x v reducesTo_S1x4096_S_d0_1 h_S_) main_v7 main_c_1
  let main_v9 : FVec F S8x16384x128 .f32 := Host.absf main_arg1
  let main_cst_2 : FVec F S_ .f32 := constant S_ .f32 0x7F800000#32
  let main_v10 : FVec F S8x16384x128 .f32 := broadcastInDim S8x16384x128 ![] bcast_S_S8x16384x128 main_cst_2
  let main_v11 : IVec S8x16384x128 1 := cmpf .olt main_v9 main_v10
  let main_c_3 : IVec S_ 1 := constantI S_ 1 1#1
  let main_v12 : IVec S_ 1 := (fun x v => Host.reduce IntOp.andi x v reducesTo_S8x16384x128_S_d0_1_2 h_S_) main_v11 main_c_3
  let main_v13 : IVec S_ 1 := andi main_v8 main_v12
  let main_c_4 : IVec S_ 32 := constantI S_ 32 0#32
  let main_v14 : IVec S8x16384x128 32 := broadcastInDim S8x16384x128 ![] bcast_S_S8x16384x128 main_c_4
  let main_v15 : IVec S8x16384x128 1 := cmpi .sge main_arg2 main_v14
  let main_v16 : IVec S8x16384x128 1 := cmpi .slt main_arg2 main_v4
  fn_part1 (F := F) main_v13 main_v15 main_v16
-- ==== Kernel.lean ====
abbrev S1x4096 : Shape := ⟨2, ![1, 4096]⟩
abbrev S8x16384x128 : Shape := ⟨3, ![8, 16384, 128]⟩
abbrev S_ : Shape := ⟨0, ![]⟩
abbrev S1 : Shape := ⟨1, ![1]⟩
abbrev S4096 : Shape := ⟨1, ![4096]⟩
abbrev S4097 : Shape := ⟨1, ![4097]⟩
abbrev S1x16384x128 : Shape := ⟨3, ![1, 16384, 128]⟩
abbrev S16384x128 : Shape := ⟨2, ![16384, 128]⟩
abbrev S16384x128x1 : Shape := ⟨3, ![16384, 128, 1]⟩
abbrev S1x16384 : Shape := ⟨2, ![1, 16384]⟩
abbrev S2048x128 : Shape := ⟨2, ![2048, 128]⟩
abbrev S1x2048 : Shape := ⟨2, ![1, 2048]⟩
abbrev S2048 : Shape := ⟨1, ![2048]⟩
abbrev S16384 : Shape := ⟨1, ![16384]⟩
abbrev S20481 : Shape := ⟨1, ![20481]⟩
abbrev S36865 : Shape := ⟨1, ![36865]⟩
abbrev S53249 : Shape := ⟨1, ![53249]⟩
abbrev S69633 : Shape := ⟨1, ![69633]⟩
abbrev S86017 : Shape := ⟨1, ![86017]⟩
abbrev S102401 : Shape := ⟨1, ![102401]⟩
abbrev S118785 : Shape := ⟨1, ![118785]⟩
abbrev S135169 : Shape := ⟨1, ![135169]⟩

abbrev nBuf : Space → Nat
  | .hbm => 135
  | .vmem => 48
  | .smem => 0
  | _ => 0

abbrev hbmTy0_0 (i : Nat) : BufTy := match i % 128 with
  | 0 => ⟨S1x4096, .f32⟩
  | 1 => ⟨S8x16384x128, .f32⟩
  | 2 => ⟨S8x16384x128, .i32⟩
  | 3 => ⟨S_, .f32⟩
  | 4 => ⟨S1, .f32⟩
  | 5 => ⟨S4096, .f32⟩
  | 6 => ⟨S4097, .f32⟩
  | 7 => ⟨S1x16384x128, .i32⟩
  | 8 => ⟨S16384x128, .i32⟩
  | 9 => ⟨S_, .i32⟩
  | 10 => ⟨S16384x128, .i32⟩
  | 11 => ⟨S16384x128, .i1⟩
  | 12 => ⟨S_, .i32⟩
  | 13 => ⟨S16384x128, .i32⟩
  | 14 => ⟨S16384x128, .i32⟩
  | 15 => ⟨S16384x128, .i32⟩
  | 16 => ⟨S16384x128x1, .i32⟩
  | 17 => ⟨S16384x128, .f32⟩
  | 18 => ⟨S1x16384x128, .f32⟩
  | 19 => ⟨S16384x128, .f32⟩
  | 20 => ⟨S1x16384, .f32⟩
  | 21 => ⟨S16384, .f32⟩
  | 22 => ⟨S20481, .f32⟩
  | 23 => ⟨S1x16384x128, .i32⟩
  | 24 => ⟨S16384x128, .i32⟩
  | 25 => ⟨S_, .i32⟩
  | 26 => ⟨S16384x128, .i32⟩
  | 27 => ⟨S16384x128, .i1⟩
  | 28 => ⟨S_, .i32⟩
  | 29 => ⟨S16384x128, .i32⟩
  | 30 => ⟨S16384x128, .i32⟩
  | 31 => ⟨S16384x128, .i32⟩
  | 32 => ⟨S16384x128x1, .i32⟩
  | 33 => ⟨S16384x128, .f32⟩
  | 34 => ⟨S1x16384x128, .f32⟩
  | 35 => ⟨S16384x128, .f32⟩
  | 36 => ⟨S1x16384, .f32⟩
  | 37 => ⟨S16384, .f32⟩
  | 38 => ⟨S36865, .f32⟩
  | 39 => ⟨S1x16384x128, .i32⟩
  | 40 => ⟨S16384x128, .i32⟩
  | 41 => ⟨S_, .i32⟩
  | 42 => ⟨S16384x128, .i32⟩
  | 43 => ⟨S16384x128, .i1⟩
  | 44 => ⟨S_, .i32⟩
  | 45 => ⟨S16384x128, .i32⟩
  | 46 => ⟨S16384x128, .i32⟩
  | 47 => ⟨S16384x128, .i32⟩
  | 48 => ⟨S16384x128x1, .i32⟩
  | 49 => ⟨S16384x128, .f32⟩
  | 50 => ⟨S1x16384x128, .f32⟩
  | 51 => ⟨S16384x128, .f32⟩
  | 52 => ⟨S1x16384, .f32⟩
  | 53 => ⟨S16384, .f32⟩
  | 54 => ⟨S53249, .f32⟩
  | 55 => ⟨S1x16384x128, .i32⟩
  | 56 => ⟨S16384x128, .i32⟩
  | 57 => ⟨S_, .i32⟩
  | 58 => ⟨S16384x128, .i32⟩
  | 59 => ⟨S16384x128, .i1⟩
  | 60 => ⟨S_, .i32⟩
  | 61 => ⟨S16384x128, .i32⟩
  | 62 => ⟨S16384x128, .i32⟩
  | 63 => ⟨S16384x128, .i32⟩
  | 64 => ⟨S16384x128x1, .i32⟩
  | 65 => ⟨S16384x128, .f32⟩
  | 66 => ⟨S1x16384x128, .f32⟩
  | 67 => ⟨S16384x128, .f32⟩
  | 68 => ⟨S1x16384, .f32⟩
  | 69 => ⟨S16384, .f32⟩
  | 70 => ⟨S69633, .f32⟩
  | 71 => ⟨S1x16384x128, .i32⟩
  | 72 => ⟨S16384x128, .i32⟩
  | 73 => ⟨S_, .i32⟩
  | 74 => ⟨S16384x128, .i32⟩
  | 75 => ⟨S16384x128, .i1⟩
  | 76 => ⟨S_, .i32⟩
  | 77 => ⟨S16384x128, .i32⟩
  | 78 => ⟨S16384x128, .i32⟩
  | 79 => ⟨S16384x128, .i32⟩
  | 80 => ⟨S16384x128x1, .i32⟩
  | 81 => ⟨S16384x128, .f32⟩
  | 82 => ⟨S1x16384x128, .f32⟩
  | 83 => ⟨S16384x128, .f32⟩
  | 84 => ⟨S1x16384, .f32⟩
  | 85 => ⟨S16384, .f32⟩
  | 86 => ⟨S86017, .f32⟩
  | 87 => ⟨S1x16384x128, .i32⟩
  | 88 => ⟨S16384x128, .i32⟩
  | 89 => ⟨S_, .i32⟩
  | 90 => ⟨S16384x128, .i32⟩
  | 91 => ⟨S16384x128, .i1⟩
  | 92 => ⟨S_, .i32⟩
  | 93 => ⟨S16384x128, .i32⟩
  | 94 => ⟨S16384x128, .i32⟩
  | 95 => ⟨S16384x128, .i32⟩
  | 96 => ⟨S16384x128x1, .i32⟩
  | 97 => ⟨S16384x128, .f32⟩
  | 98 => ⟨S1x16384x128, .f32⟩
  | 99 => ⟨S16384x128, .f32⟩
  | 100 => ⟨S1x16384, .f32⟩
  | 101 => ⟨S16384, .f32⟩
  | 102 => ⟨S102401, .f32⟩
  | 103 => ⟨S1x16384x128, .i32⟩
  | 104 => ⟨S16384x128, .i32⟩
  | 105 => ⟨S_, .i32⟩
  | 106 => ⟨S16384x128, .i32⟩
  | 107 => ⟨S16384x128, .i1⟩
  | 108 => ⟨S_, .i32⟩
  | 109 => ⟨S16384x128, .i32⟩
  | 110 => ⟨S16384x128, .i32⟩
  | 111 => ⟨S16384x128, .i32⟩
  | 112 => ⟨S16384x128x1, .i32⟩
  | 113 => ⟨S16384x128, .f32⟩
  | 114 => ⟨S1x16384x128, .f32⟩
  | 115 => ⟨S16384x128, .f32⟩
  | 116 => ⟨S1x16384, .f32⟩
  | 117 => ⟨S16384, .f32⟩
  | 118 => ⟨S118785, .f32⟩
  | 119 => ⟨S1x16384x128, .i32⟩
  | 120 => ⟨S16384x128, .i32⟩
  | 121 => ⟨S_, .i32⟩
  | 122 => ⟨S16384x128, .i32⟩
  | 123 => ⟨S16384x128, .i1⟩
  | 124 => ⟨S_, .i32⟩
  | 125 => ⟨S16384x128, .i32⟩
  | 126 => ⟨S16384x128, .i32⟩
  | 127 => ⟨S16384x128, .i32⟩
  | _ => ⟨S1x4096, .f32⟩

abbrev hbmTy0_1 (i : Nat) : BufTy := match i % 128 with
  | 0 => ⟨S16384x128x1, .i32⟩
  | 1 => ⟨S16384x128, .f32⟩
  | 2 => ⟨S1x16384x128, .f32⟩
  | 3 => ⟨S16384x128, .f32⟩
  | 4 => ⟨S1x16384, .f32⟩
  | 5 => ⟨S16384, .f32⟩
  | 6 => ⟨S135169, .f32⟩
  | _ => ⟨S1x4096, .f32⟩

abbrev hbmTy (i : Nat) : BufTy := match i / 128 with
  | 0 => hbmTy0_0 i
  | 1 => hbmTy0_1 i
  | _ => ⟨S1x4096, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S1x2048, .f32⟩
  | .local _ .vmem, ⟨5, _⟩ => ⟨S1x2048, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S1x2048, .f32⟩
  | .local _ .vmem, ⟨11, _⟩ => ⟨S1x2048, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S1x2048, .f32⟩
  | .local _ .vmem, ⟨17, _⟩ => ⟨S1x2048, .f32⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | .local _ .vmem, ⟨21, _⟩ => ⟨S2048x128, .f32⟩
  | .local _ .vmem, ⟨22, _⟩ => ⟨S1x2048, .f32⟩
  | .local _ .vmem, ⟨23, _⟩ => ⟨S1x2048, .f32⟩
  | .local _ .vmem, ⟨24, _⟩ => ⟨S2048x128, .f32⟩
  | .local _ .vmem, ⟨25, _⟩ => ⟨S2048x128, .f32⟩
  | .local _ .vmem, ⟨26, _⟩ => ⟨S2048x128, .f32⟩
  | .local _ .vmem, ⟨27, _⟩ => ⟨S2048x128, .f32⟩
  | .local _ .vmem, ⟨28, _⟩ => ⟨S1x2048, .f32⟩
  | .local _ .vmem, ⟨29, _⟩ => ⟨S1x2048, .f32⟩
  | .local _ .vmem, ⟨30, _⟩ => ⟨S2048x128, .f32⟩
  | .local _ .vmem, ⟨31, _⟩ => ⟨S2048x128, .f32⟩
  | .local _ .vmem, ⟨32, _⟩ => ⟨S2048x128, .f32⟩
  | .local _ .vmem, ⟨33, _⟩ => ⟨S2048x128, .f32⟩
  | .local _ .vmem, ⟨34, _⟩ => ⟨S1x2048, .f32⟩
  | .local _ .vmem, ⟨35, _⟩ => ⟨S1x2048, .f32⟩
  | .local _ .vmem, ⟨36, _⟩ => ⟨S2048x128, .f32⟩
  | .local _ .vmem, ⟨37, _⟩ => ⟨S2048x128, .f32⟩
  | .local _ .vmem, ⟨38, _⟩ => ⟨S2048x128, .f32⟩
  | .local _ .vmem, ⟨39, _⟩ => ⟨S2048x128, .f32⟩
  | .local _ .vmem, ⟨40, _⟩ => ⟨S1x2048, .f32⟩
  | .local _ .vmem, ⟨41, _⟩ => ⟨S1x2048, .f32⟩
  | .local _ .vmem, ⟨42, _⟩ => ⟨S2048x128, .f32⟩
  | .local _ .vmem, ⟨43, _⟩ => ⟨S2048x128, .f32⟩
  | .local _ .vmem, ⟨44, _⟩ => ⟨S2048x128, .f32⟩
  | .local _ .vmem, ⟨45, _⟩ => ⟨S2048x128, .f32⟩
  | .local _ .vmem, ⟨46, _⟩ => ⟨S1x2048, .f32⟩
  | .local _ .vmem, ⟨47, _⟩ => ⟨S1x2048, .f32⟩
  | _, _ => ⟨S1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c_1 : Ref sig .tc := ⟨.hbm, 25, rfl⟩
abbrev main_v19 : Ref sig .tc := ⟨.hbm, 26, rfl⟩
abbrev main_v20 : Ref sig .tc := ⟨.hbm, 27, rfl⟩
abbrev main_c_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_c_3 : Ref sig .tc := ⟨.hbm, 41, rfl⟩
abbrev main_v33 : Ref sig .tc := ⟨.hbm, 42, rfl⟩
abbrev main_v34 : Ref sig .tc := ⟨.hbm, 43, rfl⟩
abbrev main_c_4 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_c_5 : Ref sig .tc := ⟨.hbm, 57, rfl⟩
abbrev main_v47 : Ref sig .tc := ⟨.hbm, 58, rfl⟩
abbrev main_v48 : Ref sig .tc := ⟨.hbm, 59, rfl⟩
abbrev main_c_6 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_c_7 : Ref sig .tc := ⟨.hbm, 73, rfl⟩
abbrev main_v61 : Ref sig .tc := ⟨.hbm, 74, rfl⟩
abbrev main_v62 : Ref sig .tc := ⟨.hbm, 75, rfl⟩
abbrev main_c_8 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_c_9 : Ref sig .tc := ⟨.hbm, 89, rfl⟩
abbrev main_v75 : Ref sig .tc := ⟨.hbm, 90, rfl⟩
abbrev main_v76 : Ref sig .tc := ⟨.hbm, 91, rfl⟩
abbrev main_c_10 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_c_11 : Ref sig .tc := ⟨.hbm, 105, rfl⟩
abbrev main_v89 : Ref sig .tc := ⟨.hbm, 106, rfl⟩
abbrev main_v90 : Ref sig .tc := ⟨.hbm, 107, rfl⟩
abbrev main_c_12 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_c_13 : Ref sig .tc := ⟨.hbm, 121, rfl⟩
abbrev main_v103 : Ref sig .tc := ⟨.hbm, 122, rfl⟩
abbrev main_v104 : Ref sig .tc := ⟨.hbm, 123, rfl⟩
abbrev main_c_14 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg1_1 : Ref sig .tc := ⟨.vmem, 39, rfl⟩
abbrev cc6_stg2_0 : Ref sig .tc := ⟨.vmem, 40, rfl⟩
abbrev cc6_stg2_1 : Ref sig .tc := ⟨.vmem, 41, rfl⟩
abbrev cc7_stg0_0 : Ref sig .tc := ⟨.vmem, 42, rfl⟩
abbrev cc7_stg0_1 : Ref sig .tc := ⟨.vmem, 43, rfl⟩
abbrev cc7_stg1_0 : Ref sig .tc := ⟨.vmem, 44, rfl⟩
abbrev cc7_stg1_1 : Ref sig .tc := ⟨.vmem, 45, rfl⟩
abbrev cc7_stg2_0 : Ref sig .tc := ⟨.vmem, 46, rfl⟩
abbrev cc7_stg2_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35
abbrev cc6_sem0_0 : DmaSem sig := 36
abbrev cc6_sem0_1 : DmaSem sig := 37
abbrev cc6_sem1_0 : DmaSem sig := 38
abbrev cc6_sem1_1 : DmaSem sig := 39
abbrev cc6_sem2_0 : DmaSem sig := 40
abbrev cc6_sem2_1 : DmaSem sig := 41
abbrev cc7_sem0_0 : DmaSem sig := 42
abbrev cc7_sem0_1 : DmaSem sig := 43
abbrev cc7_sem1_0 : DmaSem sig := 44
abbrev cc7_sem1_1 : DmaSem sig := 45
abbrev cc7_sem2_0 : DmaSem sig := 46
abbrev cc7_sem2_1 : DmaSem sig := 47

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 2 → Memref sig .tc .vmem S2048x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage4_0 : Fin 2 → Memref sig .tc .vmem S2048x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2048x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1x2048 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage5_0 : Fin 2 → Memref sig .tc .vmem S2048x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2048x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S1x2048 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage6_0 : Fin 2 → Memref sig .tc .vmem S2048x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2048x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S1x2048 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![8], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage7_0 : Fin 2 → Memref sig .tc .vmem S2048x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2048x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S1x2048 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  bcast_S_S1 : S_.BroadcastsInDim S1 (![] : Fin 0 → Fin S1.rank)
  shapeCasts_S1x4096_S4096 : S1x4096.ShapeCasts S4096
  concatenates_S1_S4096_S4097_d0 : Shape.Concatenates [S1, S4096] S4097 0
  slices_S8x16384x128_S1x16384x128_0_0_0 : S8x16384x128.Slices ![0, 0, 0] S1x16384x128
  shapeCasts_S1x16384x128_S16384x128 : S1x16384x128.ShapeCasts S16384x128
  bcast_S_S16384x128 : S_.BroadcastsInDim S16384x128 (![] : Fin 0 → Fin S16384x128.rank)
  bcast_S16384x128_S16384x128x1_0_1 : S16384x128.BroadcastsInDim S16384x128x1 (![0, 1] : Fin 2 → Fin S16384x128x1.rank)
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  reduces_S2048x128_S2048 : S2048x128.Reduces [1] S2048
  shapeCasts_S2048_S1x2048 : S2048.ShapeCasts S1x2048
  inb_S1x2048_S1x2048_0_0 : ∀ a, (![0, 0] : Fin 2 → Nat) a + S1x2048.size a ≤ S1x2048.size a
  h_S1x2048 : 0 < S1x2048.numel
  shapeCasts_S1x16384_S16384 : S1x16384.ShapeCasts S16384
  concatenates_S4097_S16384_S20481_d0 : Shape.Concatenates [S4097, S16384] S20481 0
  slices_S8x16384x128_S1x16384x128_1_0_0 : S8x16384x128.Slices ![1, 0, 0] S1x16384x128
  concatenates_S20481_S16384_S36865_d0 : Shape.Concatenates [S20481, S16384] S36865 0
  slices_S8x16384x128_S1x16384x128_2_0_0 : S8x16384x128.Slices ![2, 0, 0] S1x16384x128
  concatenates_S36865_S16384_S53249_d0 : Shape.Concatenates [S36865, S16384] S53249 0
  slices_S8x16384x128_S1x16384x128_3_0_0 : S8x16384x128.Slices ![3, 0, 0] S1x16384x128
  concatenates_S53249_S16384_S69633_d0 : Shape.Concatenates [S53249, S16384] S69633 0
  slices_S8x16384x128_S1x16384x128_4_0_0 : S8x16384x128.Slices ![4, 0, 0] S1x16384x128
  concatenates_S69633_S16384_S86017_d0 : Shape.Concatenates [S69633, S16384] S86017 0
  slices_S8x16384x128_S1x16384x128_5_0_0 : S8x16384x128.Slices ![5, 0, 0] S1x16384x128
  concatenates_S86017_S16384_S102401_d0 : Shape.Concatenates [S86017, S16384] S102401 0
  slices_S8x16384x128_S1x16384x128_6_0_0 : S8x16384x128.Slices ![6, 0, 0] S1x16384x128
  concatenates_S102401_S16384_S118785_d0 : Shape.Concatenates [S102401, S16384] S118785 0
  slices_S8x16384x128_S1x16384x128_7_0_0 : S8x16384x128.Slices ![7, 0, 0] S1x16384x128
  concatenates_S118785_S16384_S135169_d0 : Shape.Concatenates [S118785, S16384] S135169 0
  gather_S4097_S16384x128x1_S16384x128_n_0_n_n_0_2_1_wf : GatherDims.WF S4097 S16384x128x1 S16384x128 [] [0] [] [0] [] 2 ![1]
  gather_S20481_S16384x128x1_S16384x128_n_0_n_n_0_2_1_wf : GatherDims.WF S20481 S16384x128x1 S16384x128 [] [0] [] [0] [] 2 ![1]
  gather_S36865_S16384x128x1_S16384x128_n_0_n_n_0_2_1_wf : GatherDims.WF S36865 S16384x128x1 S16384x128 [] [0] [] [0] [] 2 ![1]
  gather_S53249_S16384x128x1_S16384x128_n_0_n_n_0_2_1_wf : GatherDims.WF S53249 S16384x128x1 S16384x128 [] [0] [] [0] [] 2 ![1]
  gather_S69633_S16384x128x1_S16384x128_n_0_n_n_0_2_1_wf : GatherDims.WF S69633 S16384x128x1 S16384x128 [] [0] [] [0] [] 2 ![1]
  gather_S86017_S16384x128x1_S16384x128_n_0_n_n_0_2_1_wf : GatherDims.WF S86017 S16384x128x1 S16384x128 [] [0] [] [0] [] 2 ![1]
  gather_S102401_S16384x128x1_S16384x128_n_0_n_n_0_2_1_wf : GatherDims.WF S102401 S16384x128x1 S16384x128 [] [0] [] [0] [] 2 ![1]
  gather_S118785_S16384x128x1_S16384x128_n_0_n_n_0_2_1_wf : GatherDims.WF S118785 S16384x128x1 S16384x128 [] [0] [] [0] [] 2 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S16384x128.size a
  hwx0_0 : ∀ i : grid0.Coords, EltTy.bits .f32 = 32 ∨ (Rect.block (s := S16384x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S16384x128.size a
  hwx0_1 : ∀ i : grid0.Coords, EltTy.bits .f32 = 32 ∨ (Rect.block (s := S16384x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x16384.size a
  hwx0_2 : ∀ i : grid0.Coords, EltTy.bits .f32 = 32 ∨ (Rect.block (s := S1x16384) S1x2048.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S16384x128.size a
  hwx1_0 : ∀ i : grid1.Coords, EltTy.bits .f32 = 32 ∨ (Rect.block (s := S16384x128) S2048x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S16384x128.size a
  hwx1_1 : ∀ i : grid1.Coords, EltTy.bits .f32 = 32 ∨ (Rect.block (s := S16384x128) S2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x16384.size a
  hwx1_2 : ∀ i : grid1.Coords, EltTy.bits .f32 = 32 ∨ (Rect.block (s := S1x16384) S1x2048.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S16384x128.size a
  hwx2_0 : ∀ i : grid2.Coords, EltTy.bits .f32 = 32 ∨ (Rect.block (s := S16384x128) S2048x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S16384x128.size a
  hwx2_1 : ∀ i : grid2.Coords, EltTy.bits .f32 = 32 ∨ (Rect.block (s := S16384x128) S2048x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x2048.size a ≤ S1x16384.size a
  hwx2_2 : ∀ i : grid2.Coords, EltTy.bits .f32 = 32 ∨ (Rect.block (s := S1x16384) S1x2048.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x128.size a ≤ S16384x128.size a
  hwx3_0 : ∀ i : grid3.Coords, EltTy.bits .f32 = 32 ∨ (Rect.block (s := S16384x128) S2048x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x128.size a ≤ S16384x128.size a
  hwx3_1 : ∀ i : grid3.Coords, EltTy.bits .f32 = 32 ∨ (Rect.block (s := S16384x128) S2048x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x2048.size a ≤ S1x16384.size a
  hwx3_2 : ∀ i : grid3.Coords, EltTy.bits .f32 = 32 ∨ (Rect.block (s := S1x16384) S1x2048.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x128.size a ≤ S16384x128.size a
  hwx4_0 : ∀ i : grid4.Coords, EltTy.bits .f32 = 32 ∨ (Rect.block (s := S16384x128) S2048x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x128.size a ≤ S16384x128.size a
  hwx4_1 : ∀ i : grid4.Coords, EltTy.bits .f32 = 32 ∨ (Rect.block (s := S16384x128) S2048x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x2048.size a ≤ S1x16384.size a
  hwx4_2 : ∀ i : grid4.Coords, EltTy.bits .f32 = 32 ∨ (Rect.block (s := S1x16384) S1x2048.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x128.size a ≤ S16384x128.size a
  hwx5_0 : ∀ i : grid5.Coords, EltTy.bits .f32 = 32 ∨ (Rect.block (s := S16384x128) S2048x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048x128.size a ≤ S16384x128.size a
  hwx5_1 : ∀ i : grid5.Coords, EltTy.bits .f32 = 32 ∨ (Rect.block (s := S16384x128) S2048x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1x2048.size a ≤ S1x16384.size a
  hwx5_2 : ∀ i : grid5.Coords, EltTy.bits .f32 = 32 ∨ (Rect.block (s := S1x16384) S1x2048.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2048x128.size a ≤ S16384x128.size a
  hwx6_0 : ∀ i : grid6.Coords, EltTy.bits .f32 = 32 ∨ (Rect.block (s := S16384x128) S2048x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2048x128.size a ≤ S16384x128.size a
  hwx6_1 : ∀ i : grid6.Coords, EltTy.bits .f32 = 32 ∨ (Rect.block (s := S16384x128) S2048x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1x2048.size a ≤ S1x16384.size a
  hwx6_2 : ∀ i : grid6.Coords, EltTy.bits .f32 = 32 ∨ (Rect.block (s := S1x16384) S1x2048.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2048x128.size a ≤ S16384x128.size a
  hwx7_0 : ∀ i : grid7.Coords, EltTy.bits .f32 = 32 ∨ (Rect.block (s := S16384x128) S2048x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2048x128.size a ≤ S16384x128.size a
  hwx7_1 : ∀ i : grid7.Coords, EltTy.bits .f32 = 32 ∨ (Rect.block (s := S16384x128) S2048x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1x2048.size a ≤ S1x16384.size a
  hwx7_2 : ∀ i : grid7.Coords, EltTy.bits .f32 = 32 ∨ (Rect.block (s := S1x16384) S1x2048.size (cc7_transform_2 i) (hinb7_2 i)).WholeWords (EltTy.packing .f32)

variable [Facts₀]

def gather_S4097_S16384x128x1_S16384x128_n_0_n_n_0_2_1 : GatherDims S4097 S16384x128x1 S16384x128 where
  offsetDims := []
  collapsedSliceDims := [0]
  operandBatchingDims := []
  startIndicesBatchingDims := []
  startIndexMap := [0]
  indexVectorDim := 2
  sliceSizes := ![1]
  wf := gather_S4097_S16384x128x1_S16384x128_n_0_n_n_0_2_1_wf
def gather_S20481_S16384x128x1_S16384x128_n_0_n_n_0_2_1 : GatherDims S20481 S16384x128x1 S16384x128 where
  offsetDims := []
  collapsedSliceDims := [0]
  operandBatchingDims := []
  startIndicesBatchingDims := []
  startIndexMap := [0]
  indexVectorDim := 2
  sliceSizes := ![1]
  wf := gather_S20481_S16384x128x1_S16384x128_n_0_n_n_0_2_1_wf
def gather_S36865_S16384x128x1_S16384x128_n_0_n_n_0_2_1 : GatherDims S36865 S16384x128x1 S16384x128 where
  offsetDims := []
  collapsedSliceDims := [0]
  operandBatchingDims := []
  startIndicesBatchingDims := []
  startIndexMap := [0]
  indexVectorDim := 2
  sliceSizes := ![1]
  wf := gather_S36865_S16384x128x1_S16384x128_n_0_n_n_0_2_1_wf
def gather_S53249_S16384x128x1_S16384x128_n_0_n_n_0_2_1 : GatherDims S53249 S16384x128x1 S16384x128 where
  offsetDims := []
  collapsedSliceDims := [0]
  operandBatchingDims := []
  startIndicesBatchingDims := []
  startIndexMap := [0]
  indexVectorDim := 2
  sliceSizes := ![1]
  wf := gather_S53249_S16384x128x1_S16384x128_n_0_n_n_0_2_1_wf
def gather_S69633_S16384x128x1_S16384x128_n_0_n_n_0_2_1 : GatherDims S69633 S16384x128x1 S16384x128 where
  offsetDims := []
  collapsedSliceDims := [0]
  operandBatchingDims := []
  startIndicesBatchingDims := []
  startIndexMap := [0]
  indexVectorDim := 2
  sliceSizes := ![1]
  wf := gather_S69633_S16384x128x1_S16384x128_n_0_n_n_0_2_1_wf
def gather_S86017_S16384x128x1_S16384x128_n_0_n_n_0_2_1 : GatherDims S86017 S16384x128x1 S16384x128 where
  offsetDims := []
  collapsedSliceDims := [0]
  operandBatchingDims := []
  startIndicesBatchingDims := []
  startIndexMap := [0]
  indexVectorDim := 2
  sliceSizes := ![1]
  wf := gather_S86017_S16384x128x1_S16384x128_n_0_n_n_0_2_1_wf
def gather_S102401_S16384x128x1_S16384x128_n_0_n_n_0_2_1 : GatherDims S102401 S16384x128x1 S16384x128 where
  offsetDims := []
  collapsedSliceDims := [0]
  operandBatchingDims := []
  startIndicesBatchingDims := []
  startIndexMap := [0]
  indexVectorDim := 2
  sliceSizes := ![1]
  wf := gather_S102401_S16384x128x1_S16384x128_n_0_n_n_0_2_1_wf
def gather_S118785_S16384x128x1_S16384x128_n_0_n_n_0_2_1 : GatherDims S118785 S16384x128x1 S16384x128 where
  offsetDims := []
  collapsedSliceDims := [0]
  operandBatchingDims := []
  startIndicesBatchingDims := []
  startIndexMap := [0]
  indexVectorDim := 2
  sliceSizes := ![1]
  wf := gather_S118785_S16384x128x1_S16384x128_n_0_n_n_0_2_1_wf

abbrev win0_0 : Pipeline.Window sig grid0 :=
  Pipeline.Window.ofSpec (Memref.whole main_v13) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v27) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v41) S2048x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v42) S1x2048.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v55) S2048x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v53) S2048x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v56) S1x2048.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v69) S2048x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v67) S2048x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v70) S1x2048.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v83) S2048x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v81) S2048x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v84) S1x2048.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v97) S2048x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v95) S2048x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v98) S1x2048.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v111) S2048x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v109) S2048x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v112) S1x2048.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S1x4096 : Shape := ⟨2, ![1, 4096]⟩
abbrev S8x16384x128 : Shape := ⟨3, ![8, 16384, 128]⟩
abbrev S_ : Shape := ⟨0, ![]⟩
abbrev S135169 : Shape := ⟨1, ![135169]⟩
abbrev S1 : Shape := ⟨1, ![1]⟩
abbrev S4096 : Shape := ⟨1, ![4096]⟩
abbrev S1x16384x128 : Shape := ⟨3, ![1, 16384, 128]⟩
abbrev S16384x128 : Shape := ⟨2, ![16384, 128]⟩
abbrev S16384x128x1 : Shape := ⟨3, ![16384, 128, 1]⟩
abbrev S16384 : Shape := ⟨1, ![16384]⟩
abbrev S1x16384 : Shape := ⟨2, ![1, 16384]⟩

abbrev nBuf : Space → Nat
  | .hbm => 255
  | .vmem => 0
  | .smem => 0
  | _ => 0

abbrev hbmTy0_0 (i : Nat) : BufTy := match i % 128 with
  | 0 => ⟨S1x4096, .f32⟩
  | 1 => ⟨S8x16384x128, .f32⟩
  | 2 => ⟨S8x16384x128, .i32⟩
  | 3 => ⟨S_, .f32⟩
  | 4 => ⟨S135169, .f32⟩
  | 5 => ⟨S_, .i32⟩
  | 6 => ⟨S1, .i32⟩
  | 7 => ⟨S_, .f32⟩
  | 8 => ⟨S135169, .f32⟩
  | 9 => ⟨S4096, .f32⟩
  | 10 => ⟨S_, .i32⟩
  | 11 => ⟨S1, .i32⟩
  | 12 => ⟨S135169, .f32⟩
  | 13 => ⟨S1x16384x128, .i32⟩
  | 14 => ⟨S16384x128, .i32⟩
  | 15 => ⟨S_, .i32⟩
  | 16 => ⟨S16384x128, .i32⟩
  | 17 => ⟨S16384x128, .i1⟩
  | 18 => ⟨S_, .i32⟩
  | 19 => ⟨S16384x128, .i32⟩
  | 20 => ⟨S16384x128, .i32⟩
  | 21 => ⟨S16384x128, .i32⟩
  | 22 => ⟨S16384x128x1, .i32⟩
  | 23 => ⟨S16384x128, .f32⟩
  | 24 => ⟨S1x16384x128, .f32⟩
  | 25 => ⟨S16384x128, .f32⟩
  | 26 => ⟨S16384x128, .f32⟩
  | 27 => ⟨S_, .f32⟩
  | 28 => ⟨S16384, .f32⟩
  | 29 => ⟨S_, .f32⟩
  | 30 => ⟨S16384, .f32⟩
  | 31 => ⟨S16384, .f32⟩
  | 32 => ⟨S16384, .f32⟩
  | 33 => ⟨S16384, .f32⟩
  | 34 => ⟨S_, .f32⟩
  | 35 => ⟨S16384, .f32⟩
  | 36 => ⟨S16384, .f32⟩
  | 37 => ⟨S_, .f32⟩
  | 38 => ⟨S16384, .f32⟩
  | 39 => ⟨S16384, .f32⟩
  | 40 => ⟨S_, .i32⟩
  | 41 => ⟨S1, .i32⟩
  | 42 => ⟨S135169, .f32⟩
  | 43 => ⟨S1x16384x128, .i32⟩
  | 44 => ⟨S16384x128, .i32⟩
  | 45 => ⟨S_, .i32⟩
  | 46 => ⟨S16384x128, .i32⟩
  | 47 => ⟨S16384x128, .i1⟩
  | 48 => ⟨S_, .i32⟩
  | 49 => ⟨S16384x128, .i32⟩
  | 50 => ⟨S16384x128, .i32⟩
  | 51 => ⟨S16384x128, .i32⟩
  | 52 => ⟨S16384x128x1, .i32⟩
  | 53 => ⟨S16384x128, .f32⟩
  | 54 => ⟨S1x16384x128, .f32⟩
  | 55 => ⟨S16384x128, .f32⟩
  | 56 => ⟨S16384x128, .f32⟩
  | 57 => ⟨S_, .f32⟩
  | 58 => ⟨S16384, .f32⟩
  | 59 => ⟨S_, .f32⟩
  | 60 => ⟨S16384, .f32⟩
  | 61 => ⟨S16384, .f32⟩
  | 62 => ⟨S16384, .f32⟩
  | 63 => ⟨S16384, .f32⟩
  | 64 => ⟨S_, .f32⟩
  | 65 => ⟨S16384, .f32⟩
  | 66 => ⟨S16384, .f32⟩
  | 67 => ⟨S_, .f32⟩
  | 68 => ⟨S16384, .f32⟩
  | 69 => ⟨S16384, .f32⟩
  | 70 => ⟨S_, .i32⟩
  | 71 => ⟨S1, .i32⟩
  | 72 => ⟨S135169, .f32⟩
  | 73 => ⟨S1x16384x128, .i32⟩
  | 74 => ⟨S16384x128, .i32⟩
  | 75 => ⟨S_, .i32⟩
  | 76 => ⟨S16384x128, .i32⟩
  | 77 => ⟨S16384x128, .i1⟩
  | 78 => ⟨S_, .i32⟩
  | 79 => ⟨S16384x128, .i32⟩
  | 80 => ⟨S16384x128, .i32⟩
  | 81 => ⟨S16384x128, .i32⟩
  | 82 => ⟨S16384x128x1, .i32⟩
  | 83 => ⟨S16384x128, .f32⟩
  | 84 => ⟨S1x16384x128, .f32⟩
  | 85 => ⟨S16384x128, .f32⟩
  | 86 => ⟨S16384x128, .f32⟩
  | 87 => ⟨S_, .f32⟩
  | 88 => ⟨S16384, .f32⟩
  | 89 => ⟨S_, .f32⟩
  | 90 => ⟨S16384, .f32⟩
  | 91 => ⟨S16384, .f32⟩
  | 92 => ⟨S16384, .f32⟩
  | 93 => ⟨S16384, .f32⟩
  | 94 => ⟨S_, .f32⟩
  | 95 => ⟨S16384, .f32⟩
  | 96 => ⟨S16384, .f32⟩
  | 97 => ⟨S_, .f32⟩
  | 98 => ⟨S16384, .f32⟩
  | 99 => ⟨S16384, .f32⟩
  | 100 => ⟨S_, .i32⟩
  | 101 => ⟨S1, .i32⟩
  | 102 => ⟨S135169, .f32⟩
  | 103 => ⟨S1x16384x128, .i32⟩
  | 104 => ⟨S16384x128, .i32⟩
  | 105 => ⟨S_, .i32⟩
  | 106 => ⟨S16384x128, .i32⟩
  | 107 => ⟨S16384x128, .i1⟩
  | 108 => ⟨S_, .i32⟩
  | 109 => ⟨S16384x128, .i32⟩
  | 110 => ⟨S16384x128, .i32⟩
  | 111 => ⟨S16384x128, .i32⟩
  | 112 => ⟨S16384x128x1, .i32⟩
  | 113 => ⟨S16384x128, .f32⟩
  | 114 => ⟨S1x16384x128, .f32⟩
  | 115 => ⟨S16384x128, .f32⟩
  | 116 => ⟨S16384x128, .f32⟩
  | 117 => ⟨S_, .f32⟩
  | 118 => ⟨S16384, .f32⟩
  | 119 => ⟨S_, .f32⟩
  | 120 => ⟨S16384, .f32⟩
  | 121 => ⟨S16384, .f32⟩
  | 122 => ⟨S16384, .f32⟩
  | 123 => ⟨S16384, .f32⟩
  | 124 => ⟨S_, .f32⟩
  | 125 => ⟨S16384, .f32⟩
  | 126 => ⟨S16384, .f32⟩
  | 127 => ⟨S_, .f32⟩
  | _ => ⟨S1x4096, .f32⟩

abbrev hbmTy0_1 (i : Nat) : BufTy := match i % 128 with
  | 0 => ⟨S16384, .f32⟩
  | 1 => ⟨S16384, .f32⟩
  | 2 => ⟨S_, .i32⟩
  | 3 => ⟨S1, .i32⟩
  | 4 => ⟨S135169, .f32⟩
  | 5 => ⟨S1x16384x128, .i32⟩
  | 6 => ⟨S16384x128, .i32⟩
  | 7 => ⟨S_, .i32⟩
  | 8 => ⟨S16384x128, .i32⟩
  | 9 => ⟨S16384x128, .i1⟩
  | 10 => ⟨S_, .i32⟩
  | 11 => ⟨S16384x128, .i32⟩
  | 12 => ⟨S16384x128, .i32⟩
  | 13 => ⟨S16384x128, .i32⟩
  | 14 => ⟨S16384x128x1, .i32⟩
  | 15 => ⟨S16384x128, .f32⟩
  | 16 => ⟨S1x16384x128, .f32⟩
  | 17 => ⟨S16384x128, .f32⟩
  | 18 => ⟨S16384x128, .f32⟩
  | 19 => ⟨S_, .f32⟩
  | 20 => ⟨S16384, .f32⟩
  | 21 => ⟨S_, .f32⟩
  | 22 => ⟨S16384, .f32⟩
  | 23 => ⟨S16384, .f32⟩
  | 24 => ⟨S16384, .f32⟩
  | 25 => ⟨S16384, .f32⟩
  | 26 => ⟨S_, .f32⟩
  | 27 => ⟨S16384, .f32⟩
  | 28 => ⟨S16384, .f32⟩
  | 29 => ⟨S_, .f32⟩
  | 30 => ⟨S16384, .f32⟩
  | 31 => ⟨S16384, .f32⟩
  | 32 => ⟨S_, .i32⟩
  | 33 => ⟨S1, .i32⟩
  | 34 => ⟨S135169, .f32⟩
  | 35 => ⟨S1x16384x128, .i32⟩
  | 36 => ⟨S16384x128, .i32⟩
  | 37 => ⟨S_, .i32⟩
  | 38 => ⟨S16384x128, .i32⟩
  | 39 => ⟨S16384x128, .i1⟩
  | 40 => ⟨S_, .i32⟩
  | 41 => ⟨S16384x128, .i32⟩
  | 42 => ⟨S16384x128, .i32⟩
  | 43 => ⟨S16384x128, .i32⟩
  | 44 => ⟨S16384x128x1, .i32⟩
  | 45 => ⟨S16384x128, .f32⟩
  | 46 => ⟨S1x16384x128, .f32⟩
  | 47 => ⟨S16384x128, .f32⟩
  | 48 => ⟨S16384x128, .f32⟩
  | 49 => ⟨S_, .f32⟩
  | 50 => ⟨S16384, .f32⟩
  | 51 => ⟨S_, .f32⟩
  | 52 => ⟨S16384, .f32⟩
  | 53 => ⟨S16384, .f32⟩
  | 54 => ⟨S16384, .f32⟩
  | 55 => ⟨S16384, .f32⟩
  | 56 => ⟨S_, .f32⟩
  | 57 => ⟨S16384, .f32⟩
  | 58 => ⟨S16384, .f32⟩
  | 59 => ⟨S_, .f32⟩
  | 60 => ⟨S16384, .f32⟩
  | 61 => ⟨S16384, .f32⟩
  | 62 => ⟨S_, .i32⟩
  | 63 => ⟨S1, .i32⟩
  | 64 => ⟨S135169, .f32⟩
  | 65 => ⟨S1x16384x128, .i32⟩
  | 66 => ⟨S16384x128, .i32⟩
  | 67 => ⟨S_, .i32⟩
  | 68 => ⟨S16384x128, .i32⟩
  | 69 => ⟨S16384x128, .i1⟩
  | 70 => ⟨S_, .i32⟩
  | 71 => ⟨S16384x128, .i32⟩
  | 72 => ⟨S16384x128, .i32⟩
  | 73 => ⟨S16384x128, .i32⟩
  | 74 => ⟨S16384x128x1, .i32⟩
  | 75 => ⟨S16384x128, .f32⟩
  | 76 => ⟨S1x16384x128, .f32⟩
  | 77 => ⟨S16384x128, .f32⟩
  | 78 => ⟨S16384x128, .f32⟩
  | 79 => ⟨S_, .f32⟩
  | 80 => ⟨S16384, .f32⟩
  | 81 => ⟨S_, .f32⟩
  | 82 => ⟨S16384, .f32⟩
  | 83 => ⟨S16384, .f32⟩
  | 84 => ⟨S16384, .f32⟩
  | 85 => ⟨S16384, .f32⟩
  | 86 => ⟨S_, .f32⟩
  | 87 => ⟨S16384, .f32⟩
  | 88 => ⟨S16384, .f32⟩
  | 89 => ⟨S_, .f32⟩
  | 90 => ⟨S16384, .f32⟩
  | 91 => ⟨S16384, .f32⟩
  | 92 => ⟨S_, .i32⟩
  | 93 => ⟨S1, .i32⟩
  | 94 => ⟨S135169, .f32⟩
  | 95 => ⟨S1x16384x128, .i32⟩
  | 96 => ⟨S16384x128, .i32⟩
  | 97 => ⟨S_, .i32⟩
  | 98 => ⟨S16384x128, .i32⟩
  | 99 => ⟨S16384x128, .i1⟩
  | 100 => ⟨S_, .i32⟩
  | 101 => ⟨S16384x128, .i32⟩
  | 102 => ⟨S16384x128, .i32⟩
  | 103 => ⟨S16384x128, .i32⟩
  | 104 => ⟨S16384x128x1, .i32⟩
  | 105 => ⟨S16384x128, .f32⟩
  | 106 => ⟨S1x16384x128, .f32⟩
  | 107 => ⟨S16384x128, .f32⟩
  | 108 => ⟨S16384x128, .f32⟩
  | 109 => ⟨S_, .f32⟩
  | 110 => ⟨S16384, .f32⟩
  | 111 => ⟨S_, .f32⟩
  | 112 => ⟨S16384, .f32⟩
  | 113 => ⟨S16384, .f32⟩
  | 114 => ⟨S16384, .f32⟩
  | 115 => ⟨S16384, .f32⟩
  | 116 => ⟨S_, .f32⟩
  | 117 => ⟨S16384, .f32⟩
  | 118 => ⟨S16384, .f32⟩
  | 119 => ⟨S_, .f32⟩
  | 120 => ⟨S16384, .f32⟩
  | 121 => ⟨S16384, .f32⟩
  | 122 => ⟨S_, .i32⟩
  | 123 => ⟨S1, .i32⟩
  | 124 => ⟨S135169, .f32⟩
  | 125 => ⟨S16384, .f32⟩
  | 126 => ⟨S1x16384, .f32⟩
  | _ => ⟨S1x4096, .f32⟩

abbrev hbmTy (i : Nat) : BufTy := match i / 128 with
  | 0 => hbmTy0_0 i
  | 1 => hbmTy0_1 i
  | _ => ⟨S1x4096, .f32⟩

abbrev bufTy : (tb : Table) → Fin (tcTables nBuf tb) → BufTy
  | .hbm, ⟨i, _⟩ => hbmTy i
  | _, _ => ⟨S1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_v9 : Ref sig .tc := ⟨.hbm, 17, rfl⟩
abbrev main_c_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_c_8 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_9 : Ref sig .tc := ⟨.hbm, 45, rfl⟩
abbrev main_v31 : Ref sig .tc := ⟨.hbm, 46, rfl⟩
abbrev main_v32 : Ref sig .tc := ⟨.hbm, 47, rfl⟩
abbrev main_c_10 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_11 : Ref sig .tc := ⟨.hbm, 57, rfl⟩
abbrev main_v41 : Ref sig .tc := ⟨.hbm, 58, rfl⟩
abbrev main_cst_12 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_13 : Ref sig .tc := ⟨.hbm, 64, rfl⟩
abbrev main_v46 : Ref sig .tc := ⟨.hbm, 65, rfl⟩
abbrev main_v47 : Ref sig .tc := ⟨.hbm, 66, rfl⟩
abbrev main_cst_14 : Ref sig .tc := ⟨.hbm, 67, rfl⟩
abbrev main_v48 : Ref sig .tc := ⟨.hbm, 68, rfl⟩
abbrev main_v49 : Ref sig .tc := ⟨.hbm, 69, rfl⟩
abbrev main_c_15 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_16 : Ref sig .tc := ⟨.hbm, 75, rfl⟩
abbrev main_v54 : Ref sig .tc := ⟨.hbm, 76, rfl⟩
abbrev main_v55 : Ref sig .tc := ⟨.hbm, 77, rfl⟩
abbrev main_c_17 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_18 : Ref sig .tc := ⟨.hbm, 87, rfl⟩
abbrev main_v64 : Ref sig .tc := ⟨.hbm, 88, rfl⟩
abbrev main_cst_19 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_20 : Ref sig .tc := ⟨.hbm, 94, rfl⟩
abbrev main_v69 : Ref sig .tc := ⟨.hbm, 95, rfl⟩
abbrev main_v70 : Ref sig .tc := ⟨.hbm, 96, rfl⟩
abbrev main_cst_21 : Ref sig .tc := ⟨.hbm, 97, rfl⟩
abbrev main_v71 : Ref sig .tc := ⟨.hbm, 98, rfl⟩
abbrev main_v72 : Ref sig .tc := ⟨.hbm, 99, rfl⟩
abbrev main_c_22 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_c_23 : Ref sig .tc := ⟨.hbm, 105, rfl⟩
abbrev main_v77 : Ref sig .tc := ⟨.hbm, 106, rfl⟩
abbrev main_v78 : Ref sig .tc := ⟨.hbm, 107, rfl⟩
abbrev main_c_24 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_cst_25 : Ref sig .tc := ⟨.hbm, 117, rfl⟩
abbrev main_v87 : Ref sig .tc := ⟨.hbm, 118, rfl⟩
abbrev main_cst_26 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_27 : Ref sig .tc := ⟨.hbm, 124, rfl⟩
abbrev main_v92 : Ref sig .tc := ⟨.hbm, 125, rfl⟩
abbrev main_v93 : Ref sig .tc := ⟨.hbm, 126, rfl⟩
abbrev main_cst_28 : Ref sig .tc := ⟨.hbm, 127, rfl⟩
abbrev main_v94 : Ref sig .tc := ⟨.hbm, 128, rfl⟩
abbrev main_v95 : Ref sig .tc := ⟨.hbm, 129, rfl⟩
abbrev main_c_29 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_c_30 : Ref sig .tc := ⟨.hbm, 135, rfl⟩
abbrev main_v100 : Ref sig .tc := ⟨.hbm, 136, rfl⟩
abbrev main_v101 : Ref sig .tc := ⟨.hbm, 137, rfl⟩
abbrev main_c_31 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_cst_32 : Ref sig .tc := ⟨.hbm, 147, rfl⟩
abbrev main_v110 : Ref sig .tc := ⟨.hbm, 148, rfl⟩
abbrev main_cst_33 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_cst_34 : Ref sig .tc := ⟨.hbm, 154, rfl⟩
abbrev main_v115 : Ref sig .tc := ⟨.hbm, 155, rfl⟩
abbrev main_v116 : Ref sig .tc := ⟨.hbm, 156, rfl⟩
abbrev main_cst_35 : Ref sig .tc := ⟨.hbm, 157, rfl⟩
abbrev main_v117 : Ref sig .tc := ⟨.hbm, 158, rfl⟩
abbrev main_v118 : Ref sig .tc := ⟨.hbm, 159, rfl⟩
abbrev main_c_36 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_c_37 : Ref sig .tc := ⟨.hbm, 165, rfl⟩
abbrev main_v123 : Ref sig .tc := ⟨.hbm, 166, rfl⟩
abbrev main_v124 : Ref sig .tc := ⟨.hbm, 167, rfl⟩
abbrev main_c_38 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_cst_39 : Ref sig .tc := ⟨.hbm, 177, rfl⟩
abbrev main_v133 : Ref sig .tc := ⟨.hbm, 178, rfl⟩
abbrev main_cst_40 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_cst_41 : Ref sig .tc := ⟨.hbm, 184, rfl⟩
abbrev main_v138 : Ref sig .tc := ⟨.hbm, 185, rfl⟩
abbrev main_v139 : Ref sig .tc := ⟨.hbm, 186, rfl⟩
abbrev main_cst_42 : Ref sig .tc := ⟨.hbm, 187, rfl⟩
abbrev main_v140 : Ref sig .tc := ⟨.hbm, 188, rfl⟩
abbrev main_v141 : Ref sig .tc := ⟨.hbm, 189, rfl⟩
abbrev main_c_43 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_c_44 : Ref sig .tc := ⟨.hbm, 195, rfl⟩
abbrev main_v146 : Ref sig .tc := ⟨.hbm, 196, rfl⟩
abbrev main_v147 : Ref sig .tc := ⟨.hbm, 197, rfl⟩
abbrev main_c_45 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_cst_46 : Ref sig .tc := ⟨.hbm, 207, rfl⟩
abbrev main_v156 : Ref sig .tc := ⟨.hbm, 208, rfl⟩
abbrev main_cst_47 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_cst_48 : Ref sig .tc := ⟨.hbm, 214, rfl⟩
abbrev main_v161 : Ref sig .tc := ⟨.hbm, 215, rfl⟩
abbrev main_v162 : Ref sig .tc := ⟨.hbm, 216, rfl⟩
abbrev main_cst_49 : Ref sig .tc := ⟨.hbm, 217, rfl⟩
abbrev main_v163 : Ref sig .tc := ⟨.hbm, 218, rfl⟩
abbrev main_v164 : Ref sig .tc := ⟨.hbm, 219, rfl⟩
abbrev main_c_50 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_c_51 : Ref sig .tc := ⟨.hbm, 225, rfl⟩
abbrev main_v169 : Ref sig .tc := ⟨.hbm, 226, rfl⟩
abbrev main_v170 : Ref sig .tc := ⟨.hbm, 227, rfl⟩
abbrev main_c_52 : Ref sig .tc := ⟨.hbm, 228, rfl⟩
abbrev main_v171 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_cst_53 : Ref sig .tc := ⟨.hbm, 237, rfl⟩
abbrev main_v179 : Ref sig .tc := ⟨.hbm, 238, rfl⟩
abbrev main_cst_54 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_cst_55 : Ref sig .tc := ⟨.hbm, 244, rfl⟩
abbrev main_v184 : Ref sig .tc := ⟨.hbm, 245, rfl⟩
abbrev main_v185 : Ref sig .tc := ⟨.hbm, 246, rfl⟩
abbrev main_cst_56 : Ref sig .tc := ⟨.hbm, 247, rfl⟩
abbrev main_v186 : Ref sig .tc := ⟨.hbm, 248, rfl⟩
abbrev main_v187 : Ref sig .tc := ⟨.hbm, 249, rfl⟩
abbrev main_c_57 : Ref sig .tc := ⟨.hbm, 250, rfl⟩
abbrev main_v188 : Ref sig .tc := ⟨.hbm, 251, rfl⟩
abbrev main_v189 : Ref sig .tc := ⟨.hbm, 252, rfl⟩
abbrev main_v190 : Ref sig .tc := ⟨.hbm, 253, rfl⟩
abbrev main_v191 : Ref sig .tc := ⟨.hbm, 254, rfl⟩

abbrev nD : Nat := 1
abbrev τ : Topo := Topo.v7x

variable {F : FTy → Type} [FloatOps F]

class Facts₀ : Prop where
  bcast_S_S135169 : S_.BroadcastsInDim S135169 (![] : Fin 0 → Fin S135169.rank)
  bcast_S_S1 : S_.BroadcastsInDim S1 (![] : Fin 0 → Fin S1.rank)
  shapeCasts_S1x4096_S4096 : S1x4096.ShapeCasts S4096
  slices_S8x16384x128_S1x16384x128_0_0_0 : S8x16384x128.Slices ![0, 0, 0] S1x16384x128
  shapeCasts_S1x16384x128_S16384x128 : S1x16384x128.ShapeCasts S16384x128
  bcast_S_S16384x128 : S_.BroadcastsInDim S16384x128 (![] : Fin 0 → Fin S16384x128.rank)
  bcast_S16384x128_S16384x128x1_0_1 : S16384x128.BroadcastsInDim S16384x128x1 (![0, 1] : Fin 2 → Fin S16384x128x1.rank)
  reducesTo_S16384x128_S16384_d1 : S16384x128.ReducesTo [1] S16384
  h_S_ : 0 < S_.numel
  bcast_S_S16384 : S_.BroadcastsInDim S16384 (![] : Fin 0 → Fin S16384.rank)
  slices_S8x16384x128_S1x16384x128_1_0_0 : S8x16384x128.Slices ![1, 0, 0] S1x16384x128
  slices_S8x16384x128_S1x16384x128_2_0_0 : S8x16384x128.Slices ![2, 0, 0] S1x16384x128
  slices_S8x16384x128_S1x16384x128_3_0_0 : S8x16384x128.Slices ![3, 0, 0] S1x16384x128
  slices_S8x16384x128_S1x16384x128_4_0_0 : S8x16384x128.Slices ![4, 0, 0] S1x16384x128
  slices_S8x16384x128_S1x16384x128_5_0_0 : S8x16384x128.Slices ![5, 0, 0] S1x16384x128
  slices_S8x16384x128_S1x16384x128_6_0_0 : S8x16384x128.Slices ![6, 0, 0] S1x16384x128
  slices_S8x16384x128_S1x16384x128_7_0_0 : S8x16384x128.Slices ![7, 0, 0] S1x16384x128
  slices_S135169_S16384_118785 : S135169.Slices ![118785] S16384
  bcast_S16384_S1x16384_1 : S16384.BroadcastsInDim S1x16384 (![1] : Fin 1 → Fin S1x16384.rank)
  scatter_S135169_S1_S__n_0_0_0_wf : ScatterDims.WF S135169 S1 S_ [] [0] [0] 0
  scatter_S135169_S1_S4096_0_n_0_0_wf : ScatterDims.WF S135169 S1 S4096 [0] [] [0] 0
  gather_S135169_S16384x128x1_S16384x128_n_0_n_n_0_2_1_wf : GatherDims.WF S135169 S16384x128x1 S16384x128 [] [0] [] [0] [] 2 ![1]
  scatter_S135169_S1_S16384_0_n_0_0_wf : ScatterDims.WF S135169 S1 S16384 [0] [] [0] 0

variable [Facts₀]

def scatter_S135169_S1_S__n_0_0_0 : ScatterDims S135169 S1 S_ where
  updateWindowDims := []
  insertedWindowDims := [0]
  scatterDimsToOperandDims := [0]
  indexVectorDim := 0
  wf := scatter_S135169_S1_S__n_0_0_0_wf
def scatter_S135169_S1_S4096_0_n_0_0 : ScatterDims S135169 S1 S4096 where
  updateWindowDims := [0]
  insertedWindowDims := []
  scatterDimsToOperandDims := [0]
  indexVectorDim := 0
  wf := scatter_S135169_S1_S4096_0_n_0_0_wf
def gather_S135169_S16384x128x1_S16384x128_n_0_n_n_0_2_1 : GatherDims S135169 S16384x128x1 S16384x128 where
  offsetDims := []
  collapsedSliceDims := [0]
  operandBatchingDims := []
  startIndicesBatchingDims := []
  startIndexMap := [0]
  indexVectorDim := 2
  sliceSizes := ![1]
  wf := gather_S135169_S16384x128x1_S16384x128_n_0_n_n_0_2_1_wf
def scatter_S135169_S1_S16384_0_n_0_0 : ScatterDims S135169 S1 S16384 where
  updateWindowDims := [0]
  insertedWindowDims := []
  scatterDimsToOperandDims := [0]
  indexVectorDim := 0
  wf := scatter_S135169_S1_S16384_0_n_0_0_wf

class Facts : Prop extends Facts₀ where

variable [Facts]
-- ==== Proof.LayerSpec.lean ====
/-
  One layer of the network, as a function on extended reals: node `r` of a layer of 16384 nodes takes its 128 weights
  and the activations of its 128 source nodes and returns the logistic function of 4.9 (the f32 nearest to it, the same
  word in both programs) times their dot product.
-/
import Idealize.ShloMosaic.Lib.ValueIdx
import Idealize.ShloMosaic.PureOps.Ideal

noncomputable section

open scoped BigOperators

namespace Cert.LayerSpec

open Idealize.ShloMosaic Idealize.ShloMosaic.ValueIdx

/-- The activation scale, the f32 word both programs carry. -/
abbrev scale : EReal := Ideal.ofBits .f32 0x409CCCCD#32

/-- The layer: node `r`'s activation from the layer's weights `w` and the gathered source activations `g`. -/
def act (w g : (⟨2, ![16384, 128]⟩ : Shape).Idx → EReal) : (⟨1, ![16384]⟩ : Shape).Idx → EReal :=
  fun r => Ideal.logistic (scale * ∑ k : Fin 128, w (ix2 (r 0) k) * g (ix2 (r 0) k))

end Cert.LayerSpec

end
-- ==== Proof.LayerRef.lean ====
/-
  The reference's chain of host operations for one layer — multiply, sum over the 128 sources, scale, negate,
  exponential, add one, divide one by it — is the layer function `act` on extended reals: its quotient
  `1 / (1 + exp (-z))` is the logistic function's own definition there.
-/
import proofs.«128059_j1726576856803_1_alg».proof.Proof.Gen.ReferenceIdeal
import proofs.«128059_j1726576856803_1_alg».proof.Proof.LayerSpec
import Idealize.ShloMosaic.PureOps.Ideal.Laws

noncomputable section

open scoped BigOperators

namespace Cert.LayerRef

open Idealize.ShloMosaic Idealize.ShloMosaic.ValueIdx Cert.ReferenceIdeal Cert.LayerSpec

open Cert.ReferenceIdeal.Facts₀ Cert.ReferenceIdeal.Facts

/-- The f32 word `0x3F800000` — sign 0, exponent 127, fraction 0 — is the extended real one: `2^23 · 2^(127-127-23)`. -/
private theorem one_word : Ideal.ofBits .f32 0x3F800000#32 = 1 := by
  have h : Ideal.ofBits .f32 0x3F800000#32 = ((1 : ℝ) : EReal) := by
    simp [Ideal.ofBits, Ideal.ieee, -EReal.coe_mul]
    norm_num
  rw [h]; rfl

/-- A scalar constant broadcast over the 16384 nodes reads its word's value at every node. -/
private theorem bc_apply (b : BitVec 32) (r : S16384.Idx) :
    broadcastInDim S16384 ![] bcast_S_S16384 (constant (F := Ideal) S_ .f32 b) r = Ideal.ofBits .f32 b := rfl
/-- The host's quotient at a node divides the elements. -/
private theorem hdiv_apply (a b : FVec Ideal S16384 .f32) (r : S16384.Idx) :
    Host.divf a b r = Ideal.div (a r) (b r) := rfl
/-- The host's exponential at a node is the element's. -/
private theorem hexp_apply (a : FVec Ideal S16384 .f32) (r : S16384.Idx) :
    Host.exp a r = Ideal.exp (a r) := rfl
/-- The host's negation at a node negates the element. -/
private theorem hneg_apply (a : FVec Ideal S16384 .f32) (r : S16384.Idx) :
    Host.negf a r = -(a r) := rfl

/-- The host's sum over the 128 sources at node `r`, from the initial value zero: the dot product of row `r` of the
    weights with row `r` of the gathered activations. -/
private theorem sum_row (w g : FVec Ideal S16384x128 .f32) (r : S16384.Idx) :
    Host.reduceAdd (F := Ideal) (mulf w g) (constant S_ .f32 0x00000000#32) reducesTo_S16384x128_S16384_d1 h_S_ r
      = ∑ k : Fin 128, w (ix2 (r 0) k) * g (ix2 (r 0) k) := by
  have hR : S16384x128.Reduces [1] S16384 := by decide
  refine (Ideal.hostReduceAdd_single reducesTo_S16384x128_S16384_d1 hR (mulf w g) _ r).trans ?_
  rw [show (constant (F := Ideal) S_ .f32 0x00000000#32 (Shape.Idx.first h_S_)) = Ideal.ofBits .f32 0x00000000#32 from rfl,
    Ideal.ofBits_zero_f32, zero_add]
  refine Finset.sum_congr rfl fun k _ => ?_
  -- the index with source `k` inserted at axis 1 of node `r` is `(r, k)`
  have hk : hR.lift r k = ix2 (r 0) k := by
    funext a
    match a with
    | ⟨0, _⟩ => rfl
    | ⟨1, _⟩ => rfl
  rw [hk]; rfl

/-- The reference's layer chain, as printed, is `act`. -/
theorem chain_eq_act (w g : FVec Ideal S16384x128 .f32) :
    Host.divf (broadcastInDim S16384 ![] bcast_S_S16384 (constant S_ .f32 0x3F800000#32))
      (addf (broadcastInDim S16384 ![] bcast_S_S16384 (constant S_ .f32 0x3F800000#32))
        (Host.exp (Host.negf (mulf (broadcastInDim S16384 ![] bcast_S_S16384 (constant S_ .f32 0x409CCCCD#32))
          (Host.reduceAdd (mulf w g) (constant S_ .f32 0x00000000#32) reducesTo_S16384x128_S16384_d1 h_S_)))))
      = act w g := by
  funext r
  rw [hdiv_apply, addf_apply, hexp_apply, hneg_apply, mulf_apply, bc_apply, bc_apply, sum_row, one_word]
  rfl

end Cert.LayerRef

end
-- ==== Proof.LibFlatDefs.lean ====
/-
  Flat arrays read by position: the first `N` entries of a flat array, a flat array with a run of consecutive entries
  replaced, and one with a single entry replaced.
-/
import Idealize.ShloMosaic.Lib.ValueIdx

noncomputable section

namespace Cert.LibFlat

open Idealize.ShloMosaic Idealize.ShloMosaic.ValueIdx

variable {α : Type}

/-- The first `N` entries of a flat array of length `T`. -/
def firstN {T : Nat} (N : Nat) (h : N ≤ T) (B : (⟨1, ![T]⟩ : Shape).Idx → α) : (⟨1, ![N]⟩ : Shape).Idx → α :=
  fun j => B (ix1 ⟨(j 0).val, Nat.lt_of_lt_of_le (j 0).isLt h⟩)

/-- `B` with the `M` entries from position `s` on replaced by `O`. -/
def writeAt {T M : Nat} (B : (⟨1, ![T]⟩ : Shape).Idx → α) (s : Nat) (O : (⟨1, ![M]⟩ : Shape).Idx → α) :
    (⟨1, ![T]⟩ : Shape).Idx → α :=
  fun i => if h : s ≤ (i 0).val ∧ (i 0).val < s + M then O (ix1 ⟨(i 0).val - s, by omega⟩) else B i

/-- `B` with the entry at position `s` replaced by `v`. -/
def setAt {T : Nat} (B : (⟨1, ![T]⟩ : Shape).Idx → α) (s : Nat) (v : α) : (⟨1, ![T]⟩ : Shape).Idx → α :=
  fun i => if (i 0).val = s then v else B i

/-- A prefix of a prefix is a prefix. -/
theorem firstN_writeAt_of_le {T M N : Nat} (hNT : N ≤ T) (B : (⟨1, ![T]⟩ : Shape).Idx → α) (s : Nat)
    (O : (⟨1, ![M]⟩ : Shape).Idx → α) (hs : N ≤ s) : firstN N hNT (writeAt B s O) = firstN N hNT B := by
  funext j
  unfold firstN writeAt
  have hj : (j 0).val < N := (j 0).isLt
  rw [dif_neg]
  intro h
  have : s ≤ (j 0).val := h.1
  omega

end Cert.LibFlat

end
-- ==== Proof.LayerOut.lean ====
/-
  The layer's 16384 activations as the [1, 16384] array a launch writes, as the flat run of 16384 entries the host
  reshapes it to, and as the last 16384 entries of the reference's node buffer laid out as a [1, 16384] row.
-/
import proofs.«128059_j1726576856803_1_alg».proof.Proof.LayerSpec
import proofs.«128059_j1726576856803_1_alg».proof.Proof.LibFlatDefs
import Idealize.ShloMosaic.Lib.Pipeline.Value
import Idealize.ShloMosaic.Lib.ValueLayout

noncomputable section

namespace Cert.LayerOut

open Idealize.ShloMosaic Idealize.ShloMosaic.ValueIdx Cert.LayerSpec Cert.LibFlat

/-- A flat run of 16384 values as a [1, 16384] row. -/
def asRow {α : Type} (O : (⟨1, ![16384]⟩ : Shape).Idx → α) : (⟨2, ![1, 16384]⟩ : Shape).Idx → α :=
  fun i => O (ix1 ⟨(i 1).val, idx2_lt1 i⟩)

/-- The layer's output as the [1, 16384] array a launch writes. -/
def outArr (w g : (⟨2, ![16384, 128]⟩ : Shape).Idx → EReal) : (⟨2, ![1, 16384]⟩ : Shape).Idx → EReal :=
  asRow (act w g)

/-- Reshaped to a flat run, a row is the run it was made from. -/
theorem shapeCast_asRow {α : Type} (O : (⟨1, ![16384]⟩ : Shape).Idx → α)
    (h : (⟨2, ![1, 16384]⟩ : Shape).ShapeCasts ⟨1, ![16384]⟩) :
    shapeCast (⟨1, ![16384]⟩ : Shape) (asRow O) h = O := by
  funext j
  -- the row's index (0, j) has the same row-major position as the flat index j
  rw [shapeCast_apply (asRow O) h j (ix2 (0 : Fin 1) (j 0)) (by
    rw [Shape.rowMajor_val_two, Shape.rowMajor_val_one]
    show 0 * 16384 + (j 0).val = (j 0).val
    omega)]
  unfold asRow
  refine congrArg O (funext fun a => ?_)
  obtain rfl : a = 0 := Subsingleton.elim _ _
  rfl

/-- The last 16384 entries of a node buffer whose run at 118785 was replaced by `O`, laid out as a row, are `O` as a row. -/
theorem row_of_writeAt {α : Type} (B : (⟨1, ![135169]⟩ : Shape).Idx → α) (O : (⟨1, ![16384]⟩ : Shape).Idx → α)
    (hs : (⟨1, ![135169]⟩ : Shape).Slices ![118785] ⟨1, ![16384]⟩)
    (hb : (⟨1, ![16384]⟩ : Shape).BroadcastsInDim ⟨2, ![1, 16384]⟩ ![1]) :
    broadcastInDim (⟨2, ![1, 16384]⟩ : Shape) ![1] hb (extractStridedSlice (⟨1, ![16384]⟩ : Shape) ![118785] (writeAt B 118785 O) hs)
      = asRow O := by
  funext i
  have hi : (i 1).val < 16384 := idx2_lt1 i
  -- the broadcast along the new leading axis reads the column; the slice shifts it by the offset
  rw [broadcastInDim_apply ![1] hb _ i (ix1 ⟨(i 1).val, hi⟩) (fun a => by
    obtain rfl : a = 0 := Subsingleton.elim _ _
    show (i 1).val = if (16384 : Nat) = 1 then 0 else (i 1).val
    rw [if_neg (by decide)])]
  rw [extractStridedSlice_apply ![118785] _ hs (ix1 ⟨(i 1).val, hi⟩) (ix1 ⟨118785 + (i 1).val, by omega⟩) (fun a => by
    obtain rfl : a = 0 := Subsingleton.elim _ _
    rfl)]
  unfold writeAt asRow
  rw [dif_pos ⟨by show 118785 ≤ 118785 + (i 1).val; omega, by show 118785 + (i 1).val < 118785 + 16384; omega⟩]
  refine congrArg O (funext fun a => ?_)
  obtain rfl : a = 0 := Subsingleton.elim _ _
  apply Fin.ext
  show 118785 + (i 1).val - 118785 = (i 1).val
  omega

/-- The node buffer's first 4097 entries at the start: the bias node's 1, then the 4096 inputs. -/
theorem concat_bias_inputs {α : Type} (z one : α) (X : (⟨1, ![4096]⟩ : Shape).Idx → α)
    (hc : Shape.Concatenates [(⟨1, ![1]⟩ : Shape), (⟨1, ![4096]⟩ : Shape)] ⟨1, ![4097]⟩ 0) :
    concatenate (⟨1, ![4097]⟩ : Shape) 0 [⟨(⟨1, ![1]⟩ : Shape), fun _ => one⟩, ⟨(⟨1, ![4096]⟩ : Shape), X⟩] hc
      = firstN 4097 (by decide) (writeAt (setAt (fun _ : (⟨1, ![135169]⟩ : Shape).Idx => z) 0 one) 1 X) := by
  funext j
  have hj4 : (j 0).val < 4097 := (j 0).isLt
  by_cases hj : (j 0).val < 1
  · -- the first entry: the left piece, and in the buffer the entry set at 0, left of the run at 1
    rw [concatenate_pair_apply_left 0 _ _ hc j rfl (ix1 ⟨(j 0).val, hj⟩)
      (fun b => by obtain rfl : b = 0 := Subsingleton.elim _ _; rfl)]
    unfold firstN writeAt setAt
    rw [dif_neg (fun h => by have : 1 ≤ (j 0).val := h.1; omega), if_pos (by show (j 0).val = 0; omega)]
  · -- past the seam: the right piece one position back, which is the run at 1
    rw [concatenate_pair_apply_right 0 _ _ hc j rfl rfl (ix1 ⟨(j 0).val - 1, by omega⟩)
      (fun b hb => absurd (Subsingleton.elim _ _) hb)
      (by show (j 0).val - 1 + 1 = (j 0).val; omega)]
    unfold firstN writeAt
    rw [dif_pos ⟨by show 1 ≤ (j 0).val; omega, by show (j 0).val < 1 + 4096; omega⟩]

end Cert.LayerOut

end
-- ==== Proof.LibFlat.lean ====
/-
  Flat arrays read by position: a prefix of a flat array, a flat array with a run of entries replaced, and the host
  operations that compute them. A `stablehlo.scatter` that writes ONE window of `M` consecutive entries at a start position
  read off a one-element index vector (what `buf.at[s : s + M].set(v)` lowers to) is the array with that run replaced;
  the same with a scalar update and the operand's axis inserted (`buf.at[s].set(v)`) replaces one entry; and
  concatenating the first `N` entries of an array with `M` new ones is the first `N + M` entries of the array with the
  run at `N` replaced.
-/
import proofs.«128059_j1726576856803_1_alg».proof.Proof.LibFlatDefs
import Idealize.ShloMosaic.Lib.ValueIdx
import Idealize.ShloMosaic.Lib.Pipeline.Value

noncomputable section

namespace Cert.LibFlat

open Idealize.ShloMosaic Idealize.ShloMosaic.ValueIdx

variable {α : Type}

/-- The dimension numbers of a scatter of ONE window of `M` entries into a flat array of length `T`, the start read
    off a one-element index vector. -/
abbrev windowDims (T M : Nat) (wf : ScatterDims.WF ⟨1, ![T]⟩ ⟨1, ![1]⟩ ⟨1, ![M]⟩ [0] [] [0] 0) :
    ScatterDims ⟨1, ![T]⟩ ⟨1, ![1]⟩ ⟨1, ![M]⟩ where
  updateWindowDims := [0]
  insertedWindowDims := []
  scatterDimsToOperandDims := [0]
  indexVectorDim := 0
  wf := wf

/-- The dimension numbers of a scatter of ONE scalar into a flat array of length `T` (the array's axis inserted). -/
abbrev pointDims (T : Nat) (wf : ScatterDims.WF ⟨1, ![T]⟩ ⟨1, ![1]⟩ ⟨0, ![]⟩ [] [0] [0] 0) :
    ScatterDims ⟨1, ![T]⟩ ⟨1, ![1]⟩ ⟨0, ![]⟩ where
  updateWindowDims := []
  insertedWindowDims := [0]
  scatterDimsToOperandDims := [0]
  indexVectorDim := 0
  wf := wf

/-! ### A fold of overwrites at pairwise distinct places -/

/-- A fold of steps each of which overwrites one place, read at a place none of them names: the start value. -/
private theorem foldl_set_miss {ι β γ : Type} (g : (β → γ) → ι → (β → γ)) (ψ : ι → β)
    (hmiss : ∀ r n i', i' ≠ ψ n → g r n i' = r i') :
    ∀ (l : List ι) (x : β → γ) (i : β), (∀ n ∈ l, ψ n ≠ i) → l.foldl g x i = x i
  | [], _, _, _ => rfl
  | n :: l, x, i, h => by
    rw [List.foldl_cons, foldl_set_miss g ψ hmiss l _ i (fun m hm => h m (List.mem_cons_of_mem _ hm))]
    exact hmiss x n i (fun e => h n (List.mem_cons_self ..) e.symm)

/-- A fold over a list without repeats of steps each of which overwrites one place, the places pairwise distinct, read
    at the place one element of the list names: that element's value (no later step touches it). -/
private theorem foldl_set_hit {ι β γ : Type} (g : (β → γ) → ι → (β → γ)) (ψ : ι → β) (v : ι → γ)
    (hψ : Function.Injective ψ) (hhit : ∀ r n, g r n (ψ n) = v n) (hmiss : ∀ r n i', i' ≠ ψ n → g r n i' = r i') :
    ∀ (l : List ι) (x : β → γ) (n0 : ι), l.Nodup → n0 ∈ l → l.foldl g x (ψ n0) = v n0
  | [], _, _, _, h => absurd h List.not_mem_nil
  | n :: l, x, n0, hnd, hmem => by
    rw [List.foldl_cons]
    rcases List.mem_cons.1 hmem with rfl | hm
    · rw [foldl_set_miss g ψ hmiss l _ (ψ n0) (fun m hm e => (List.nodup_cons.1 hnd).1 (hψ e ▸ hm)), hhit]
    · exact foldl_set_hit g ψ v hψ hhit hmiss l _ n0 (List.nodup_cons.1 hnd).2 hm

/-- A scatter whose body returns the update and whose update indices land, all of them, inside the operand at pairwise
    distinct places `φ j`: the update's element `j` at `φ j`, the operand's everywhere else. -/
private theorem scatter_set_apply {s si u : Shape} {w : Nat} (d : ScatterDims s si u) (x : s.Idx → α) (idx : IVec si w)
    (upd : u.Idx → α) (φ : u.Idx → s.Idx) (hφ : Function.Injective φ) (hres : ∀ j, d.resultIdx? j idx = some (φ j)) :
    (∀ j, Host.scatter d (fun _ b => b) x idx upd (φ j) = upd j) ∧
      (∀ i, (∀ j, φ j ≠ i) → Host.scatter d (fun _ b => b) x idx upd i = x i) := by
  have hinj : Function.Injective fun n : Fin u.numel => φ (u.rowMajor.symm n) := fun a b e => u.rowMajor.symm.injective (hφ e)
  constructor
  · intro j
    have key : ∀ n : Fin u.numel,
        Host.scatter d (fun _ b => b) x idx upd (φ (u.rowMajor.symm n)) = upd (u.rowMajor.symm n) := by
      intro n
      unfold Host.scatter
      exact foldl_set_hit _ (fun n : Fin u.numel => φ (u.rowMajor.symm n)) (fun n => upd (u.rowMajor.symm n)) hinj
        (fun r n => by simp [hres]) (fun r n i' hi => by simp [hres, hi])
        (List.finRange u.numel) x n (List.nodup_finRange _) (List.mem_finRange _)
    have h := key (u.rowMajor j)
    rwa [Equiv.symm_apply_apply] at h
  · intro i hi
    unfold Host.scatter
    exact foldl_set_miss _ (fun n : Fin u.numel => φ (u.rowMajor.symm n))
      (fun r n i' hi => by simp [hres, hi]) _ x i (fun n _ => hi _)

/-! ### One window into a flat array -/

/-- Where the window's element `j` lands: the start plus its coordinate. -/
private theorem windowDims_resultIdx {T M w : Nat} (wf : ScatterDims.WF ⟨1, ![T]⟩ ⟨1, ![1]⟩ ⟨1, ![M]⟩ [0] [] [0] 0)
    (idx : IVec ⟨1, ![1]⟩ w) (s : Nat) (hidx : (idx (ix1 0)).toInt = (s : Int)) (hfit : s + M ≤ T)
    (j : (⟨1, ![M]⟩ : Shape).Idx) :
    (windowDims T M wf).resultIdx? j idx
      = some (ix1 ⟨s + (j 0).val, by have : (j 0).val < M := (j 0).isLt; omega⟩) := by
  have hjM : (j 0).val < M := (j 0).isLt
  have hstart : ∀ a, (windowDims T M wf).start j idx a = (s : Int) := by
    intro a
    obtain rfl : a = 0 := Subsingleton.elim _ _
    unfold ScatterDims.start
    rw [dif_pos (List.mem_singleton.2 rfl), ← hidx]
    congr 2
    funext b
    obtain rfl : b = 0 := Subsingleton.elim _ _
    rfl
  have hwin : ∀ a, (windowDims T M wf).window j a = (j 0).val := by
    intro a
    obtain rfl : a = 0 := Subsingleton.elim _ _
    unfold ScatterDims.window
    have h0 : (0 : Fin (⟨1, ![T]⟩ : Shape).rank) ∈ (windowDims T M wf).sKept :=
      List.mem_filter.2 ⟨List.mem_finRange _, by simp⟩
    rw [dif_pos h0]
    rfl
  unfold ScatterDims.resultIdx?
  rw [dif_pos (fun a => by
    rw [hstart, hwin]
    have : (⟨1, ![T]⟩ : Shape).size a = T := by obtain rfl : a = 0 := Subsingleton.elim _ _; rfl
    rw [this]; constructor <;> omega)]
  congr 1
  funext a
  obtain rfl : a = 0 := Subsingleton.elim _ _
  apply Fin.ext
  show ((windowDims T M wf).start j idx 0 + (windowDims T M wf).window j 0).toNat = s + (j 0).val
  rw [hstart, hwin]
  omega

/-- A scatter whose body returns the update, of one window of `M` entries that fits at the start `s`: the run replaced. -/
theorem scatter_window_eq_writeAt {T M w : Nat} (wf : ScatterDims.WF ⟨1, ![T]⟩ ⟨1, ![1]⟩ ⟨1, ![M]⟩ [0] [] [0] 0)
    (B : (⟨1, ![T]⟩ : Shape).Idx → α) (idx : IVec ⟨1, ![1]⟩ w) (O : (⟨1, ![M]⟩ : Shape).Idx → α) (s : Nat)
    (hidx : (idx (ix1 0)).toInt = (s : Int)) (hfit : s + M ≤ T) :
    Host.scatter (windowDims T M wf) (fun _ b => b) B idx O = writeAt B s O := by
  -- element `j` of the window lands at `s + j`: distinct places for distinct `j`
  obtain ⟨hhit, hmiss⟩ := scatter_set_apply (windowDims T M wf) B idx O
    (fun j => ix1 ⟨s + (j 0).val, by have : (j 0).val < M := (j 0).isLt; omega⟩)
    (fun a b e => by
      have h : s + (a 0).val = s + (b 0).val := congrArg (fun k : (⟨1, ![T]⟩ : Shape).Idx => (k 0).val) e
      rw [eq_ix1 a, eq_ix1 b]
      congr 1
      apply Fin.ext
      omega)
    (windowDims_resultIdx wf idx s hidx hfit)
  funext i
  unfold writeAt
  by_cases h : s ≤ (i 0).val ∧ (i 0).val < s + M
  · -- inside the run: the place of the window's element `i - s`
    rw [dif_pos h, ← hhit (ix1 ⟨(i 0).val - s, by omega⟩)]
    congr 1
    funext a
    obtain rfl : a = 0 := Subsingleton.elim _ _
    apply Fin.ext
    show (i 0).val = s + ((i 0).val - s)
    omega
  · -- outside the run: no element of the window lands here
    rw [dif_neg h]
    apply hmiss
    intro j e
    apply h
    have h1 : s + (j 0).val = (i 0).val := congrArg (fun k : (⟨1, ![T]⟩ : Shape).Idx => (k 0).val) e
    have hj : (j 0).val < M := (j 0).isLt
    omega

/-! ### One scalar into a flat array -/

/-- Where the scalar lands: the start. -/
private theorem pointDims_resultIdx {T w : Nat} (wf : ScatterDims.WF ⟨1, ![T]⟩ ⟨1, ![1]⟩ ⟨0, ![]⟩ [] [0] [0] 0)
    (idx : IVec ⟨1, ![1]⟩ w) (s : Nat) (hidx : (idx (ix1 0)).toInt = (s : Int)) (hfit : s < T)
    (j : (⟨0, ![]⟩ : Shape).Idx) :
    (pointDims T wf).resultIdx? j idx = some (ix1 ⟨s, hfit⟩) := by
  have hstart : ∀ a, (pointDims T wf).start j idx a = (s : Int) := by
    intro a
    obtain rfl : a = 0 := Subsingleton.elim _ _
    unfold ScatterDims.start
    rw [dif_pos (List.mem_singleton.2 rfl), ← hidx]
    congr 2
    funext b
    obtain rfl : b = 0 := Subsingleton.elim _ _
    rfl
  have hwin : ∀ a, (pointDims T wf).window j a = 0 := by
    intro a
    obtain rfl : a = 0 := Subsingleton.elim _ _
    unfold ScatterDims.window
    have h0 : (0 : Fin (⟨1, ![T]⟩ : Shape).rank) ∉ (pointDims T wf).sKept := fun hm => by
      have := (List.mem_filter.1 hm).2
      simp at this
    rw [dif_neg h0]
  unfold ScatterDims.resultIdx?
  rw [dif_pos (fun a => by
    rw [hstart, hwin]
    have : (⟨1, ![T]⟩ : Shape).size a = T := by obtain rfl : a = 0 := Subsingleton.elim _ _; rfl
    rw [this]; constructor <;> omega)]
  congr 1
  funext a
  obtain rfl : a = 0 := Subsingleton.elim _ _
  apply Fin.ext
  show ((pointDims T wf).start j idx 0 + (pointDims T wf).window j 0).toNat = s
  rw [hstart, hwin]
  omega

/-- A scatter whose body returns the update, of one scalar at the position `s` inside the array: that entry replaced. -/
theorem scatter_point_eq_setAt {T w : Nat} (wf : ScatterDims.WF ⟨1, ![T]⟩ ⟨1, ![1]⟩ ⟨0, ![]⟩ [] [0] [0] 0)
    (B : (⟨1, ![T]⟩ : Shape).Idx → α) (idx : IVec ⟨1, ![1]⟩ w) (v : (⟨0, ![]⟩ : Shape).Idx → α) (s : Nat)
    (hidx : (idx (ix1 0)).toInt = (s : Int)) (hfit : s < T) :
    Host.scatter (pointDims T wf) (fun _ b => b) B idx v = setAt B s (v ix0) := by
  -- the update has one element, and it lands at `s`
  obtain ⟨hhit, hmiss⟩ := scatter_set_apply (pointDims T wf) B idx v (fun _ => ix1 ⟨s, hfit⟩)
    (fun a b _ => (eq_ix0 a).trans (eq_ix0 b).symm) (pointDims_resultIdx wf idx s hidx hfit)
  funext i
  unfold setAt
  by_cases h : (i 0).val = s
  · rw [if_pos h, ← hhit ix0]
    congr 1
    funext a
    obtain rfl : a = 0 := Subsingleton.elim _ _
    exact Fin.ext h
  · rw [if_neg h]
    apply hmiss
    intro j e
    exact h (congrArg (fun k : (⟨1, ![T]⟩ : Shape).Idx => (k 0).val) e).symm

/-! ### A prefix followed by new entries -/

/-- The first `N` entries followed by `M` new ones are the first `N + M` entries of the array with the run at `N` replaced. -/
theorem concat_firstN_eq {T N M K : Nat} (hK : K = N + M) (hNT : N ≤ T) (hKT : K ≤ T)
    (B : (⟨1, ![T]⟩ : Shape).Idx → α) (O : (⟨1, ![M]⟩ : Shape).Idx → α)
    (hc : Shape.Concatenates [(⟨1, ![N]⟩ : Shape), (⟨1, ![M]⟩ : Shape)] ⟨1, ![K]⟩ 0) :
    concatenate (⟨1, ![K]⟩ : Shape) 0 [⟨(⟨1, ![N]⟩ : Shape), firstN N hNT B⟩, ⟨(⟨1, ![M]⟩ : Shape), O⟩] hc
      = firstN K hKT (writeAt B N O) := by
  subst hK
  funext j
  have hjK : (j 0).val < N + M := (j 0).isLt
  by_cases hj : (j 0).val < N
  · -- left of the seam: the prefix's own entry, which the replaced run does not reach
    rw [concatenate_pair_apply_left 0 _ _ hc j rfl (ix1 ⟨(j 0).val, hj⟩)
      (fun b => by obtain rfl : b = 0 := Subsingleton.elim _ _; rfl)]
    unfold firstN writeAt
    rw [dif_neg (fun h => by have : N ≤ (j 0).val := h.1; omega)]
    rfl
  · -- right of the seam: the new entry at the position counted from the seam
    rw [concatenate_pair_apply_right 0 _ _ hc j rfl rfl (ix1 ⟨(j 0).val - N, by omega⟩)
      (fun b hb => absurd (Subsingleton.elim _ _) hb)
      (by show (j 0).val - N + N = (j 0).val; omega)]
    unfold firstN writeAt
    rw [dif_pos (⟨by show N ≤ (j 0).val; omega, by show (j 0).val < N + M; omega⟩)]
    rfl

end Cert.LibFlat

end
-- ==== Proof.LibTake.lean ====
/-
  `x[idx]` of a flat array at a rectangle of signed 32-bit indices, as jnp lowers it: a negative index is first moved up by
  the array's length (`select (idx < 0) (idx + N) idx`), the result laid out as an [R, C, 1] table of start indices, and
  the gather clamps each start into the array. Where an index is already a position `0 ≤ n < N` none of this changes it:
  the element read is the array's at `n`. So the same in-range indices read the same elements from a prefix of an array
  as from the array itself.
-/
import proofs.«128059_j1726576856803_1_alg».proof.Proof.LibFlatDefs
import Idealize.ShloMosaic.Lib.ValueIdx
import Idealize.ShloMosaic.Lib.StableHlo.Predicate

noncomputable section

namespace Cert.LibTake

open Idealize.ShloMosaic Idealize.ShloMosaic.ValueIdx Cert.LibFlat

variable {α : Type}

/-- jnp's normalisation of possibly negative indices against an axis of length `N`, then the [R, C, 1] start-index table. -/
abbrev normIdx {R C : Nat} (N : Nat) (idx : IVec ⟨2, ![R, C]⟩ 32)
    (hb3 : (⟨2, ![R, C]⟩ : Shape).BroadcastsInDim ⟨3, ![R, C, 1]⟩ ![0, 1])
    (hb0 : (⟨0, ![]⟩ : Shape).BroadcastsInDim ⟨2, ![R, C]⟩ ![]) : IVec ⟨3, ![R, C, 1]⟩ 32 :=
  broadcastInDim ⟨3, ![R, C, 1]⟩ ![0, 1] hb3
    (select (cmpi .slt idx (broadcastInDim ⟨2, ![R, C]⟩ ![] hb0 (constantI ⟨0, ![]⟩ 32 0#32)))
      (addi idx (broadcastInDim ⟨2, ![R, C]⟩ ![] hb0 (constantI ⟨0, ![]⟩ 32 (BitVec.ofNat 32 N)))) idx)

/-- The [R, C] → [R, C, 1] broadcast along the first two axes reads, at `[t, j, 0]`, the array at `(t, j)`: on an axis
    of length one both coordinates are `0`. -/
private theorem bcast3_takeIdx {β : Type} {R C : Nat}
    (hb3 : (⟨2, ![R, C]⟩ : Shape).BroadcastsInDim ⟨3, ![R, C, 1]⟩ ![0, 1])
    (v : (⟨2, ![R, C]⟩ : Shape).Idx → β) (y : (⟨2, ![R, C]⟩ : Shape).Idx) :
    broadcastInDim ⟨3, ![R, C, 1]⟩ ![0, 1] hb3 v (takeIdx y) = v y := by
  unfold broadcastInDim
  refine congrArg v (funext fun a => Fin.ext ?_)
  match a with
  | ⟨0, _⟩ =>
    split
    · next h1 =>
      change R = 1 at h1
      have := idx2_lt0 y
      show (0 : Nat) = (y 0).val
      omega
    · rfl
  | ⟨1, _⟩ =>
    split
    · next h1 =>
      change C = 1 at h1
      have := idx2_lt1 y
      show (0 : Nat) = (y 1).val
      omega
    · rfl

/-- A word whose signed value is a natural number is not below zero. -/
private theorem cmpi_slt_zero_of_toInt_eq_nat (b : BitVec 32) (n : Nat) (h : b.toInt = (n : Int)) :
    IntOp.cmpi .slt b 0#32 = 0#1 := by
  have hs : b.slt 0#32 = false := by
    simp [BitVec.slt, h]
  simp [IntOp.cmpi, hs]

/-- Where the index at `y` is a natural number, the normalised start index at `[t, j, 0]` is that index unchanged: the
    comparison with zero fails, so the select keeps its second operand. -/
private theorem normIdx_takeIdx_of_nonneg {N R C : Nat} (idx : IVec ⟨2, ![R, C]⟩ 32)
    (hb3 : (⟨2, ![R, C]⟩ : Shape).BroadcastsInDim ⟨3, ![R, C, 1]⟩ ![0, 1])
    (hb0 : (⟨0, ![]⟩ : Shape).BroadcastsInDim ⟨2, ![R, C]⟩ ![])
    (y : (⟨2, ![R, C]⟩ : Shape).Idx) (n : Nat) (hy : (idx y).toInt = (n : Int)) :
    normIdx N idx hb3 hb0 (takeIdx y) = idx y := by
  unfold normIdx
  rw [bcast3_takeIdx, select_apply]
  have hc : cmpi .slt idx (broadcastInDim ⟨2, ![R, C]⟩ ![] hb0 (constantI ⟨0, ![]⟩ 32 0#32)) y = 0#1 :=
    cmpi_slt_zero_of_toInt_eq_nat (idx y) n hy
  rw [hc, select_zero]

/-- Where the index at `y` is a position `n < N` of the array, the take reads the array at `n`. -/
theorem take_apply_of_inRange {N R C : Nat} (hN31 : N < 2 ^ 31)
    (wf : GatherDims.WF ⟨1, ![N]⟩ ⟨3, ![R, C, 1]⟩ ⟨2, ![R, C]⟩ [] [0] [] [0] [] 2 ![1])
    (x : (⟨1, ![N]⟩ : Shape).Idx → α) (idx : IVec ⟨2, ![R, C]⟩ 32)
    (hb3 : (⟨2, ![R, C]⟩ : Shape).BroadcastsInDim ⟨3, ![R, C, 1]⟩ ![0, 1])
    (hb0 : (⟨0, ![]⟩ : Shape).BroadcastsInDim ⟨2, ![R, C]⟩ ![])
    (y : (⟨2, ![R, C]⟩ : Shape).Idx) (n : Nat) (hy : (idx y).toInt = (n : Int)) (hn : n < N) :
    Host.gather (takeDims N R C wf) x (normIdx N idx hb3 hb0) y = x (ix1 ⟨n, hn⟩) := by
  rw [gather_take_apply (Nat.zero_lt_of_lt hn)]
  refine congrArg x (congrArg ix1 (Fin.ext ?_))
  show min (normIdx N idx hb3 hb0 (takeIdx y)).toInt.toNat (N - 1) = n
  rw [normIdx_takeIdx_of_nonneg idx hb3 hb0 y n hy, hy, Int.toNat_natCast]
  omega

/-- In-range indices read the same elements from the first `N` entries of an array as from the whole array. -/
theorem take_firstN_eq_take {T N R C : Nat} (hNT : N ≤ T) (hT31 : T < 2 ^ 31)
    (wfN : GatherDims.WF ⟨1, ![N]⟩ ⟨3, ![R, C, 1]⟩ ⟨2, ![R, C]⟩ [] [0] [] [0] [] 2 ![1])
    (wfT : GatherDims.WF ⟨1, ![T]⟩ ⟨3, ![R, C, 1]⟩ ⟨2, ![R, C]⟩ [] [0] [] [0] [] 2 ![1])
    (B : (⟨1, ![T]⟩ : Shape).Idx → α) (idx : IVec ⟨2, ![R, C]⟩ 32)
    (hb3 : (⟨2, ![R, C]⟩ : Shape).BroadcastsInDim ⟨3, ![R, C, 1]⟩ ![0, 1])
    (hb0 : (⟨0, ![]⟩ : Shape).BroadcastsInDim ⟨2, ![R, C]⟩ ![])
    (hb3' : (⟨2, ![R, C]⟩ : Shape).BroadcastsInDim ⟨3, ![R, C, 1]⟩ ![0, 1])
    (hb0' : (⟨0, ![]⟩ : Shape).BroadcastsInDim ⟨2, ![R, C]⟩ ![])
    (hidx : ∀ y, 0 ≤ (idx y).toInt ∧ (idx y).toInt < (N : Int)) :
    Host.gather (takeDims N R C wfN) (firstN N hNT B) (normIdx N idx hb3 hb0)
      = Host.gather (takeDims T R C wfT) B (normIdx T idx hb3' hb0') := by
  funext y
  obtain ⟨h0, h1⟩ := hidx y
  obtain ⟨n, hn⟩ : ∃ n : Nat, (idx y).toInt = (n : Int) := ⟨(idx y).toInt.toNat, (Int.toNat_of_nonneg h0).symm⟩
  have hnN : n < N := by omega
  rw [take_apply_of_inRange (by omega) wfN _ idx hb3 hb0 y n hn hnN,
    take_apply_of_inRange hT31 wfT _ idx hb3' hb0' y n hn (by omega)]
  rfl

end Cert.LibTake

end
-- ==== Proof.RefChain.lean ====
/-
  The reference's node buffer, layer by layer, as plain functions. It starts as 135169 zeros with the bias node's 1 written at
  position 0 and the 4096 inputs at positions 1 … 4096; layer `l` gathers its source activations from the buffer at the
  layer's index table, applies the layer function to them and the layer's weights, and writes the 16384 activations at
  position 4097 + 16384·l; the result is the last 16384 entries after layer 7, as a [1, 16384] row — layer 7's activations.
-/
import proofs.«128059_j1726576856803_1_alg».proof.Proof.Gen.ReferenceIdeal.Run
import proofs.«128059_j1726576856803_1_alg».proof.Proof.LayerRef
import proofs.«128059_j1726576856803_1_alg».proof.Proof.LayerOut
import proofs.«128059_j1726576856803_1_alg».proof.Proof.LibFlat
import proofs.«128059_j1726576856803_1_alg».proof.Proof.LibTake

set_option maxRecDepth 8192

noncomputable section

namespace Cert.ReferenceIdeal.Chain

open Cert.ReferenceIdeal Cert.ReferenceIdeal.Value
open Idealize.ShloMosaic Idealize.ShloMosaic.TcCoe Idealize.ShloMosaic.StableHlo Idealize.ShloMosaic.ValueIdx
open Cert.ReferenceIdeal.Facts₀ Cert.ReferenceIdeal.Facts
open Cert.LibFlat Cert.LibTake Cert.LayerSpec Cert.LayerOut Cert.LayerRef

variable (V0 : Valuation τ sig (Elt Ideal))

/-- The bias node's value and the buffer's initial filling, as the two scalar constants read. -/
abbrev one : EReal := (constant (F := Ideal) S_ .f32 0x3F800000#32) ix0
abbrev zero : EReal := (constant (F := Ideal) S_ .f32 0x00000000#32) ix0

/-- A start position given as a one-element index vector of a small literal reads that literal. -/
theorem start_toInt (n : Nat) (hn : n < 2 ^ 31) :
    ((broadcastInDim S1 ![] bcast_S_S1 (constantI S_ 32 (BitVec.ofNat 32 n)) : IVec S1 32) (ix1 0)).toInt = (n : Int) := by
  show (BitVec.ofNat 32 n).toInt = (n : Int)
  exact Idealize.ShloMosaic.StableHlo.Predicate.toInt_ofNat_small n hn

/-- The gather of a layer's source activations from the node buffer at the layer's index table. -/
abbrev gat (B : S135169.Idx → EReal) (I : IVec S16384x128 32) : S16384x128.Idx → EReal :=
  Host.gather (takeDims 135169 16384 128 gather_S135169_S16384x128x1_S16384x128_n_0_n_n_0_2_1_wf) B
    (normIdx 135169 I bcast_S16384x128_S16384x128x1_0_1 bcast_S_S16384x128)

/-- Layer 0's weights: slice 0 of the weight argument. -/
abbrev wl0 : S16384x128.Idx → EReal :=
  shapeCast S16384x128 (extractStridedSlice S1x16384x128 ![0, 0, 0] (V0 (Proc.devRef .tc main_arg1)) slices_S8x16384x128_S1x16384x128_0_0_0) shapeCasts_S1x16384x128_S16384x128
/-- Layer 1's weights: slice 1 of the weight argument. -/
abbrev wl1 : S16384x128.Idx → EReal :=
  shapeCast S16384x128 (extractStridedSlice S1x16384x128 ![1, 0, 0] (V0 (Proc.devRef .tc main_arg1)) slices_S8x16384x128_S1x16384x128_1_0_0) shapeCasts_S1x16384x128_S16384x128
/-- Layer 2's weights: slice 2 of the weight argument. -/
abbrev wl2 : S16384x128.Idx → EReal :=
  shapeCast S16384x128 (extractStridedSlice S1x16384x128 ![2, 0, 0] (V0 (Proc.devRef .tc main_arg1)) slices_S8x16384x128_S1x16384x128_2_0_0) shapeCasts_S1x16384x128_S16384x128
/-- Layer 3's weights: slice 3 of the weight argument. -/
abbrev wl3 : S16384x128.Idx → EReal :=
  shapeCast S16384x128 (extractStridedSlice S1x16384x128 ![3, 0, 0] (V0 (Proc.devRef .tc main_arg1)) slices_S8x16384x128_S1x16384x128_3_0_0) shapeCasts_S1x16384x128_S16384x128
/-- Layer 4's weights: slice 4 of the weight argument. -/
abbrev wl4 : S16384x128.Idx → EReal :=
  shapeCast S16384x128 (extractStridedSlice S1x16384x128 ![4, 0, 0] (V0 (Proc.devRef .tc main_arg1)) slices_S8x16384x128_S1x16384x128_4_0_0) shapeCasts_S1x16384x128_S16384x128
/-- Layer 5's weights: slice 5 of the weight argument. -/
abbrev wl5 : S16384x128.Idx → EReal :=
  shapeCast S16384x128 (extractStridedSlice S1x16384x128 ![5, 0, 0] (V0 (Proc.devRef .tc main_arg1)) slices_S8x16384x128_S1x16384x128_5_0_0) shapeCasts_S1x16384x128_S16384x128
/-- Layer 6's weights: slice 6 of the weight argument. -/
abbrev wl6 : S16384x128.Idx → EReal :=
  shapeCast S16384x128 (extractStridedSlice S1x16384x128 ![6, 0, 0] (V0 (Proc.devRef .tc main_arg1)) slices_S8x16384x128_S1x16384x128_6_0_0) shapeCasts_S1x16384x128_S16384x128
/-- Layer 7's weights: slice 7 of the weight argument. -/
abbrev wl7 : S16384x128.Idx → EReal :=
  shapeCast S16384x128 (extractStridedSlice S1x16384x128 ![7, 0, 0] (V0 (Proc.devRef .tc main_arg1)) slices_S8x16384x128_S1x16384x128_7_0_0) shapeCasts_S1x16384x128_S16384x128

/-- The node buffer before layer 0. -/
theorem b0_eq : res_main_v5 V0
    = writeAt (setAt (fun _ => zero) 0 one) 1 (shapeCast S4096 (V0 (Proc.devRef .tc main_arg0)) shapeCasts_S1x4096_S4096) := by
  unfold res_main_v5
  refine (scatter_window_eq_writeAt scatter_S135169_S1_S4096_0_n_0_0_wf _ _ _ 1 (start_toInt 1 (by decide)) (by decide)).trans ?_
  refine congrArg (fun B => writeAt B 1 (shapeCast S4096 (V0 (Proc.devRef .tc main_arg0)) shapeCasts_S1x4096_S4096)) ?_
  exact scatter_point_eq_setAt scatter_S135169_S1_S__n_0_0_0_wf _ _ _ 0 (start_toInt 0 (by decide)) (by decide)

/-- The node buffer before layer 1: layer 0's activations written at position 4097. -/
theorem b1_eq : res_main_v28 V0
    = writeAt (res_main_v5 V0) 4097 (act (wl0 V0) (gat (res_main_v5 V0) (res_main_v7 V0))) := by
  unfold res_main_v28
  rw [chain_eq_act]
  exact scatter_window_eq_writeAt scatter_S135169_S1_S16384_0_n_0_0_wf _ _ _ 4097 (start_toInt 4097 (by decide)) (by decide)

/-- The node buffer before layer 2: layer 1's activations written at position 20481. -/
theorem b2_eq : res_main_v51 V0
    = writeAt (res_main_v28 V0) 20481 (act (wl1 V0) (gat (res_main_v28 V0) (res_main_v30 V0))) := by
  unfold res_main_v51
  rw [chain_eq_act]
  exact scatter_window_eq_writeAt scatter_S135169_S1_S16384_0_n_0_0_wf _ _ _ 20481 (start_toInt 20481 (by decide)) (by decide)

/-- The node buffer before layer 3: layer 2's activations written at position 36865. -/
theorem b3_eq : res_main_v74 V0
    = writeAt (res_main_v51 V0) 36865 (act (wl2 V0) (gat (res_main_v51 V0) (res_main_v53 V0))) := by
  unfold res_main_v74
  rw [chain_eq_act]
  exact scatter_window_eq_writeAt scatter_S135169_S1_S16384_0_n_0_0_wf _ _ _ 36865 (start_toInt 36865 (by decide)) (by decide)

/-- The node buffer before layer 4: layer 3's activations written at position 53249. -/
theorem b4_eq : res_main_v97 V0
    = writeAt (res_main_v74 V0) 53249 (act (wl3 V0) (gat (res_main_v74 V0) (res_main_v76 V0))) := by
  unfold res_main_v97
  rw [chain_eq_act]
  exact scatter_window_eq_writeAt scatter_S135169_S1_S16384_0_n_0_0_wf _ _ _ 53249 (start_toInt 53249 (by decide)) (by decide)

/-- The node buffer before layer 5: layer 4's activations written at position 69633. -/
theorem b5_eq : res_main_v120 V0
    = writeAt (res_main_v97 V0) 69633 (act (wl4 V0) (gat (res_main_v97 V0) (res_main_v99 V0))) := by
  unfold res_main_v120
  rw [chain_eq_act]
  exact scatter_window_eq_writeAt scatter_S135169_S1_S16384_0_n_0_0_wf _ _ _ 69633 (start_toInt 69633 (by decide)) (by decide)

/-- The node buffer before layer 6: layer 5's activations written at position 86017. -/
theorem b6_eq : res_main_v143 V0
    = writeAt (res_main_v120 V0) 86017 (act (wl5 V0) (gat (res_main_v120 V0) (res_main_v122 V0))) := by
  unfold res_main_v143
  rw [chain_eq_act]
  exact scatter_window_eq_writeAt scatter_S135169_S1_S16384_0_n_0_0_wf _ _ _ 86017 (start_toInt 86017 (by decide)) (by decide)

/-- The node buffer before layer 7: layer 6's activations written at position 102401. -/
theorem b7_eq : res_main_v166 V0
    = writeAt (res_main_v143 V0) 102401 (act (wl6 V0) (gat (res_main_v143 V0) (res_main_v145 V0))) := by
  unfold res_main_v166
  rw [chain_eq_act]
  exact scatter_window_eq_writeAt scatter_S135169_S1_S16384_0_n_0_0_wf _ _ _ 102401 (start_toInt 102401 (by decide)) (by decide)

/-- The last 16384 entries, as a row, of a buffer into which a run of 16384 values was scattered at position 118785. -/
theorem row_of_scatter (B : S135169.Idx → EReal) (idx : IVec S1 32) (O : S16384.Idx → EReal)
    (hidx : (idx (ix1 0)).toInt = (118785 : Int)) :
    broadcastInDim S1x16384 ![1] bcast_S16384_S1x16384_1 (extractStridedSlice S16384 ![118785]
      (Host.scatter (windowDims 135169 16384 scatter_S135169_S1_S16384_0_n_0_0_wf) (fun _ b => b) B idx O) slices_S135169_S16384_118785)
      = asRow O := by
  rw [scatter_window_eq_writeAt scatter_S135169_S1_S16384_0_n_0_0_wf B idx O 118785 hidx (by decide)]
  exact row_of_writeAt _ _ slices_S135169_S16384_118785 bcast_S16384_S1x16384_1

/-- The reference's result, as its run states it, is layer 7's activations as a [1, 16384] row. -/
theorem result_eq :
    broadcastInDim S1x16384 ![1] bcast_S16384_S1x16384_1 (extractStridedSlice S16384 ![118785] (Host.scatter scatter_S135169_S1_S16384_0_n_0_0 (fun _ b => b) (res_main_v166 V0) (broadcastInDim S1 ![] bcast_S_S1 (constantI S_ 32 118785#32)) (Host.divf (broadcastInDim S16384 ![] bcast_S_S16384 (constant S_ .f32 0x3F800000#32)) (addf (broadcastInDim S16384 ![] bcast_S_S16384 (constant S_ .f32 0x3F800000#32)) (Host.exp (Host.negf (mulf (broadcastInDim S16384 ![] bcast_S_S16384 (constant S_ .f32 0x409CCCCD#32)) (Host.reduceAdd (mulf (shapeCast _ (extractStridedSlice S1x16384x128 ![7, 0, 0] (V0 (Proc.devRef .tc main_arg1)) slices_S8x16384x128_S1x16384x128_7_0_0) shapeCasts_S1x16384x128_S16384x128) (Host.gather gather_S135169_S16384x128x1_S16384x128_n_0_n_n_0_2_1 (res_main_v166 V0) (broadcastInDim S16384x128x1 ![0, 1] bcast_S16384x128_S16384x128x1_0_1 (select (cmpi .slt (res_main_v168 V0) (broadcastInDim S16384x128 ![] bcast_S_S16384x128 (constantI S_ 32 0#32))) (addi (res_main_v168 V0) (broadcastInDim S16384x128 ![] bcast_S_S16384x128 (constantI S_ 32 135169#32))) (res_main_v168 V0))))) (constant S_ .f32 0x00000000#32) reducesTo_S16384x128_S16384_d1 h_S_))))))) slices_S135169_S16384_118785)
    = outArr (wl7 V0) (gat (res_main_v166 V0) (res_main_v168 V0)) := by
  rw [chain_eq_act]
  exact row_of_scatter _ _ _ (start_toInt 118785 (by decide))

end Cert.ReferenceIdeal.Chain

end
-- ==== Proof.PreRange.lean ====
/-
  What the precondition says of the source indices: every entry of layer `l`'s index table is the id of an EARLIER node,
  `0 ≤ src_idx[l, r, k] < 4097 + 16384 · l` as signed integers — the bias node, the 4096 inputs and the 16384 · l outputs
  of the layers before `l`.
-/
import proofs.«128059_j1726576856803_1_alg».proof.Pre_finite_inputs
import proofs.«128059_j1726576856803_1_alg».proof.Proof.Gen.Pre_finite_inputs
import Idealize.ShloMosaic.Lib.ValueIdx
import Idealize.ShloMosaic.Lib.ReduceAll
import Idealize.ShloMosaic.Lib.StableHlo.Predicate

noncomputable section

namespace Cert.PreRange

open Idealize.ShloMosaic Idealize.ShloMosaic.ValueIdx Cert.Pre_finite_inputs

/-- A rank-0 shape has exactly one index. -/
private instance : Subsingleton S_.Idx := ⟨fun _ _ => funext fun d => d.elim0⟩

/-- The bound word of layer `l`, `l · 16384 + 4097` in 32-bit arithmetic, does not wrap for `l < 8`: read as a signed
    integer it is `4097 + 16384 · l` (at most `118785`). Checked layer by layer on the eight literals. -/
private theorem bound_toInt (l : Fin 8) :
    (IntOp.addi (IntOp.muli (BitVec.ofNat 32 l.val) 16384#32) 4097#32).toInt = (4097 + 16384 * l.val : Int) := by
  revert l; decide

/-- Under the precondition each source index of layer `l` names a node before layer `l`. -/
theorem src_inRange {F : FTy → Type} [FloatOps F] (a0 : FVec F S1x4096 .f32) (a1 : FVec F S8x16384x128 .f32)
    (a2 : IVec S8x16384x128 32) (h : Cert.Pre_finite_inputs.fn (F := F) a0 a1 a2 = fun _ => 1#1)
    (l : Fin 8) (r : Fin 16384) (k : Fin 128) :
    0 ≤ (a2 (ix3 l r k)).toInt ∧ (a2 (ix3 l r k)).toInt < (4097 + 16384 * l.val : Int) := by
  -- the predicate's one value is 1; it is (finite a0 ∧ finite a1) ∧ all (0 ≤ src ∧ src < bound)
  have h0 := congrFun h ValueIdx.ix0
  dsimp only [Cert.Pre_finite_inputs.fn, Cert.Pre_finite_inputs.fn_part1] at h0
  -- the last conjunct: the reduction by `and` over all three axes is 1, so the element at (l, r, k) is 1
  have h1 := (IntOp.andi_eq_one.1 h0).2
  have h2 := Host.reduce_andi_all _ _ _ _ _ h1 (ix3 l r k)
  -- that element is the conjunction of the two signed comparisons
  obtain ⟨hge, hlt⟩ := IntOp.andi_eq_one.1 h2
  have hge' := IntOp.cmpi_sge.1 hge
  have hlt' := IntOp.cmpi_slt.1 hlt
  -- a broadcast scalar reads the scalar; the iota along axis 0 reads the layer number `l`
  change (0#32 : BitVec 32).toInt ≤ _ at hge'
  change _ < (IntOp.addi (IntOp.muli (BitVec.ofNat 32 l.val) 16384#32) 4097#32).toInt at hlt'
  rw [bound_toInt] at hlt'
  rw [show (0#32 : BitVec 32).toInt = 0 from by decide] at hge'
  exact ⟨hge', hlt'⟩

end Cert.PreRange

end
-- ==== Proof.BridgeStep.lean ====
/-
  One layer of the bridge, on plain functions. The kernel's node buffer before a layer is the first `N` entries of the
  reference's node buffer; the launch's output is the layer function of the reference's weights and gathered activations; the kernel appends it to its buffer and the reference writes it into its buffer at
  position `N`: the kernel's longer buffer is the first `N + 16384` entries of the reference's new one.
-/
import proofs.«128059_j1726576856803_1_alg».proof.Proof.LibFlat
import proofs.«128059_j1726576856803_1_alg».proof.Proof.LayerOut

noncomputable section

namespace Cert.BridgeStep

open Idealize.ShloMosaic Idealize.ShloMosaic.ValueIdx Cert.LibFlat Cert.LayerSpec Cert.LayerOut

theorem step {N K : Nat} (hK : K = N + 16384) (hNT : N ≤ 135169) (hKT : K ≤ 135169)
    (RB RB' : (⟨1, ![135169]⟩ : Shape).Idx → EReal) (KB : (⟨1, ![N]⟩ : Shape).Idx → EReal)
    (KB' : (⟨1, ![K]⟩ : Shape).Idx → EReal) (W RG : (⟨2, ![16384, 128]⟩ : Shape).Idx → EReal)
    (KO : (⟨2, ![1, 16384]⟩ : Shape).Idx → EReal)
    (hcast : (⟨2, ![1, 16384]⟩ : Shape).ShapeCasts ⟨1, ![16384]⟩)
    (hc : Shape.Concatenates [(⟨1, ![N]⟩ : Shape), (⟨1, ![16384]⟩ : Shape)] ⟨1, ![K]⟩ 0)
    (hKB : KB = firstN N hNT RB) (hKO : KO = outArr W RG)
    (hKB' : KB' = concatenate (⟨1, ![K]⟩ : Shape) 0
      [⟨(⟨1, ![N]⟩ : Shape), KB⟩, ⟨(⟨1, ![16384]⟩ : Shape), shapeCast (⟨1, ![16384]⟩ : Shape) KO hcast⟩] hc)
    (hRB' : RB' = writeAt RB N (act W RG)) : KB' = firstN K hKT RB' := by
  subst hKB hKO hKB' hRB'
  rw [outArr, shapeCast_asRow]
  exact concat_firstN_eq hK hNT hKT RB (act W RG) hc

end Cert.BridgeStep

end
-- ==== Proof.LayerSlice.lean ====
/-
  Layer `p`'s table out of an [8, 16384, 128] argument: the slice [p : p + 1] along the first axis, reshaped to
  [16384, 128], holds at (r, k) the argument's entry at (p, r, k).
-/
import Idealize.ShloMosaic.Lib.ValueIdx
import Idealize.ShloMosaic.Lib.Pipeline.Value
import Idealize.ShloMosaic.Lib.ValueLayout

noncomputable section

namespace Cert.LayerSlice

open Idealize.ShloMosaic Idealize.ShloMosaic.ValueIdx

theorem layer_slice_apply {α : Type} (a : (⟨3, ![8, 16384, 128]⟩ : Shape).Idx → α) (p : Nat) (hp : p < 8)
    (hs : (⟨3, ![8, 16384, 128]⟩ : Shape).Slices ![p, 0, 0] ⟨3, ![1, 16384, 128]⟩)
    (hc : (⟨3, ![1, 16384, 128]⟩ : Shape).ShapeCasts ⟨2, ![16384, 128]⟩) (r : Fin 16384) (k : Fin 128) :
    shapeCast (⟨2, ![16384, 128]⟩ : Shape) (extractStridedSlice (⟨3, ![1, 16384, 128]⟩ : Shape) ![p, 0, 0] a hs) hc (ix2 r k)
      = a (ix3 ⟨p, hp⟩ r k) := by
  rw [shapeCast_1ab_ab_apply]
  exact extractStridedSlice_apply _ a hs _ _ fun c =>
    match c with
    | ⟨0, _⟩ => rfl
    | ⟨1, _⟩ => (Nat.zero_add _).symm
    | ⟨2, _⟩ => (Nat.zero_add _).symm

end Cert.LayerSlice

end
-- ==== Proof.Host0.lean ====
/-
  The host operations before launch 0, read as values: from the buffer contents at the boundary before them to the
  contents launch 0 is entered with. The node buffer starts as the bias node's 1 followed by the 4096 inputs;
  the layer's index table is taken from the index argument, negative entries moved up by the buffer's length 4097,
  and gathered from the node buffer; the layer's weights are sliced from the weight argument. Neither argument array is
  written.
-/
import proofs.«128059_j1726576856803_1_alg».proof.Proof.Gen.KernelIdeal.Frame
import Idealize.ShloMosaic.Lib.StableHlo.Run

set_option maxRecDepth 16384

noncomputable section

namespace Cert.KernelIdeal.Host0

open Cert.KernelIdeal Cert.KernelIdeal.Gen
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ) (ρ : Dev nD → PrngReg)

/-- The stretch writes neither argument. -/
theorem keep_arg1 (c : Dev nD) : W1 m ρ c (Proc.devRef .tc main_arg1) = W0 m ρ c (Proc.devRef .tc main_arg1) := by
  show StableHlo.after hostOps0 (W0 m ρ c) (Proc.devRef .tc main_arg1) = _
  after_results
theorem keep_arg2 (c : Dev nD) : W1 m ρ c (Proc.devRef .tc main_arg2) = W0 m ρ c (Proc.devRef .tc main_arg2) := by
  show StableHlo.after hostOps0 (W0 m ρ c) (Proc.devRef .tc main_arg2) = _
  after_results

/-- The node buffer at entry: the bias node, then the inputs. -/
theorem buf_eq (c : Dev nD) : W1 m ρ c (Proc.devRef .tc main_v2)
    = concatenate S4097 0 [⟨S1, broadcastInDim S1 ![] bcast_S_S1 (constant (F := F) S_ .f32 0x3F800000#32)⟩,
        ⟨S4096, shapeCast S4096 (W0 m ρ c (Proc.devRef .tc main_arg0)) shapeCasts_S1x4096_S4096⟩] concatenates_S1_S4096_S4097_d0 := by
  show StableHlo.after hostOps0 (W0 m ρ c) (Proc.devRef .tc main_v2) = _
  after_results
  rfl

/-- The layer's index table: slice 0 of the index argument. -/
abbrev idxTab (c : Dev nD) : IVec S16384x128 32 :=
  shapeCast S16384x128 (extractStridedSlice S1x16384x128 ![0, 0, 0] (W0 m ρ c (Proc.devRef .tc main_arg2)) slices_S8x16384x128_S1x16384x128_0_0_0) shapeCasts_S1x16384x128_S16384x128

/-- The gathered array at entry: the node buffer at the normalised indices. -/
theorem gat_eq (c : Dev nD) : W1 m ρ c (Proc.devRef .tc main_v11)
    = Host.gather gather_S4097_S16384x128x1_S16384x128_n_0_n_n_0_2_1 (W1 m ρ c (Proc.devRef .tc main_v2))
        (broadcastInDim S16384x128x1 ![0, 1] bcast_S16384x128_S16384x128x1_0_1
          (select (cmpi .slt (idxTab m ρ c) (broadcastInDim S16384x128 ![] bcast_S_S16384x128 (constantI S_ 32 0#32)))
            (addi (idxTab m ρ c) (broadcastInDim S16384x128 ![] bcast_S_S16384x128 (constantI S_ 32 4097#32))) (idxTab m ρ c))) := by
  show StableHlo.after hostOps0 (W0 m ρ c) (Proc.devRef .tc main_v11) = Host.gather _ (StableHlo.after hostOps0 (W0 m ρ c) (Proc.devRef .tc main_v2)) _
  after_results_simp
  rfl

/-- The weight array at entry: slice 0 of the weight argument. -/
theorem wgt_eq (c : Dev nD) : W1 m ρ c (Proc.devRef .tc main_v13)
    = shapeCast S16384x128 (extractStridedSlice S1x16384x128 ![0, 0, 0] (W0 m ρ c (Proc.devRef .tc main_arg1)) slices_S8x16384x128_S1x16384x128_0_0_0) shapeCasts_S1x16384x128_S16384x128 := by
  show StableHlo.after hostOps0 (W0 m ρ c) (Proc.devRef .tc main_v13) = _
  after_results
  rfl

/-- Launch 0 writes only its output array: both arguments and the node buffer pass through it. -/
theorem across_arg1 (c : Dev nD) : W2 m ρ c (Proc.devRef .tc main_arg1) = W1 m ρ c (Proc.devRef .tc main_arg1) :=
  W2_of_ne m ρ c main_arg1 (by decide)
theorem across_arg2 (c : Dev nD) : W2 m ρ c (Proc.devRef .tc main_arg2) = W1 m ρ c (Proc.devRef .tc main_arg2) :=
  W2_of_ne m ρ c main_arg2 (by decide)
theorem across_buf (c : Dev nD) : W2 m ρ c (Proc.devRef .tc main_v2) = W1 m ρ c (Proc.devRef .tc main_v2) :=
  W2_of_ne m ρ c main_v2 (by decide)
/-- … and its output array ends at what the pipeline's write-backs leave. -/
theorem across_out (c : Dev nD) : W2 m ρ c (Proc.devRef .tc main_v14) = (dat0 (V1 m ρ) c).arrAt 2 cfg0.N :=
  W2_arr m ρ c 2

end Cert.KernelIdeal.Host0

end
-- ==== Proof.LayerKer.lean ====
/-
  What the kernel body stores for a block of 2048 nodes: at node `q` of the block, the logistic function of the scale
  times the dot product of row `q` of the weight block with row `q` of the gathered block — the layer function on that
  row. The eight launches carry the same body.
-/
import proofs.«128059_j1726576856803_1_alg».proof.Proof.Gen.KernelIdeal.Skeleton
import proofs.«128059_j1726576856803_1_alg».proof.Proof.LayerSpec
import Idealize.ShloMosaic.PureOps.Ideal.Laws
import Idealize.ShloMosaic.Lib.Pipeline.Value
import Idealize.ShloMosaic.Lib.ValueLayout

noncomputable section

open scoped BigOperators

namespace Cert.LayerKer

open Idealize.ShloMosaic Idealize.ShloMosaic.ValueIdx Cert.KernelIdeal Cert.KernelIdeal.Gen Cert.LayerSpec

/-- One row of a block: the layer function's value from that row of the two blocks. -/
def rowAct (x0 x1 : Vec Ideal S2048x128 .f32) (q : Fin 2048) : EReal :=
  Ideal.logistic (scale * ∑ k : Fin 128, x0 (ix2 q k) * x1 (ix2 q k))

/-- The sum over the 128 lanes of the products of the two blocks, at row `j`: that row's dot product. -/
private theorem sum_row (x0 x1 : FVec Ideal S2048x128 .f32) (j : S2048.Idx) :
    multiReduction (F := Ideal) .add [1] S2048 (mulf x0 x1) 0x00000000#32 reduces_S2048x128_S2048 (.inl rfl) rfl j
      = ∑ k : Fin 128, x0 (ix2 (j 0) k) * x1 (ix2 (j 0) k) := by
  refine (Ideal.multiReduction_add_single (mulf x0 x1) _ reduces_S2048x128_S2048 _ _ j).trans ?_
  refine Finset.sum_congr rfl fun k _ => ?_
  -- the index with lane `k` inserted at axis 1 of row `j` is `(j, k)`
  have hk : reduces_S2048x128_S2048.lift j k = ix2 (j 0) k := by
    funext a
    match a with
    | ⟨0, _⟩ => rfl
    | ⟨1, _⟩ => rfl
  rw [hk]; rfl

/-- The logistic of a vector at a row is the logistic function of the element. -/
private theorem logistic_apply (a : FVec Ideal S2048 .f32) (j : S2048.Idx) :
    logistic a j = Ideal.logistic (a j) := rfl

/-- The first launch's payload at node `q`: the two casts to the same shape are the identity, the cast to `[1, 2048]`
    reads row `q`, and there the value is the logistic of the scale times the row's dot product. -/
theorem pay0_apply (x0 x1 : Vec Ideal S2048x128 .f32) (q : Fin 2048) :
    k0_pay1 (F := Ideal) x0 x1 (ix2 (0 : Fin 1) q) = rowAct x0 x1 q := by
  unfold k0_pay1
  simp only [shapeCast_self]
  rw [shapeCast_a_1a_apply, logistic_apply, mulf_apply, broadcast_apply, sum_row]
  rfl

/-! The other seven launches carry the same body, term for term. -/
theorem pay1_apply (x0 x1 : Vec Ideal S2048x128 .f32) (q : Fin 2048) :
    k1_pay1 (F := Ideal) x0 x1 (ix2 (0 : Fin 1) q) = rowAct x0 x1 q :=
  pay0_apply x0 x1 q
theorem pay2_apply (x0 x1 : Vec Ideal S2048x128 .f32) (q : Fin 2048) :
    k2_pay1 (F := Ideal) x0 x1 (ix2 (0 : Fin 1) q) = rowAct x0 x1 q :=
  pay0_apply x0 x1 q
theorem pay3_apply (x0 x1 : Vec Ideal S2048x128 .f32) (q : Fin 2048) :
    k3_pay1 (F := Ideal) x0 x1 (ix2 (0 : Fin 1) q) = rowAct x0 x1 q :=
  pay0_apply x0 x1 q
theorem pay4_apply (x0 x1 : Vec Ideal S2048x128 .f32) (q : Fin 2048) :
    k4_pay1 (F := Ideal) x0 x1 (ix2 (0 : Fin 1) q) = rowAct x0 x1 q :=
  pay0_apply x0 x1 q
theorem pay5_apply (x0 x1 : Vec Ideal S2048x128 .f32) (q : Fin 2048) :
    k5_pay1 (F := Ideal) x0 x1 (ix2 (0 : Fin 1) q) = rowAct x0 x1 q :=
  pay0_apply x0 x1 q
theorem pay6_apply (x0 x1 : Vec Ideal S2048x128 .f32) (q : Fin 2048) :
    k6_pay1 (F := Ideal) x0 x1 (ix2 (0 : Fin 1) q) = rowAct x0 x1 q :=
  pay0_apply x0 x1 q
theorem pay7_apply (x0 x1 : Vec Ideal S2048x128 .f32) (q : Fin 2048) :
    k7_pay1 (F := Ideal) x0 x1 (ix2 (0 : Fin 1) q) = rowAct x0 x1 q :=
  pay0_apply x0 x1 q

end Cert.LayerKer

end
-- ==== Proof.Region0.lean ====
/-
  Launch 0 of the layer kernel, read as a value: whatever the two input arrays hold when the launch is entered, the
  output array [1, 16384] ends holding, at node `r`, the layer function of row `r` of the weight array and row `r` of the
  gathered array. Point `t` of the grid of 8 works on rows 2048·t … 2048·t + 2047 and writes columns 2048·t … of the
  output; the eight blocks tile it.
-/
import proofs.«128059_j1726576856803_1_alg».proof.Proof.Gen.KernelIdeal.Frame
import proofs.«128059_j1726576856803_1_alg».proof.Proof.LayerKer
import proofs.«128059_j1726576856803_1_alg».proof.Proof.LayerOut
import Idealize.ShloMosaic.Lib.Pipeline.Value

set_option maxRecDepth 16384

noncomputable section

open scoped BigOperators

namespace Cert.KernelIdeal.Region0

open Cert.KernelIdeal Cert.KernelIdeal.Gen Cert.LayerSpec Cert.LayerKer Cert.LayerOut
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The weight array and the gathered array as the launch finds them, and their blocks at a point. -/
abbrev warr (c : Dev nD) : S16384x128.Idx → EReal := V c main_v13
abbrev garr (c : Dev nD) : S16384x128.Idx → EReal := V c main_v11
abbrev wblk (c : Dev nD) (t : Fin cfg0.N) : Vec Ideal S2048x128 .f32 := iblk0 V c 0 t
abbrev gblk (c : Dev nD) (t : Fin cfg0.N) : Vec Ideal S2048x128 .f32 := iblk0 V c 1 t

theorem hz : (![0, 0] : Fin 2 → Nat) = fun _ => 0 := funext fun a => by fin_cases a <;> rfl

/-- The printed index maps over the grid: point `t` takes row block `t` of both inputs and column block `t` of the output. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val ∧ t.val < 8 :=
  (by decide +kernel : ∀ t : Fin grid0.N, _)

/-- Row `q` of the weight block at point `t` is row 2048·t + q of the weight array. -/
theorem wblk_apply (c : Dev nD) (t : Fin cfg0.N) (q : Fin 2048) (k : Fin 128) (r : Fin 16384) (hr : r.val = t.val * 2048 + q.val) :
    wblk V c t (ix2 q k) = warr V c (ix2 r k) := by
  obtain ⟨e0, e1, -, -, -, -, -⟩ := idx_facts t
  show V c main_v13 (((cfg0.win 0).blk t).view.emb (ix2 q k)) = V c main_v13 (ix2 r k)
  congr 1
  funext a; apply Fin.ext
  match a with
  | ⟨0, _⟩ => show win0_0.index t (0 : Fin 2) * 2048 + 1 * q.val = r.val; omega
  | ⟨1, _⟩ => show win0_0.index t (1 : Fin 2) * 128 + 1 * k.val = k.val; omega

/-- Row `q` of the gathered block at point `t` is row 2048·t + q of the gathered array. -/
theorem gblk_apply (c : Dev nD) (t : Fin cfg0.N) (q : Fin 2048) (k : Fin 128) (r : Fin 16384) (hr : r.val = t.val * 2048 + q.val) :
    gblk V c t (ix2 q k) = garr V c (ix2 r k) := by
  obtain ⟨-, -, e0, e1, -, -, -⟩ := idx_facts t
  show V c main_v11 (((cfg0.win 1).blk t).view.emb (ix2 q k)) = V c main_v11 (ix2 r k)
  congr 1
  funext a; apply Fin.ext
  match a with
  | ⟨0, _⟩ => show win0_1.index t (0 : Fin 2) * 2048 + 1 * q.val = r.val; omega
  | ⟨1, _⟩ => show win0_1.index t (1 : Fin 2) * 128 + 1 * k.val = k.val; omega

/-- What point `t` writes back is block `t` of the layer's output array. -/
theorem flushed_eq (c : Dev nD) (t : Fin cfg0.N) :
    (dat0 V c).flushed 2 t = ((cfg0.win 2).blk t).view.read (Elt Ideal) (outArr (warr V c) (garr V c)) := by
  show (cfg0.win 2).cut (grid0.coords t) ((dat0 V c).after 2 t) = _
  rw [after0_2]
  unfold out0_2
  rw [View.canon_unit_zero hz]
  simp only [View.ld_unit_zero (S := S2048x128) hz]
  obtain ⟨-, -, -, -, e0, e1, ht⟩ := idx_facts t
  funext j
  obtain ⟨p0, q, rfl⟩ : ∃ (p0 : Fin 1) (q : Fin 2048), j = ix2 p0 q := ⟨j 0, j 1, eq_ix2 j⟩
  obtain rfl : p0 = 0 := Subsingleton.elim _ _
  have hrlt : t.val * 2048 + q.val < 16384 := by have := q.isLt; omega
  show k0_pay1 (F := Ideal) (wblk V c t) (gblk V c t) (ix2 (0 : Fin 1) q)
    = outArr (warr V c) (garr V c) (((cfg0.win 2).blk t).view.emb (ix2 (0 : Fin 1) q))
  rw [pay0_apply]
  unfold rowAct outArr asRow act
  have hcol : ((((cfg0.win 2).blk t).view.emb (ix2 (0 : Fin 1) q)) 1).val = t.val * 2048 + q.val := by
    show win0_2.index t (1 : Fin 2) * 2048 + 1 * q.val = _
    omega
  have hix : (ix1 ⟨((((cfg0.win 2).blk t).view.emb (ix2 (0 : Fin 1) q)) 1).val, idx2_lt1 _⟩ : S16384.Idx)
      = ix1 ⟨t.val * 2048 + q.val, hrlt⟩ := by
    funext a; apply Fin.ext
    match a with
    | ⟨0, _⟩ => exact hcol
  rw [hix]
  refine congrArg (fun s => Ideal.logistic (scale * s)) (Finset.sum_congr rfl fun k _ => ?_)
  rw [wblk_apply V c t q k ⟨t.val * 2048 + q.val, hrlt⟩ rfl, gblk_apply V c t q k ⟨t.val * 2048 + q.val, hrlt⟩ rfl]

/-- An index of the output array is in point `t`'s block iff its column lies in block `t`. -/
theorem mem_blk (t : Fin cfg0.N) (i : S1x16384.Idx) :
    i ∈ ((cfg0.win 2).blk t).view.set ↔ ∀ a : Fin 2, win0_2.index t a * S1x2048.size a ≤ (i a).val ∧ (i a).val < win0_2.index t a * S1x2048.size a + S1x2048.size a := by
  show i ∈ ((View.whole main_v14).slice (win0_2.rect t)).set ↔ _
  rw [View.set_slice_whole, Rect.mem_set_unit]
  exact Iff.rfl

/-- Every block index of the output is some point's. -/
theorem idx_onto : ∀ q1 : Fin 8, ∃ t : Fin cfg0.N, win0_2.index t = ![0, q1.val] :=
  (by decide +kernel : ∀ q1 : Fin 8, ∃ t : Fin grid0.N, win0_2.index t = ![0, q1.val])

/-- THE OUTPUT ARRAY after the launch: the layer function of the two input arrays, node by node. -/
theorem final (c : Dev nD) : (dat0 V c).arrAt 2 cfg0.N = outArr (warr V c) (garr V c) :=
  (dat0 V c).arrAt_eq_of_cover 2 (outArr (warr V c) (garr V c)) (fun t _ => flushed_eq V c t) fun i => by
    have hi0 : (i 0).val < 1 := (i 0).isLt
    have hi1 : (i 1).val < 16384 := (i 1).isLt
    obtain ⟨t, ht⟩ := idx_onto ⟨(i 1).val / 2048, by omega⟩
    have q0 : win0_2.index t (0 : Fin 2) = 0 := congrFun ht 0
    have q1 : win0_2.index t (1 : Fin 2) = (i 1).val / 2048 := congrFun ht 1
    refine ⟨t, flush0_2 t, ?_⟩
    rw [mem_blk]
    intro a
    match a with
    | ⟨0, _⟩ => show win0_2.index t (0 : Fin 2) * 1 ≤ (i 0).val ∧ (i 0).val < win0_2.index t (0 : Fin 2) * 1 + 1; omega
    | ⟨1, _⟩ => show win0_2.index t (1 : Fin 2) * 2048 ≤ (i 1).val ∧ (i 1).val < win0_2.index t (1 : Fin 2) * 2048 + 2048; omega

end Cert.KernelIdeal.Region0

end
-- ==== Proof.Host1.lean ====
/-
  The host operations before launch 1, read as values: from the buffer contents at the boundary before them to the
  contents launch 1 is entered with. The node buffer grows by the previous launch's output, reshaped to a flat run of 16384 activations;
  the layer's index table is taken from the index argument, negative entries moved up by the buffer's length 20481,
  and gathered from the node buffer; the layer's weights are sliced from the weight argument. Neither argument array is
  written.
-/
import proofs.«128059_j1726576856803_1_alg».proof.Proof.Gen.KernelIdeal.Frame
import Idealize.ShloMosaic.Lib.StableHlo.Run

set_option maxRecDepth 16384

noncomputable section

namespace Cert.KernelIdeal.Host1

open Cert.KernelIdeal Cert.KernelIdeal.Gen
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ) (ρ : Dev nD → PrngReg)

/-- The stretch writes neither argument. -/
theorem keep_arg1 (c : Dev nD) : W3 m ρ c (Proc.devRef .tc main_arg1) = W2 m ρ c (Proc.devRef .tc main_arg1) := by
  show StableHlo.after hostOps1 (W2 m ρ c) (Proc.devRef .tc main_arg1) = _
  after_results
theorem keep_arg2 (c : Dev nD) : W3 m ρ c (Proc.devRef .tc main_arg2) = W2 m ρ c (Proc.devRef .tc main_arg2) := by
  show StableHlo.after hostOps1 (W2 m ρ c) (Proc.devRef .tc main_arg2) = _
  after_results

/-- The node buffer at entry: the previous buffer, then the previous launch's output as a flat run. -/
theorem buf_eq (c : Dev nD) : W3 m ρ c (Proc.devRef .tc main_v16)
    = concatenate S20481 0 [⟨S4097, W2 m ρ c (Proc.devRef .tc main_v2)⟩,
        ⟨S16384, shapeCast S16384 (W2 m ρ c (Proc.devRef .tc main_v14)) shapeCasts_S1x16384_S16384⟩] concatenates_S4097_S16384_S20481_d0 := by
  show StableHlo.after hostOps1 (W2 m ρ c) (Proc.devRef .tc main_v16) = _
  after_results
  rfl

/-- The layer's index table: slice 1 of the index argument. -/
abbrev idxTab (c : Dev nD) : IVec S16384x128 32 :=
  shapeCast S16384x128 (extractStridedSlice S1x16384x128 ![1, 0, 0] (W2 m ρ c (Proc.devRef .tc main_arg2)) slices_S8x16384x128_S1x16384x128_1_0_0) shapeCasts_S1x16384x128_S16384x128

/-- The gathered array at entry: the node buffer at the normalised indices. -/
theorem gat_eq (c : Dev nD) : W3 m ρ c (Proc.devRef .tc main_v25)
    = Host.gather gather_S20481_S16384x128x1_S16384x128_n_0_n_n_0_2_1 (W3 m ρ c (Proc.devRef .tc main_v16))
        (broadcastInDim S16384x128x1 ![0, 1] bcast_S16384x128_S16384x128x1_0_1
          (select (cmpi .slt (idxTab m ρ c) (broadcastInDim S16384x128 ![] bcast_S_S16384x128 (constantI S_ 32 0#32)))
            (addi (idxTab m ρ c) (broadcastInDim S16384x128 ![] bcast_S_S16384x128 (constantI S_ 32 20481#32))) (idxTab m ρ c))) := by
  show StableHlo.after hostOps1 (W2 m ρ c) (Proc.devRef .tc main_v25) = Host.gather _ (StableHlo.after hostOps1 (W2 m ρ c) (Proc.devRef .tc main_v16)) _
  after_results_simp
  rfl

/-- The weight array at entry: slice 1 of the weight argument. -/
theorem wgt_eq (c : Dev nD) : W3 m ρ c (Proc.devRef .tc main_v27)
    = shapeCast S16384x128 (extractStridedSlice S1x16384x128 ![1, 0, 0] (W2 m ρ c (Proc.devRef .tc main_arg1)) slices_S8x16384x128_S1x16384x128_1_0_0) shapeCasts_S1x16384x128_S16384x128 := by
  show StableHlo.after hostOps1 (W2 m ρ c) (Proc.devRef .tc main_v27) = _
  after_results
  rfl

/-- Launch 1 writes only its output array: both arguments and the node buffer pass through it. -/
theorem across_arg1 (c : Dev nD) : W4 m ρ c (Proc.devRef .tc main_arg1) = W3 m ρ c (Proc.devRef .tc main_arg1) :=
  W4_of_ne m ρ c main_arg1 (by decide)
theorem across_arg2 (c : Dev nD) : W4 m ρ c (Proc.devRef .tc main_arg2) = W3 m ρ c (Proc.devRef .tc main_arg2) :=
  W4_of_ne m ρ c main_arg2 (by decide)
theorem across_buf (c : Dev nD) : W4 m ρ c (Proc.devRef .tc main_v16) = W3 m ρ c (Proc.devRef .tc main_v16) :=
  W4_of_ne m ρ c main_v16 (by decide)
/-- … and its output array ends at what the pipeline's write-backs leave. -/
theorem across_out (c : Dev nD) : W4 m ρ c (Proc.devRef .tc main_v28) = (dat1 (V3 m ρ) c).arrAt 2 cfg1.N :=
  W4_arr m ρ c 2

end Cert.KernelIdeal.Host1

end
-- ==== Proof.Region1.lean ====
/-
  Launch 1 of the layer kernel, read as a value: whatever the two input arrays hold when the launch is entered, the
  output array [1, 16384] ends holding, at node `r`, the layer function of row `r` of the weight array and row `r` of the
  gathered array. Point `t` of the grid of 8 works on rows 2048·t … 2048·t + 2047 and writes columns 2048·t … of the
  output; the eight blocks tile it.
-/
import proofs.«128059_j1726576856803_1_alg».proof.Proof.Gen.KernelIdeal.Frame
import proofs.«128059_j1726576856803_1_alg».proof.Proof.LayerKer
import proofs.«128059_j1726576856803_1_alg».proof.Proof.LayerOut
import Idealize.ShloMosaic.Lib.Pipeline.Value

set_option maxRecDepth 16384

noncomputable section

open scoped BigOperators

namespace Cert.KernelIdeal.Region1

open Cert.KernelIdeal Cert.KernelIdeal.Gen Cert.LayerSpec Cert.LayerKer Cert.LayerOut
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The weight array and the gathered array as the launch finds them, and their blocks at a point. -/
abbrev warr (c : Dev nD) : S16384x128.Idx → EReal := V c main_v27
abbrev garr (c : Dev nD) : S16384x128.Idx → EReal := V c main_v25
abbrev wblk (c : Dev nD) (t : Fin cfg1.N) : Vec Ideal S2048x128 .f32 := iblk1 V c 0 t
abbrev gblk (c : Dev nD) (t : Fin cfg1.N) : Vec Ideal S2048x128 .f32 := iblk1 V c 1 t

theorem hz : (![0, 0] : Fin 2 → Nat) = fun _ => 0 := funext fun a => by fin_cases a <;> rfl

/-- The printed index maps over the grid: point `t` takes row block `t` of both inputs and column block `t` of the output. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val ∧ t.val < 8 :=
  (by decide +kernel : ∀ t : Fin grid1.N, _)

/-- Row `q` of the weight block at point `t` is row 2048·t + q of the weight array. -/
theorem wblk_apply (c : Dev nD) (t : Fin cfg1.N) (q : Fin 2048) (k : Fin 128) (r : Fin 16384) (hr : r.val = t.val * 2048 + q.val) :
    wblk V c t (ix2 q k) = warr V c (ix2 r k) := by
  obtain ⟨e0, e1, -, -, -, -, -⟩ := idx_facts t
  show V c main_v27 (((cfg1.win 0).blk t).view.emb (ix2 q k)) = V c main_v27 (ix2 r k)
  congr 1
  funext a; apply Fin.ext
  match a with
  | ⟨0, _⟩ => show win1_0.index t (0 : Fin 2) * 2048 + 1 * q.val = r.val; omega
  | ⟨1, _⟩ => show win1_0.index t (1 : Fin 2) * 128 + 1 * k.val = k.val; omega

/-- Row `q` of the gathered block at point `t` is row 2048·t + q of the gathered array. -/
theorem gblk_apply (c : Dev nD) (t : Fin cfg1.N) (q : Fin 2048) (k : Fin 128) (r : Fin 16384) (hr : r.val = t.val * 2048 + q.val) :
    gblk V c t (ix2 q k) = garr V c (ix2 r k) := by
  obtain ⟨-, -, e0, e1, -, -, -⟩ := idx_facts t
  show V c main_v25 (((cfg1.win 1).blk t).view.emb (ix2 q k)) = V c main_v25 (ix2 r k)
  congr 1
  funext a; apply Fin.ext
  match a with
  | ⟨0, _⟩ => show win1_1.index t (0 : Fin 2) * 2048 + 1 * q.val = r.val; omega
  | ⟨1, _⟩ => show win1_1.index t (1 : Fin 2) * 128 + 1 * k.val = k.val; omega

/-- What point `t` writes back is block `t` of the layer's output array. -/
theorem flushed_eq (c : Dev nD) (t : Fin cfg1.N) :
    (dat1 V c).flushed 2 t = ((cfg1.win 2).blk t).view.read (Elt Ideal) (outArr (warr V c) (garr V c)) := by
  show (cfg1.win 2).cut (grid1.coords t) ((dat1 V c).after 2 t) = _
  rw [after1_2]
  unfold out1_2
  rw [View.canon_unit_zero hz]
  simp only [View.ld_unit_zero (S := S2048x128) hz]
  obtain ⟨-, -, -, -, e0, e1, ht⟩ := idx_facts t
  funext j
  obtain ⟨p0, q, rfl⟩ : ∃ (p0 : Fin 1) (q : Fin 2048), j = ix2 p0 q := ⟨j 0, j 1, eq_ix2 j⟩
  obtain rfl : p0 = 0 := Subsingleton.elim _ _
  have hrlt : t.val * 2048 + q.val < 16384 := by have := q.isLt; omega
  show k1_pay1 (F := Ideal) (wblk V c t) (gblk V c t) (ix2 (0 : Fin 1) q)
    = outArr (warr V c) (garr V c) (((cfg1.win 2).blk t).view.emb (ix2 (0 : Fin 1) q))
  rw [pay1_apply]
  unfold rowAct outArr asRow act
  have hcol : ((((cfg1.win 2).blk t).view.emb (ix2 (0 : Fin 1) q)) 1).val = t.val * 2048 + q.val := by
    show win1_2.index t (1 : Fin 2) * 2048 + 1 * q.val = _
    omega
  have hix : (ix1 ⟨((((cfg1.win 2).blk t).view.emb (ix2 (0 : Fin 1) q)) 1).val, idx2_lt1 _⟩ : S16384.Idx)
      = ix1 ⟨t.val * 2048 + q.val, hrlt⟩ := by
    funext a; apply Fin.ext
    match a with
    | ⟨0, _⟩ => exact hcol
  rw [hix]
  refine congrArg (fun s => Ideal.logistic (scale * s)) (Finset.sum_congr rfl fun k _ => ?_)
  rw [wblk_apply V c t q k ⟨t.val * 2048 + q.val, hrlt⟩ rfl, gblk_apply V c t q k ⟨t.val * 2048 + q.val, hrlt⟩ rfl]

/-- An index of the output array is in point `t`'s block iff its column lies in block `t`. -/
theorem mem_blk (t : Fin cfg1.N) (i : S1x16384.Idx) :
    i ∈ ((cfg1.win 2).blk t).view.set ↔ ∀ a : Fin 2, win1_2.index t a * S1x2048.size a ≤ (i a).val ∧ (i a).val < win1_2.index t a * S1x2048.size a + S1x2048.size a := by
  show i ∈ ((View.whole main_v28).slice (win1_2.rect t)).set ↔ _
  rw [View.set_slice_whole, Rect.mem_set_unit]
  exact Iff.rfl

/-- Every block index of the output is some point's. -/
theorem idx_onto : ∀ q1 : Fin 8, ∃ t : Fin cfg1.N, win1_2.index t = ![0, q1.val] :=
  (by decide +kernel : ∀ q1 : Fin 8, ∃ t : Fin grid1.N, win1_2.index t = ![0, q1.val])

/-- THE OUTPUT ARRAY after the launch: the layer function of the two input arrays, node by node. -/
theorem final (c : Dev nD) : (dat1 V c).arrAt 2 cfg1.N = outArr (warr V c) (garr V c) :=
  (dat1 V c).arrAt_eq_of_cover 2 (outArr (warr V c) (garr V c)) (fun t _ => flushed_eq V c t) fun i => by
    have hi0 : (i 0).val < 1 := (i 0).isLt
    have hi1 : (i 1).val < 16384 := (i 1).isLt
    obtain ⟨t, ht⟩ := idx_onto ⟨(i 1).val / 2048, by omega⟩
    have q0 : win1_2.index t (0 : Fin 2) = 0 := congrFun ht 0
    have q1 : win1_2.index t (1 : Fin 2) = (i 1).val / 2048 := congrFun ht 1
    refine ⟨t, flush1_2 t, ?_⟩
    rw [mem_blk]
    intro a
    match a with
    | ⟨0, _⟩ => show win1_2.index t (0 : Fin 2) * 1 ≤ (i 0).val ∧ (i 0).val < win1_2.index t (0 : Fin 2) * 1 + 1; omega
    | ⟨1, _⟩ => show win1_2.index t (1 : Fin 2) * 2048 ≤ (i 1).val ∧ (i 1).val < win1_2.index t (1 : Fin 2) * 2048 + 2048; omega

end Cert.KernelIdeal.Region1

end
-- ==== Proof.Host2.lean ====
/-
  The host operations before launch 2, read as values: from the buffer contents at the boundary before them to the
  contents launch 2 is entered with. The node buffer grows by the previous launch's output, reshaped to a flat run of 16384 activations;
  the layer's index table is taken from the index argument, negative entries moved up by the buffer's length 36865,
  and gathered from the node buffer; the layer's weights are sliced from the weight argument. Neither argument array is
  written.
-/
import proofs.«128059_j1726576856803_1_alg».proof.Proof.Gen.KernelIdeal.Frame
import Idealize.ShloMosaic.Lib.StableHlo.Run

set_option maxRecDepth 16384

noncomputable section

namespace Cert.KernelIdeal.Host2

open Cert.KernelIdeal Cert.KernelIdeal.Gen
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ) (ρ : Dev nD → PrngReg)

/-- The stretch writes neither argument. -/
theorem keep_arg1 (c : Dev nD) : W5 m ρ c (Proc.devRef .tc main_arg1) = W4 m ρ c (Proc.devRef .tc main_arg1) := by
  show StableHlo.after hostOps2 (W4 m ρ c) (Proc.devRef .tc main_arg1) = _
  after_results
theorem keep_arg2 (c : Dev nD) : W5 m ρ c (Proc.devRef .tc main_arg2) = W4 m ρ c (Proc.devRef .tc main_arg2) := by
  show StableHlo.after hostOps2 (W4 m ρ c) (Proc.devRef .tc main_arg2) = _
  after_results

/-- The node buffer at entry: the previous buffer, then the previous launch's output as a flat run. -/
theorem buf_eq (c : Dev nD) : W5 m ρ c (Proc.devRef .tc main_v30)
    = concatenate S36865 0 [⟨S20481, W4 m ρ c (Proc.devRef .tc main_v16)⟩,
        ⟨S16384, shapeCast S16384 (W4 m ρ c (Proc.devRef .tc main_v28)) shapeCasts_S1x16384_S16384⟩] concatenates_S20481_S16384_S36865_d0 := by
  show StableHlo.after hostOps2 (W4 m ρ c) (Proc.devRef .tc main_v30) = _
  after_results
  rfl

/-- The layer's index table: slice 2 of the index argument. -/
abbrev idxTab (c : Dev nD) : IVec S16384x128 32 :=
  shapeCast S16384x128 (extractStridedSlice S1x16384x128 ![2, 0, 0] (W4 m ρ c (Proc.devRef .tc main_arg2)) slices_S8x16384x128_S1x16384x128_2_0_0) shapeCasts_S1x16384x128_S16384x128

/-- The gathered array at entry: the node buffer at the normalised indices. -/
theorem gat_eq (c : Dev nD) : W5 m ρ c (Proc.devRef .tc main_v39)
    = Host.gather gather_S36865_S16384x128x1_S16384x128_n_0_n_n_0_2_1 (W5 m ρ c (Proc.devRef .tc main_v30))
        (broadcastInDim S16384x128x1 ![0, 1] bcast_S16384x128_S16384x128x1_0_1
          (select (cmpi .slt (idxTab m ρ c) (broadcastInDim S16384x128 ![] bcast_S_S16384x128 (constantI S_ 32 0#32)))
            (addi (idxTab m ρ c) (broadcastInDim S16384x128 ![] bcast_S_S16384x128 (constantI S_ 32 36865#32))) (idxTab m ρ c))) := by
  show StableHlo.after hostOps2 (W4 m ρ c) (Proc.devRef .tc main_v39) = Host.gather _ (StableHlo.after hostOps2 (W4 m ρ c) (Proc.devRef .tc main_v30)) _
  after_results_simp
  rfl

/-- The weight array at entry: slice 2 of the weight argument. -/
theorem wgt_eq (c : Dev nD) : W5 m ρ c (Proc.devRef .tc main_v41)
    = shapeCast S16384x128 (extractStridedSlice S1x16384x128 ![2, 0, 0] (W4 m ρ c (Proc.devRef .tc main_arg1)) slices_S8x16384x128_S1x16384x128_2_0_0) shapeCasts_S1x16384x128_S16384x128 := by
  show StableHlo.after hostOps2 (W4 m ρ c) (Proc.devRef .tc main_v41) = _
  after_results
  rfl

/-- Launch 2 writes only its output array: both arguments and the node buffer pass through it. -/
theorem across_arg1 (c : Dev nD) : W6 m ρ c (Proc.devRef .tc main_arg1) = W5 m ρ c (Proc.devRef .tc main_arg1) :=
  W6_of_ne m ρ c main_arg1 (by decide)
theorem across_arg2 (c : Dev nD) : W6 m ρ c (Proc.devRef .tc main_arg2) = W5 m ρ c (Proc.devRef .tc main_arg2) :=
  W6_of_ne m ρ c main_arg2 (by decide)
theorem across_buf (c : Dev nD) : W6 m ρ c (Proc.devRef .tc main_v30) = W5 m ρ c (Proc.devRef .tc main_v30) :=
  W6_of_ne m ρ c main_v30 (by decide)
/-- … and its output array ends at what the pipeline's write-backs leave. -/
theorem across_out (c : Dev nD) : W6 m ρ c (Proc.devRef .tc main_v42) = (dat2 (V5 m ρ) c).arrAt 2 cfg2.N :=
  W6_arr m ρ c 2

end Cert.KernelIdeal.Host2

end
-- ==== Proof.Region2.lean ====
/-
  Launch 2 of the layer kernel, read as a value: whatever the two input arrays hold when the launch is entered, the
  output array [1, 16384] ends holding, at node `r`, the layer function of row `r` of the weight array and row `r` of the
  gathered array. Point `t` of the grid of 8 works on rows 2048·t … 2048·t + 2047 and writes columns 2048·t … of the
  output; the eight blocks tile it.
-/
import proofs.«128059_j1726576856803_1_alg».proof.Proof.Gen.KernelIdeal.Frame
import proofs.«128059_j1726576856803_1_alg».proof.Proof.LayerKer
import proofs.«128059_j1726576856803_1_alg».proof.Proof.LayerOut
import Idealize.ShloMosaic.Lib.Pipeline.Value

set_option maxRecDepth 16384

noncomputable section

open scoped BigOperators

namespace Cert.KernelIdeal.Region2

open Cert.KernelIdeal Cert.KernelIdeal.Gen Cert.LayerSpec Cert.LayerKer Cert.LayerOut
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The weight array and the gathered array as the launch finds them, and their blocks at a point. -/
abbrev warr (c : Dev nD) : S16384x128.Idx → EReal := V c main_v41
abbrev garr (c : Dev nD) : S16384x128.Idx → EReal := V c main_v39
abbrev wblk (c : Dev nD) (t : Fin cfg2.N) : Vec Ideal S2048x128 .f32 := iblk2 V c 0 t
abbrev gblk (c : Dev nD) (t : Fin cfg2.N) : Vec Ideal S2048x128 .f32 := iblk2 V c 1 t

theorem hz : (![0, 0] : Fin 2 → Nat) = fun _ => 0 := funext fun a => by fin_cases a <;> rfl

/-- The printed index maps over the grid: point `t` takes row block `t` of both inputs and column block `t` of the output. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = t.val ∧ t.val < 8 :=
  (by decide +kernel : ∀ t : Fin grid2.N, _)

/-- Row `q` of the weight block at point `t` is row 2048·t + q of the weight array. -/
theorem wblk_apply (c : Dev nD) (t : Fin cfg2.N) (q : Fin 2048) (k : Fin 128) (r : Fin 16384) (hr : r.val = t.val * 2048 + q.val) :
    wblk V c t (ix2 q k) = warr V c (ix2 r k) := by
  obtain ⟨e0, e1, -, -, -, -, -⟩ := idx_facts t
  show V c main_v41 (((cfg2.win 0).blk t).view.emb (ix2 q k)) = V c main_v41 (ix2 r k)
  congr 1
  funext a; apply Fin.ext
  match a with
  | ⟨0, _⟩ => show win2_0.index t (0 : Fin 2) * 2048 + 1 * q.val = r.val; omega
  | ⟨1, _⟩ => show win2_0.index t (1 : Fin 2) * 128 + 1 * k.val = k.val; omega

/-- Row `q` of the gathered block at point `t` is row 2048·t + q of the gathered array. -/
theorem gblk_apply (c : Dev nD) (t : Fin cfg2.N) (q : Fin 2048) (k : Fin 128) (r : Fin 16384) (hr : r.val = t.val * 2048 + q.val) :
    gblk V c t (ix2 q k) = garr V c (ix2 r k) := by
  obtain ⟨-, -, e0, e1, -, -, -⟩ := idx_facts t
  show V c main_v39 (((cfg2.win 1).blk t).view.emb (ix2 q k)) = V c main_v39 (ix2 r k)
  congr 1
  funext a; apply Fin.ext
  match a with
  | ⟨0, _⟩ => show win2_1.index t (0 : Fin 2) * 2048 + 1 * q.val = r.val; omega
  | ⟨1, _⟩ => show win2_1.index t (1 : Fin 2) * 128 + 1 * k.val = k.val; omega

/-- What point `t` writes back is block `t` of the layer's output array. -/
theorem flushed_eq (c : Dev nD) (t : Fin cfg2.N) :
    (dat2 V c).flushed 2 t = ((cfg2.win 2).blk t).view.read (Elt Ideal) (outArr (warr V c) (garr V c)) := by
  show (cfg2.win 2).cut (grid2.coords t) ((dat2 V c).after 2 t) = _
  rw [after2_2]
  unfold out2_2
  rw [View.canon_unit_zero hz]
  simp only [View.ld_unit_zero (S := S2048x128) hz]
  obtain ⟨-, -, -, -, e0, e1, ht⟩ := idx_facts t
  funext j
  obtain ⟨p0, q, rfl⟩ : ∃ (p0 : Fin 1) (q : Fin 2048), j = ix2 p0 q := ⟨j 0, j 1, eq_ix2 j⟩
  obtain rfl : p0 = 0 := Subsingleton.elim _ _
  have hrlt : t.val * 2048 + q.val < 16384 := by have := q.isLt; omega
  show k2_pay1 (F := Ideal) (wblk V c t) (gblk V c t) (ix2 (0 : Fin 1) q)
    = outArr (warr V c) (garr V c) (((cfg2.win 2).blk t).view.emb (ix2 (0 : Fin 1) q))
  rw [pay2_apply]
  unfold rowAct outArr asRow act
  have hcol : ((((cfg2.win 2).blk t).view.emb (ix2 (0 : Fin 1) q)) 1).val = t.val * 2048 + q.val := by
    show win2_2.index t (1 : Fin 2) * 2048 + 1 * q.val = _
    omega
  have hix : (ix1 ⟨((((cfg2.win 2).blk t).view.emb (ix2 (0 : Fin 1) q)) 1).val, idx2_lt1 _⟩ : S16384.Idx)
      = ix1 ⟨t.val * 2048 + q.val, hrlt⟩ := by
    funext a; apply Fin.ext
    match a with
    | ⟨0, _⟩ => exact hcol
  rw [hix]
  refine congrArg (fun s => Ideal.logistic (scale * s)) (Finset.sum_congr rfl fun k _ => ?_)
  rw [wblk_apply V c t q k ⟨t.val * 2048 + q.val, hrlt⟩ rfl, gblk_apply V c t q k ⟨t.val * 2048 + q.val, hrlt⟩ rfl]

/-- An index of the output array is in point `t`'s block iff its column lies in block `t`. -/
theorem mem_blk (t : Fin cfg2.N) (i : S1x16384.Idx) :
    i ∈ ((cfg2.win 2).blk t).view.set ↔ ∀ a : Fin 2, win2_2.index t a * S1x2048.size a ≤ (i a).val ∧ (i a).val < win2_2.index t a * S1x2048.size a + S1x2048.size a := by
  show i ∈ ((View.whole main_v42).slice (win2_2.rect t)).set ↔ _
  rw [View.set_slice_whole, Rect.mem_set_unit]
  exact Iff.rfl

/-- Every block index of the output is some point's. -/
theorem idx_onto : ∀ q1 : Fin 8, ∃ t : Fin cfg2.N, win2_2.index t = ![0, q1.val] :=
  (by decide +kernel : ∀ q1 : Fin 8, ∃ t : Fin grid2.N, win2_2.index t = ![0, q1.val])

/-- THE OUTPUT ARRAY after the launch: the layer function of the two input arrays, node by node. -/
theorem final (c : Dev nD) : (dat2 V c).arrAt 2 cfg2.N = outArr (warr V c) (garr V c) :=
  (dat2 V c).arrAt_eq_of_cover 2 (outArr (warr V c) (garr V c)) (fun t _ => flushed_eq V c t) fun i => by
    have hi0 : (i 0).val < 1 := (i 0).isLt
    have hi1 : (i 1).val < 16384 := (i 1).isLt
    obtain ⟨t, ht⟩ := idx_onto ⟨(i 1).val / 2048, by omega⟩
    have q0 : win2_2.index t (0 : Fin 2) = 0 := congrFun ht 0
    have q1 : win2_2.index t (1 : Fin 2) = (i 1).val / 2048 := congrFun ht 1
    refine ⟨t, flush2_2 t, ?_⟩
    rw [mem_blk]
    intro a
    match a with
    | ⟨0, _⟩ => show win2_2.index t (0 : Fin 2) * 1 ≤ (i 0).val ∧ (i 0).val < win2_2.index t (0 : Fin 2) * 1 + 1; omega
    | ⟨1, _⟩ => show win2_2.index t (1 : Fin 2) * 2048 ≤ (i 1).val ∧ (i 1).val < win2_2.index t (1 : Fin 2) * 2048 + 2048; omega

end Cert.KernelIdeal.Region2

end
-- ==== Proof.Host3.lean ====
/-
  The host operations before launch 3, read as values: from the buffer contents at the boundary before them to the
  contents launch 3 is entered with. The node buffer grows by the previous launch's output, reshaped to a flat run of 16384 activations;
  the layer's index table is taken from the index argument, negative entries moved up by the buffer's length 53249,
  and gathered from the node buffer; the layer's weights are sliced from the weight argument. Neither argument array is
  written.
-/
import proofs.«128059_j1726576856803_1_alg».proof.Proof.Gen.KernelIdeal.Frame
import Idealize.ShloMosaic.Lib.StableHlo.Run

set_option maxRecDepth 16384

noncomputable section

namespace Cert.KernelIdeal.Host3

open Cert.KernelIdeal Cert.KernelIdeal.Gen
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ) (ρ : Dev nD → PrngReg)

/-- The stretch writes neither argument. -/
theorem keep_arg1 (c : Dev nD) : W7 m ρ c (Proc.devRef .tc main_arg1) = W6 m ρ c (Proc.devRef .tc main_arg1) := by
  show StableHlo.after hostOps3 (W6 m ρ c) (Proc.devRef .tc main_arg1) = _
  after_results
theorem keep_arg2 (c : Dev nD) : W7 m ρ c (Proc.devRef .tc main_arg2) = W6 m ρ c (Proc.devRef .tc main_arg2) := by
  show StableHlo.after hostOps3 (W6 m ρ c) (Proc.devRef .tc main_arg2) = _
  after_results

/-- The node buffer at entry: the previous buffer, then the previous launch's output as a flat run. -/
theorem buf_eq (c : Dev nD) : W7 m ρ c (Proc.devRef .tc main_v44)
    = concatenate S53249 0 [⟨S36865, W6 m ρ c (Proc.devRef .tc main_v30)⟩,
        ⟨S16384, shapeCast S16384 (W6 m ρ c (Proc.devRef .tc main_v42)) shapeCasts_S1x16384_S16384⟩] concatenates_S36865_S16384_S53249_d0 := by
  show StableHlo.after hostOps3 (W6 m ρ c) (Proc.devRef .tc main_v44) = _
  after_results
  rfl

/-- The layer's index table: slice 3 of the index argument. -/
abbrev idxTab (c : Dev nD) : IVec S16384x128 32 :=
  shapeCast S16384x128 (extractStridedSlice S1x16384x128 ![3, 0, 0] (W6 m ρ c (Proc.devRef .tc main_arg2)) slices_S8x16384x128_S1x16384x128_3_0_0) shapeCasts_S1x16384x128_S16384x128

/-- The gathered array at entry: the node buffer at the normalised indices. -/
theorem gat_eq (c : Dev nD) : W7 m ρ c (Proc.devRef .tc main_v53)
    = Host.gather gather_S53249_S16384x128x1_S16384x128_n_0_n_n_0_2_1 (W7 m ρ c (Proc.devRef .tc main_v44))
        (broadcastInDim S16384x128x1 ![0, 1] bcast_S16384x128_S16384x128x1_0_1
          (select (cmpi .slt (idxTab m ρ c) (broadcastInDim S16384x128 ![] bcast_S_S16384x128 (constantI S_ 32 0#32)))
            (addi (idxTab m ρ c) (broadcastInDim S16384x128 ![] bcast_S_S16384x128 (constantI S_ 32 53249#32))) (idxTab m ρ c))) := by
  show StableHlo.after hostOps3 (W6 m ρ c) (Proc.devRef .tc main_v53) = Host.gather _ (StableHlo.after hostOps3 (W6 m ρ c) (Proc.devRef .tc main_v44)) _
  after_results_simp
  rfl

/-- The weight array at entry: slice 3 of the weight argument. -/
theorem wgt_eq (c : Dev nD) : W7 m ρ c (Proc.devRef .tc main_v55)
    = shapeCast S16384x128 (extractStridedSlice S1x16384x128 ![3, 0, 0] (W6 m ρ c (Proc.devRef .tc main_arg1)) slices_S8x16384x128_S1x16384x128_3_0_0) shapeCasts_S1x16384x128_S16384x128 := by
  show StableHlo.after hostOps3 (W6 m ρ c) (Proc.devRef .tc main_v55) = _
  after_results
  rfl

/-- Launch 3 writes only its output array: both arguments and the node buffer pass through it. -/
theorem across_arg1 (c : Dev nD) : W8 m ρ c (Proc.devRef .tc main_arg1) = W7 m ρ c (Proc.devRef .tc main_arg1) :=
  W8_of_ne m ρ c main_arg1 (by decide)
theorem across_arg2 (c : Dev nD) : W8 m ρ c (Proc.devRef .tc main_arg2) = W7 m ρ c (Proc.devRef .tc main_arg2) :=
  W8_of_ne m ρ c main_arg2 (by decide)
theorem across_buf (c : Dev nD) : W8 m ρ c (Proc.devRef .tc main_v44) = W7 m ρ c (Proc.devRef .tc main_v44) :=
  W8_of_ne m ρ c main_v44 (by decide)
/-- … and its output array ends at what the pipeline's write-backs leave. -/
theorem across_out (c : Dev nD) : W8 m ρ c (Proc.devRef .tc main_v56) = (dat3 (V7 m ρ) c).arrAt 2 cfg3.N :=
  W8_arr m ρ c 2

end Cert.KernelIdeal.Host3

end
-- ==== Proof.Region3.lean ====
/-
  Launch 3 of the layer kernel, read as a value: whatever the two input arrays hold when the launch is entered, the
  output array [1, 16384] ends holding, at node `r`, the layer function of row `r` of the weight array and row `r` of the
  gathered array. Point `t` of the grid of 8 works on rows 2048·t … 2048·t + 2047 and writes columns 2048·t … of the
  output; the eight blocks tile it.
-/
import proofs.«128059_j1726576856803_1_alg».proof.Proof.Gen.KernelIdeal.Frame
import proofs.«128059_j1726576856803_1_alg».proof.Proof.LayerKer
import proofs.«128059_j1726576856803_1_alg».proof.Proof.LayerOut
import Idealize.ShloMosaic.Lib.Pipeline.Value

set_option maxRecDepth 16384

noncomputable section

open scoped BigOperators

namespace Cert.KernelIdeal.Region3

open Cert.KernelIdeal Cert.KernelIdeal.Gen Cert.LayerSpec Cert.LayerKer Cert.LayerOut
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The weight array and the gathered array as the launch finds them, and their blocks at a point. -/
abbrev warr (c : Dev nD) : S16384x128.Idx → EReal := V c main_v55
abbrev garr (c : Dev nD) : S16384x128.Idx → EReal := V c main_v53
abbrev wblk (c : Dev nD) (t : Fin cfg3.N) : Vec Ideal S2048x128 .f32 := iblk3 V c 0 t
abbrev gblk (c : Dev nD) (t : Fin cfg3.N) : Vec Ideal S2048x128 .f32 := iblk3 V c 1 t

theorem hz : (![0, 0] : Fin 2 → Nat) = fun _ => 0 := funext fun a => by fin_cases a <;> rfl

/-- The printed index maps over the grid: point `t` takes row block `t` of both inputs and column block `t` of the output. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = t.val ∧ t.val < 8 :=
  (by decide +kernel : ∀ t : Fin grid3.N, _)

/-- Row `q` of the weight block at point `t` is row 2048·t + q of the weight array. -/
theorem wblk_apply (c : Dev nD) (t : Fin cfg3.N) (q : Fin 2048) (k : Fin 128) (r : Fin 16384) (hr : r.val = t.val * 2048 + q.val) :
    wblk V c t (ix2 q k) = warr V c (ix2 r k) := by
  obtain ⟨e0, e1, -, -, -, -, -⟩ := idx_facts t
  show V c main_v55 (((cfg3.win 0).blk t).view.emb (ix2 q k)) = V c main_v55 (ix2 r k)
  congr 1
  funext a; apply Fin.ext
  match a with
  | ⟨0, _⟩ => show win3_0.index t (0 : Fin 2) * 2048 + 1 * q.val = r.val; omega
  | ⟨1, _⟩ => show win3_0.index t (1 : Fin 2) * 128 + 1 * k.val = k.val; omega

/-- Row `q` of the gathered block at point `t` is row 2048·t + q of the gathered array. -/
theorem gblk_apply (c : Dev nD) (t : Fin cfg3.N) (q : Fin 2048) (k : Fin 128) (r : Fin 16384) (hr : r.val = t.val * 2048 + q.val) :
    gblk V c t (ix2 q k) = garr V c (ix2 r k) := by
  obtain ⟨-, -, e0, e1, -, -, -⟩ := idx_facts t
  show V c main_v53 (((cfg3.win 1).blk t).view.emb (ix2 q k)) = V c main_v53 (ix2 r k)
  congr 1
  funext a; apply Fin.ext
  match a with
  | ⟨0, _⟩ => show win3_1.index t (0 : Fin 2) * 2048 + 1 * q.val = r.val; omega
  | ⟨1, _⟩ => show win3_1.index t (1 : Fin 2) * 128 + 1 * k.val = k.val; omega

/-- What point `t` writes back is block `t` of the layer's output array. -/
theorem flushed_eq (c : Dev nD) (t : Fin cfg3.N) :
    (dat3 V c).flushed 2 t = ((cfg3.win 2).blk t).view.read (Elt Ideal) (outArr (warr V c) (garr V c)) := by
  show (cfg3.win 2).cut (grid3.coords t) ((dat3 V c).after 2 t) = _
  rw [after3_2]
  unfold out3_2
  rw [View.canon_unit_zero hz]
  simp only [View.ld_unit_zero (S := S2048x128) hz]
  obtain ⟨-, -, -, -, e0, e1, ht⟩ := idx_facts t
  funext j
  obtain ⟨p0, q, rfl⟩ : ∃ (p0 : Fin 1) (q : Fin 2048), j = ix2 p0 q := ⟨j 0, j 1, eq_ix2 j⟩
  obtain rfl : p0 = 0 := Subsingleton.elim _ _
  have hrlt : t.val * 2048 + q.val < 16384 := by have := q.isLt; omega
  show k3_pay1 (F := Ideal) (wblk V c t) (gblk V c t) (ix2 (0 : Fin 1) q)
    = outArr (warr V c) (garr V c) (((cfg3.win 2).blk t).view.emb (ix2 (0 : Fin 1) q))
  rw [pay3_apply]
  unfold rowAct outArr asRow act
  have hcol : ((((cfg3.win 2).blk t).view.emb (ix2 (0 : Fin 1) q)) 1).val = t.val * 2048 + q.val := by
    show win3_2.index t (1 : Fin 2) * 2048 + 1 * q.val = _
    omega
  have hix : (ix1 ⟨((((cfg3.win 2).blk t).view.emb (ix2 (0 : Fin 1) q)) 1).val, idx2_lt1 _⟩ : S16384.Idx)
      = ix1 ⟨t.val * 2048 + q.val, hrlt⟩ := by
    funext a; apply Fin.ext
    match a with
    | ⟨0, _⟩ => exact hcol
  rw [hix]
  refine congrArg (fun s => Ideal.logistic (scale * s)) (Finset.sum_congr rfl fun k _ => ?_)
  rw [wblk_apply V c t q k ⟨t.val * 2048 + q.val, hrlt⟩ rfl, gblk_apply V c t q k ⟨t.val * 2048 + q.val, hrlt⟩ rfl]

/-- An index of the output array is in point `t`'s block iff its column lies in block `t`. -/
theorem mem_blk (t : Fin cfg3.N) (i : S1x16384.Idx) :
    i ∈ ((cfg3.win 2).blk t).view.set ↔ ∀ a : Fin 2, win3_2.index t a * S1x2048.size a ≤ (i a).val ∧ (i a).val < win3_2.index t a * S1x2048.size a + S1x2048.size a := by
  show i ∈ ((View.whole main_v56).slice (win3_2.rect t)).set ↔ _
  rw [View.set_slice_whole, Rect.mem_set_unit]
  exact Iff.rfl

/-- Every block index of the output is some point's. -/
theorem idx_onto : ∀ q1 : Fin 8, ∃ t : Fin cfg3.N, win3_2.index t = ![0, q1.val] :=
  (by decide +kernel : ∀ q1 : Fin 8, ∃ t : Fin grid3.N, win3_2.index t = ![0, q1.val])

/-- THE OUTPUT ARRAY after the launch: the layer function of the two input arrays, node by node. -/
theorem final (c : Dev nD) : (dat3 V c).arrAt 2 cfg3.N = outArr (warr V c) (garr V c) :=
  (dat3 V c).arrAt_eq_of_cover 2 (outArr (warr V c) (garr V c)) (fun t _ => flushed_eq V c t) fun i => by
    have hi0 : (i 0).val < 1 := (i 0).isLt
    have hi1 : (i 1).val < 16384 := (i 1).isLt
    obtain ⟨t, ht⟩ := idx_onto ⟨(i 1).val / 2048, by omega⟩
    have q0 : win3_2.index t (0 : Fin 2) = 0 := congrFun ht 0
    have q1 : win3_2.index t (1 : Fin 2) = (i 1).val / 2048 := congrFun ht 1
    refine ⟨t, flush3_2 t, ?_⟩
    rw [mem_blk]
    intro a
    match a with
    | ⟨0, _⟩ => show win3_2.index t (0 : Fin 2) * 1 ≤ (i 0).val ∧ (i 0).val < win3_2.index t (0 : Fin 2) * 1 + 1; omega
    | ⟨1, _⟩ => show win3_2.index t (1 : Fin 2) * 2048 ≤ (i 1).val ∧ (i 1).val < win3_2.index t (1 : Fin 2) * 2048 + 2048; omega

end Cert.KernelIdeal.Region3

end
-- ==== Proof.Host4.lean ====
/-
  The host operations before launch 4, read as values: from the buffer contents at the boundary before them to the
  contents launch 4 is entered with. The node buffer grows by the previous launch's output, reshaped to a flat run of 16384 activations;
  the layer's index table is taken from the index argument, negative entries moved up by the buffer's length 69633,
  and gathered from the node buffer; the layer's weights are sliced from the weight argument. Neither argument array is
  written.
-/
import proofs.«128059_j1726576856803_1_alg».proof.Proof.Gen.KernelIdeal.Frame
import Idealize.ShloMosaic.Lib.StableHlo.Run

set_option maxRecDepth 16384

noncomputable section

namespace Cert.KernelIdeal.Host4

open Cert.KernelIdeal Cert.KernelIdeal.Gen
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ) (ρ : Dev nD → PrngReg)

/-- The stretch writes neither argument. -/
theorem keep_arg1 (c : Dev nD) : W9 m ρ c (Proc.devRef .tc main_arg1) = W8 m ρ c (Proc.devRef .tc main_arg1) := by
  show StableHlo.after hostOps4 (W8 m ρ c) (Proc.devRef .tc main_arg1) = _
  after_results
theorem keep_arg2 (c : Dev nD) : W9 m ρ c (Proc.devRef .tc main_arg2) = W8 m ρ c (Proc.devRef .tc main_arg2) := by
  show StableHlo.after hostOps4 (W8 m ρ c) (Proc.devRef .tc main_arg2) = _
  after_results

/-- The node buffer at entry: the previous buffer, then the previous launch's output as a flat run. -/
theorem buf_eq (c : Dev nD) : W9 m ρ c (Proc.devRef .tc main_v58)
    = concatenate S69633 0 [⟨S53249, W8 m ρ c (Proc.devRef .tc main_v44)⟩,
        ⟨S16384, shapeCast S16384 (W8 m ρ c (Proc.devRef .tc main_v56)) shapeCasts_S1x16384_S16384⟩] concatenates_S53249_S16384_S69633_d0 := by
  show StableHlo.after hostOps4 (W8 m ρ c) (Proc.devRef .tc main_v58) = _
  after_results
  rfl

/-- The layer's index table: slice 4 of the index argument. -/
abbrev idxTab (c : Dev nD) : IVec S16384x128 32 :=
  shapeCast S16384x128 (extractStridedSlice S1x16384x128 ![4, 0, 0] (W8 m ρ c (Proc.devRef .tc main_arg2)) slices_S8x16384x128_S1x16384x128_4_0_0) shapeCasts_S1x16384x128_S16384x128

/-- The gathered array at entry: the node buffer at the normalised indices. -/
theorem gat_eq (c : Dev nD) : W9 m ρ c (Proc.devRef .tc main_v67)
    = Host.gather gather_S69633_S16384x128x1_S16384x128_n_0_n_n_0_2_1 (W9 m ρ c (Proc.devRef .tc main_v58))
        (broadcastInDim S16384x128x1 ![0, 1] bcast_S16384x128_S16384x128x1_0_1
          (select (cmpi .slt (idxTab m ρ c) (broadcastInDim S16384x128 ![] bcast_S_S16384x128 (constantI S_ 32 0#32)))
            (addi (idxTab m ρ c) (broadcastInDim S16384x128 ![] bcast_S_S16384x128 (constantI S_ 32 69633#32))) (idxTab m ρ c))) := by
  show StableHlo.after hostOps4 (W8 m ρ c) (Proc.devRef .tc main_v67) = Host.gather _ (StableHlo.after hostOps4 (W8 m ρ c) (Proc.devRef .tc main_v58)) _
  after_results_simp
  rfl

/-- The weight array at entry: slice 4 of the weight argument. -/
theorem wgt_eq (c : Dev nD) : W9 m ρ c (Proc.devRef .tc main_v69)
    = shapeCast S16384x128 (extractStridedSlice S1x16384x128 ![4, 0, 0] (W8 m ρ c (Proc.devRef .tc main_arg1)) slices_S8x16384x128_S1x16384x128_4_0_0) shapeCasts_S1x16384x128_S16384x128 := by
  show StableHlo.after hostOps4 (W8 m ρ c) (Proc.devRef .tc main_v69) = _
  after_results
  rfl

/-- Launch 4 writes only its output array: both arguments and the node buffer pass through it. -/
theorem across_arg1 (c : Dev nD) : W10 m ρ c (Proc.devRef .tc main_arg1) = W9 m ρ c (Proc.devRef .tc main_arg1) :=
  W10_of_ne m ρ c main_arg1 (by decide)
theorem across_arg2 (c : Dev nD) : W10 m ρ c (Proc.devRef .tc main_arg2) = W9 m ρ c (Proc.devRef .tc main_arg2) :=
  W10_of_ne m ρ c main_arg2 (by decide)
theorem across_buf (c : Dev nD) : W10 m ρ c (Proc.devRef .tc main_v58) = W9 m ρ c (Proc.devRef .tc main_v58) :=
  W10_of_ne m ρ c main_v58 (by decide)
/-- … and its output array ends at what the pipeline's write-backs leave. -/
theorem across_out (c : Dev nD) : W10 m ρ c (Proc.devRef .tc main_v70) = (dat4 (V9 m ρ) c).arrAt 2 cfg4.N :=
  W10_arr m ρ c 2

end Cert.KernelIdeal.Host4

end
-- ==== Proof.Region4.lean ====
/-
  Launch 4 of the layer kernel, read as a value: whatever the two input arrays hold when the launch is entered, the
  output array [1, 16384] ends holding, at node `r`, the layer function of row `r` of the weight array and row `r` of the
  gathered array. Point `t` of the grid of 8 works on rows 2048·t … 2048·t + 2047 and writes columns 2048·t … of the
  output; the eight blocks tile it.
-/
import proofs.«128059_j1726576856803_1_alg».proof.Proof.Gen.KernelIdeal.Frame
import proofs.«128059_j1726576856803_1_alg».proof.Proof.LayerKer
import proofs.«128059_j1726576856803_1_alg».proof.Proof.LayerOut
import Idealize.ShloMosaic.Lib.Pipeline.Value

set_option maxRecDepth 16384

noncomputable section

open scoped BigOperators

namespace Cert.KernelIdeal.Region4

open Cert.KernelIdeal Cert.KernelIdeal.Gen Cert.LayerSpec Cert.LayerKer Cert.LayerOut
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The weight array and the gathered array as the launch finds them, and their blocks at a point. -/
abbrev warr (c : Dev nD) : S16384x128.Idx → EReal := V c main_v69
abbrev garr (c : Dev nD) : S16384x128.Idx → EReal := V c main_v67
abbrev wblk (c : Dev nD) (t : Fin cfg4.N) : Vec Ideal S2048x128 .f32 := iblk4 V c 0 t
abbrev gblk (c : Dev nD) (t : Fin cfg4.N) : Vec Ideal S2048x128 .f32 := iblk4 V c 1 t

theorem hz : (![0, 0] : Fin 2 → Nat) = fun _ => 0 := funext fun a => by fin_cases a <;> rfl

/-- The printed index maps over the grid: point `t` takes row block `t` of both inputs and column block `t` of the output. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = t.val ∧ t.val < 8 :=
  (by decide +kernel : ∀ t : Fin grid4.N, _)

/-- Row `q` of the weight block at point `t` is row 2048·t + q of the weight array. -/
theorem wblk_apply (c : Dev nD) (t : Fin cfg4.N) (q : Fin 2048) (k : Fin 128) (r : Fin 16384) (hr : r.val = t.val * 2048 + q.val) :
    wblk V c t (ix2 q k) = warr V c (ix2 r k) := by
  obtain ⟨e0, e1, -, -, -, -, -⟩ := idx_facts t
  show V c main_v69 (((cfg4.win 0).blk t).view.emb (ix2 q k)) = V c main_v69 (ix2 r k)
  congr 1
  funext a; apply Fin.ext
  match a with
  | ⟨0, _⟩ => show win4_0.index t (0 : Fin 2) * 2048 + 1 * q.val = r.val; omega
  | ⟨1, _⟩ => show win4_0.index t (1 : Fin 2) * 128 + 1 * k.val = k.val; omega

/-- Row `q` of the gathered block at point `t` is row 2048·t + q of the gathered array. -/
theorem gblk_apply (c : Dev nD) (t : Fin cfg4.N) (q : Fin 2048) (k : Fin 128) (r : Fin 16384) (hr : r.val = t.val * 2048 + q.val) :
    gblk V c t (ix2 q k) = garr V c (ix2 r k) := by
  obtain ⟨-, -, e0, e1, -, -, -⟩ := idx_facts t
  show V c main_v67 (((cfg4.win 1).blk t).view.emb (ix2 q k)) = V c main_v67 (ix2 r k)
  congr 1
  funext a; apply Fin.ext
  match a with
  | ⟨0, _⟩ => show win4_1.index t (0 : Fin 2) * 2048 + 1 * q.val = r.val; omega
  | ⟨1, _⟩ => show win4_1.index t (1 : Fin 2) * 128 + 1 * k.val = k.val; omega

/-- What point `t` writes back is block `t` of the layer's output array. -/
theorem flushed_eq (c : Dev nD) (t : Fin cfg4.N) :
    (dat4 V c).flushed 2 t = ((cfg4.win 2).blk t).view.read (Elt Ideal) (outArr (warr V c) (garr V c)) := by
  show (cfg4.win 2).cut (grid4.coords t) ((dat4 V c).after 2 t) = _
  rw [after4_2]
  unfold out4_2
  rw [View.canon_unit_zero hz]
  simp only [View.ld_unit_zero (S := S2048x128) hz]
  obtain ⟨-, -, -, -, e0, e1, ht⟩ := idx_facts t
  funext j
  obtain ⟨p0, q, rfl⟩ : ∃ (p0 : Fin 1) (q : Fin 2048), j = ix2 p0 q := ⟨j 0, j 1, eq_ix2 j⟩
  obtain rfl : p0 = 0 := Subsingleton.elim _ _
  have hrlt : t.val * 2048 + q.val < 16384 := by have := q.isLt; omega
  show k4_pay1 (F := Ideal) (wblk V c t) (gblk V c t) (ix2 (0 : Fin 1) q)
    = outArr (warr V c) (garr V c) (((cfg4.win 2).blk t).view.emb (ix2 (0 : Fin 1) q))
  rw [pay4_apply]
  unfold rowAct outArr asRow act
  have hcol : ((((cfg4.win 2).blk t).view.emb (ix2 (0 : Fin 1) q)) 1).val = t.val * 2048 + q.val := by
    show win4_2.index t (1 : Fin 2) * 2048 + 1 * q.val = _
    omega
  have hix : (ix1 ⟨((((cfg4.win 2).blk t).view.emb (ix2 (0 : Fin 1) q)) 1).val, idx2_lt1 _⟩ : S16384.Idx)
      = ix1 ⟨t.val * 2048 + q.val, hrlt⟩ := by
    funext a; apply Fin.ext
    match a with
    | ⟨0, _⟩ => exact hcol
  rw [hix]
  refine congrArg (fun s => Ideal.logistic (scale * s)) (Finset.sum_congr rfl fun k _ => ?_)
  rw [wblk_apply V c t q k ⟨t.val * 2048 + q.val, hrlt⟩ rfl, gblk_apply V c t q k ⟨t.val * 2048 + q.val, hrlt⟩ rfl]

/-- An index of the output array is in point `t`'s block iff its column lies in block `t`. -/
theorem mem_blk (t : Fin cfg4.N) (i : S1x16384.Idx) :
    i ∈ ((cfg4.win 2).blk t).view.set ↔ ∀ a : Fin 2, win4_2.index t a * S1x2048.size a ≤ (i a).val ∧ (i a).val < win4_2.index t a * S1x2048.size a + S1x2048.size a := by
  show i ∈ ((View.whole main_v70).slice (win4_2.rect t)).set ↔ _
  rw [View.set_slice_whole, Rect.mem_set_unit]
  exact Iff.rfl

/-- Every block index of the output is some point's. -/
theorem idx_onto : ∀ q1 : Fin 8, ∃ t : Fin cfg4.N, win4_2.index t = ![0, q1.val] :=
  (by decide +kernel : ∀ q1 : Fin 8, ∃ t : Fin grid4.N, win4_2.index t = ![0, q1.val])

/-- THE OUTPUT ARRAY after the launch: the layer function of the two input arrays, node by node. -/
theorem final (c : Dev nD) : (dat4 V c).arrAt 2 cfg4.N = outArr (warr V c) (garr V c) :=
  (dat4 V c).arrAt_eq_of_cover 2 (outArr (warr V c) (garr V c)) (fun t _ => flushed_eq V c t) fun i => by
    have hi0 : (i 0).val < 1 := (i 0).isLt
    have hi1 : (i 1).val < 16384 := (i 1).isLt
    obtain ⟨t, ht⟩ := idx_onto ⟨(i 1).val / 2048, by omega⟩
    have q0 : win4_2.index t (0 : Fin 2) = 0 := congrFun ht 0
    have q1 : win4_2.index t (1 : Fin 2) = (i 1).val / 2048 := congrFun ht 1
    refine ⟨t, flush4_2 t, ?_⟩
    rw [mem_blk]
    intro a
    match a with
    | ⟨0, _⟩ => show win4_2.index t (0 : Fin 2) * 1 ≤ (i 0).val ∧ (i 0).val < win4_2.index t (0 : Fin 2) * 1 + 1; omega
    | ⟨1, _⟩ => show win4_2.index t (1 : Fin 2) * 2048 ≤ (i 1).val ∧ (i 1).val < win4_2.index t (1 : Fin 2) * 2048 + 2048; omega

end Cert.KernelIdeal.Region4

end
-- ==== Proof.Host5.lean ====
/-
  The host operations before launch 5, read as values: from the buffer contents at the boundary before them to the
  contents launch 5 is entered with. The node buffer grows by the previous launch's output, reshaped to a flat run of 16384 activations;
  the layer's index table is taken from the index argument, negative entries moved up by the buffer's length 86017,
  and gathered from the node buffer; the layer's weights are sliced from the weight argument. Neither argument array is
  written.
-/
import proofs.«128059_j1726576856803_1_alg».proof.Proof.Gen.KernelIdeal.Frame
import Idealize.ShloMosaic.Lib.StableHlo.Run

set_option maxRecDepth 16384

noncomputable section

namespace Cert.KernelIdeal.Host5

open Cert.KernelIdeal Cert.KernelIdeal.Gen
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ) (ρ : Dev nD → PrngReg)

/-- The stretch writes neither argument. -/
theorem keep_arg1 (c : Dev nD) : W11 m ρ c (Proc.devRef .tc main_arg1) = W10 m ρ c (Proc.devRef .tc main_arg1) := by
  show StableHlo.after hostOps5 (W10 m ρ c) (Proc.devRef .tc main_arg1) = _
  after_results
theorem keep_arg2 (c : Dev nD) : W11 m ρ c (Proc.devRef .tc main_arg2) = W10 m ρ c (Proc.devRef .tc main_arg2) := by
  show StableHlo.after hostOps5 (W10 m ρ c) (Proc.devRef .tc main_arg2) = _
  after_results

/-- The node buffer at entry: the previous buffer, then the previous launch's output as a flat run. -/
theorem buf_eq (c : Dev nD) : W11 m ρ c (Proc.devRef .tc main_v72)
    = concatenate S86017 0 [⟨S69633, W10 m ρ c (Proc.devRef .tc main_v58)⟩,
        ⟨S16384, shapeCast S16384 (W10 m ρ c (Proc.devRef .tc main_v70)) shapeCasts_S1x16384_S16384⟩] concatenates_S69633_S16384_S86017_d0 := by
  show StableHlo.after hostOps5 (W10 m ρ c) (Proc.devRef .tc main_v72) = _
  after_results
  rfl

/-- The layer's index table: slice 5 of the index argument. -/
abbrev idxTab (c : Dev nD) : IVec S16384x128 32 :=
  shapeCast S16384x128 (extractStridedSlice S1x16384x128 ![5, 0, 0] (W10 m ρ c (Proc.devRef .tc main_arg2)) slices_S8x16384x128_S1x16384x128_5_0_0) shapeCasts_S1x16384x128_S16384x128

/-- The gathered array at entry: the node buffer at the normalised indices. -/
theorem gat_eq (c : Dev nD) : W11 m ρ c (Proc.devRef .tc main_v81)
    = Host.gather gather_S86017_S16384x128x1_S16384x128_n_0_n_n_0_2_1 (W11 m ρ c (Proc.devRef .tc main_v72))
        (broadcastInDim S16384x128x1 ![0, 1] bcast_S16384x128_S16384x128x1_0_1
          (select (cmpi .slt (idxTab m ρ c) (broadcastInDim S16384x128 ![] bcast_S_S16384x128 (constantI S_ 32 0#32)))
            (addi (idxTab m ρ c) (broadcastInDim S16384x128 ![] bcast_S_S16384x128 (constantI S_ 32 86017#32))) (idxTab m ρ c))) := by
  show StableHlo.after hostOps5 (W10 m ρ c) (Proc.devRef .tc main_v81) = Host.gather _ (StableHlo.after hostOps5 (W10 m ρ c) (Proc.devRef .tc main_v72)) _
  after_results_simp
  rfl

/-- The weight array at entry: slice 5 of the weight argument. -/
theorem wgt_eq (c : Dev nD) : W11 m ρ c (Proc.devRef .tc main_v83)
    = shapeCast S16384x128 (extractStridedSlice S1x16384x128 ![5, 0, 0] (W10 m ρ c (Proc.devRef .tc main_arg1)) slices_S8x16384x128_S1x16384x128_5_0_0) shapeCasts_S1x16384x128_S16384x128 := by
  show StableHlo.after hostOps5 (W10 m ρ c) (Proc.devRef .tc main_v83) = _
  after_results
  rfl

/-- Launch 5 writes only its output array: both arguments and the node buffer pass through it. -/
theorem across_arg1 (c : Dev nD) : W12 m ρ c (Proc.devRef .tc main_arg1) = W11 m ρ c (Proc.devRef .tc main_arg1) :=
  W12_of_ne m ρ c main_arg1 (by decide)
theorem across_arg2 (c : Dev nD) : W12 m ρ c (Proc.devRef .tc main_arg2) = W11 m ρ c (Proc.devRef .tc main_arg2) :=
  W12_of_ne m ρ c main_arg2 (by decide)
theorem across_buf (c : Dev nD) : W12 m ρ c (Proc.devRef .tc main_v72) = W11 m ρ c (Proc.devRef .tc main_v72) :=
  W12_of_ne m ρ c main_v72 (by decide)
/-- … and its output array ends at what the pipeline's write-backs leave. -/
theorem across_out (c : Dev nD) : W12 m ρ c (Proc.devRef .tc main_v84) = (dat5 (V11 m ρ) c).arrAt 2 cfg5.N :=
  W12_arr m ρ c 2

end Cert.KernelIdeal.Host5

end
-- ==== Proof.Region5.lean ====
/-
  Launch 5 of the layer kernel, read as a value: whatever the two input arrays hold when the launch is entered, the
  output array [1, 16384] ends holding, at node `r`, the layer function of row `r` of the weight array and row `r` of the
  gathered array. Point `t` of the grid of 8 works on rows 2048·t … 2048·t + 2047 and writes columns 2048·t … of the
  output; the eight blocks tile it.
-/
import proofs.«128059_j1726576856803_1_alg».proof.Proof.Gen.KernelIdeal.Frame
import proofs.«128059_j1726576856803_1_alg».proof.Proof.LayerKer
import proofs.«128059_j1726576856803_1_alg».proof.Proof.LayerOut
import Idealize.ShloMosaic.Lib.Pipeline.Value

set_option maxRecDepth 16384

noncomputable section

open scoped BigOperators

namespace Cert.KernelIdeal.Region5

open Cert.KernelIdeal Cert.KernelIdeal.Gen Cert.LayerSpec Cert.LayerKer Cert.LayerOut
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The weight array and the gathered array as the launch finds them, and their blocks at a point. -/
abbrev warr (c : Dev nD) : S16384x128.Idx → EReal := V c main_v83
abbrev garr (c : Dev nD) : S16384x128.Idx → EReal := V c main_v81
abbrev wblk (c : Dev nD) (t : Fin cfg5.N) : Vec Ideal S2048x128 .f32 := iblk5 V c 0 t
abbrev gblk (c : Dev nD) (t : Fin cfg5.N) : Vec Ideal S2048x128 .f32 := iblk5 V c 1 t

theorem hz : (![0, 0] : Fin 2 → Nat) = fun _ => 0 := funext fun a => by fin_cases a <;> rfl

/-- The printed index maps over the grid: point `t` takes row block `t` of both inputs and column block `t` of the output. -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = t.val ∧ t.val < 8 :=
  (by decide +kernel : ∀ t : Fin grid5.N, _)

/-- Row `q` of the weight block at point `t` is row 2048·t + q of the weight array. -/
theorem wblk_apply (c : Dev nD) (t : Fin cfg5.N) (q : Fin 2048) (k : Fin 128) (r : Fin 16384) (hr : r.val = t.val * 2048 + q.val) :
    wblk V c t (ix2 q k) = warr V c (ix2 r k) := by
  obtain ⟨e0, e1, -, -, -, -, -⟩ := idx_facts t
  show V c main_v83 (((cfg5.win 0).blk t).view.emb (ix2 q k)) = V c main_v83 (ix2 r k)
  congr 1
  funext a; apply Fin.ext
  match a with
  | ⟨0, _⟩ => show win5_0.index t (0 : Fin 2) * 2048 + 1 * q.val = r.val; omega
  | ⟨1, _⟩ => show win5_0.index t (1 : Fin 2) * 128 + 1 * k.val = k.val; omega

/-- Row `q` of the gathered block at point `t` is row 2048·t + q of the gathered array. -/
theorem gblk_apply (c : Dev nD) (t : Fin cfg5.N) (q : Fin 2048) (k : Fin 128) (r : Fin 16384) (hr : r.val = t.val * 2048 + q.val) :
    gblk V c t (ix2 q k) = garr V c (ix2 r k) := by
  obtain ⟨-, -, e0, e1, -, -, -⟩ := idx_facts t
  show V c main_v81 (((cfg5.win 1).blk t).view.emb (ix2 q k)) = V c main_v81 (ix2 r k)
  congr 1
  funext a; apply Fin.ext
  match a with
  | ⟨0, _⟩ => show win5_1.index t (0 : Fin 2) * 2048 + 1 * q.val = r.val; omega
  | ⟨1, _⟩ => show win5_1.index t (1 : Fin 2) * 128 + 1 * k.val = k.val; omega

/-- What point `t` writes back is block `t` of the layer's output array. -/
theorem flushed_eq (c : Dev nD) (t : Fin cfg5.N) :
    (dat5 V c).flushed 2 t = ((cfg5.win 2).blk t).view.read (Elt Ideal) (outArr (warr V c) (garr V c)) := by
  show (cfg5.win 2).cut (grid5.coords t) ((dat5 V c).after 2 t) = _
  rw [after5_2]
  unfold out5_2
  rw [View.canon_unit_zero hz]
  simp only [View.ld_unit_zero (S := S2048x128) hz]
  obtain ⟨-, -, -, -, e0, e1, ht⟩ := idx_facts t
  funext j
  obtain ⟨p0, q, rfl⟩ : ∃ (p0 : Fin 1) (q : Fin 2048), j = ix2 p0 q := ⟨j 0, j 1, eq_ix2 j⟩
  obtain rfl : p0 = 0 := Subsingleton.elim _ _
  have hrlt : t.val * 2048 + q.val < 16384 := by have := q.isLt; omega
  show k5_pay1 (F := Ideal) (wblk V c t) (gblk V c t) (ix2 (0 : Fin 1) q)
    = outArr (warr V c) (garr V c) (((cfg5.win 2).blk t).view.emb (ix2 (0 : Fin 1) q))
  rw [pay5_apply]
  unfold rowAct outArr asRow act
  have hcol : ((((cfg5.win 2).blk t).view.emb (ix2 (0 : Fin 1) q)) 1).val = t.val * 2048 + q.val := by
    show win5_2.index t (1 : Fin 2) * 2048 + 1 * q.val = _
    omega
  have hix : (ix1 ⟨((((cfg5.win 2).blk t).view.emb (ix2 (0 : Fin 1) q)) 1).val, idx2_lt1 _⟩ : S16384.Idx)
      = ix1 ⟨t.val * 2048 + q.val, hrlt⟩ := by
    funext a; apply Fin.ext
    match a with
    | ⟨0, _⟩ => exact hcol
  rw [hix]
  refine congrArg (fun s => Ideal.logistic (scale * s)) (Finset.sum_congr rfl fun k _ => ?_)
  rw [wblk_apply V c t q k ⟨t.val * 2048 + q.val, hrlt⟩ rfl, gblk_apply V c t q k ⟨t.val * 2048 + q.val, hrlt⟩ rfl]

/-- An index of the output array is in point `t`'s block iff its column lies in block `t`. -/
theorem mem_blk (t : Fin cfg5.N) (i : S1x16384.Idx) :
    i ∈ ((cfg5.win 2).blk t).view.set ↔ ∀ a : Fin 2, win5_2.index t a * S1x2048.size a ≤ (i a).val ∧ (i a).val < win5_2.index t a * S1x2048.size a + S1x2048.size a := by
  show i ∈ ((View.whole main_v84).slice (win5_2.rect t)).set ↔ _
  rw [View.set_slice_whole, Rect.mem_set_unit]
  exact Iff.rfl

/-- Every block index of the output is some point's. -/
theorem idx_onto : ∀ q1 : Fin 8, ∃ t : Fin cfg5.N, win5_2.index t = ![0, q1.val] :=
  (by decide +kernel : ∀ q1 : Fin 8, ∃ t : Fin grid5.N, win5_2.index t = ![0, q1.val])

/-- THE OUTPUT ARRAY after the launch: the layer function of the two input arrays, node by node. -/
theorem final (c : Dev nD) : (dat5 V c).arrAt 2 cfg5.N = outArr (warr V c) (garr V c) :=
  (dat5 V c).arrAt_eq_of_cover 2 (outArr (warr V c) (garr V c)) (fun t _ => flushed_eq V c t) fun i => by
    have hi0 : (i 0).val < 1 := (i 0).isLt
    have hi1 : (i 1).val < 16384 := (i 1).isLt
    obtain ⟨t, ht⟩ := idx_onto ⟨(i 1).val / 2048, by omega⟩
    have q0 : win5_2.index t (0 : Fin 2) = 0 := congrFun ht 0
    have q1 : win5_2.index t (1 : Fin 2) = (i 1).val / 2048 := congrFun ht 1
    refine ⟨t, flush5_2 t, ?_⟩
    rw [mem_blk]
    intro a
    match a with
    | ⟨0, _⟩ => show win5_2.index t (0 : Fin 2) * 1 ≤ (i 0).val ∧ (i 0).val < win5_2.index t (0 : Fin 2) * 1 + 1; omega
    | ⟨1, _⟩ => show win5_2.index t (1 : Fin 2) * 2048 ≤ (i 1).val ∧ (i 1).val < win5_2.index t (1 : Fin 2) * 2048 + 2048; omega

end Cert.KernelIdeal.Region5

end
-- ==== Proof.Host6.lean ====
/-
  The host operations before launch 6, read as values: from the buffer contents at the boundary before them to the
  contents launch 6 is entered with. The node buffer grows by the previous launch's output, reshaped to a flat run of 16384 activations;
  the layer's index table is taken from the index argument, negative entries moved up by the buffer's length 102401,
  and gathered from the node buffer; the layer's weights are sliced from the weight argument. Neither argument array is
  written.
-/
import proofs.«128059_j1726576856803_1_alg».proof.Proof.Gen.KernelIdeal.Frame
import Idealize.ShloMosaic.Lib.StableHlo.Run

set_option maxRecDepth 16384

noncomputable section

namespace Cert.KernelIdeal.Host6

open Cert.KernelIdeal Cert.KernelIdeal.Gen
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ) (ρ : Dev nD → PrngReg)

/-- The stretch writes neither argument. -/
theorem keep_arg1 (c : Dev nD) : W13 m ρ c (Proc.devRef .tc main_arg1) = W12 m ρ c (Proc.devRef .tc main_arg1) := by
  show StableHlo.after hostOps6 (W12 m ρ c) (Proc.devRef .tc main_arg1) = _
  after_results
theorem keep_arg2 (c : Dev nD) : W13 m ρ c (Proc.devRef .tc main_arg2) = W12 m ρ c (Proc.devRef .tc main_arg2) := by
  show StableHlo.after hostOps6 (W12 m ρ c) (Proc.devRef .tc main_arg2) = _
  after_results

/-- The node buffer at entry: the previous buffer, then the previous launch's output as a flat run. -/
theorem buf_eq (c : Dev nD) : W13 m ρ c (Proc.devRef .tc main_v86)
    = concatenate S102401 0 [⟨S86017, W12 m ρ c (Proc.devRef .tc main_v72)⟩,
        ⟨S16384, shapeCast S16384 (W12 m ρ c (Proc.devRef .tc main_v84)) shapeCasts_S1x16384_S16384⟩] concatenates_S86017_S16384_S102401_d0 := by
  show StableHlo.after hostOps6 (W12 m ρ c) (Proc.devRef .tc main_v86) = _
  after_results
  rfl

/-- The layer's index table: slice 6 of the index argument. -/
abbrev idxTab (c : Dev nD) : IVec S16384x128 32 :=
  shapeCast S16384x128 (extractStridedSlice S1x16384x128 ![6, 0, 0] (W12 m ρ c (Proc.devRef .tc main_arg2)) slices_S8x16384x128_S1x16384x128_6_0_0) shapeCasts_S1x16384x128_S16384x128

/-- The gathered array at entry: the node buffer at the normalised indices. -/
theorem gat_eq (c : Dev nD) : W13 m ρ c (Proc.devRef .tc main_v95)
    = Host.gather gather_S102401_S16384x128x1_S16384x128_n_0_n_n_0_2_1 (W13 m ρ c (Proc.devRef .tc main_v86))
        (broadcastInDim S16384x128x1 ![0, 1] bcast_S16384x128_S16384x128x1_0_1
          (select (cmpi .slt (idxTab m ρ c) (broadcastInDim S16384x128 ![] bcast_S_S16384x128 (constantI S_ 32 0#32)))
            (addi (idxTab m ρ c) (broadcastInDim S16384x128 ![] bcast_S_S16384x128 (constantI S_ 32 102401#32))) (idxTab m ρ c))) := by
  show StableHlo.after hostOps6 (W12 m ρ c) (Proc.devRef .tc main_v95) = Host.gather _ (StableHlo.after hostOps6 (W12 m ρ c) (Proc.devRef .tc main_v86)) _
  after_results_simp
  rfl

/-- The weight array at entry: slice 6 of the weight argument. -/
theorem wgt_eq (c : Dev nD) : W13 m ρ c (Proc.devRef .tc main_v97)
    = shapeCast S16384x128 (extractStridedSlice S1x16384x128 ![6, 0, 0] (W12 m ρ c (Proc.devRef .tc main_arg1)) slices_S8x16384x128_S1x16384x128_6_0_0) shapeCasts_S1x16384x128_S16384x128 := by
  show StableHlo.after hostOps6 (W12 m ρ c) (Proc.devRef .tc main_v97) = _
  after_results
  rfl

/-- Launch 6 writes only its output array: both arguments and the node buffer pass through it. -/
theorem across_arg1 (c : Dev nD) : W14 m ρ c (Proc.devRef .tc main_arg1) = W13 m ρ c (Proc.devRef .tc main_arg1) :=
  W14_of_ne m ρ c main_arg1 (by decide)
theorem across_arg2 (c : Dev nD) : W14 m ρ c (Proc.devRef .tc main_arg2) = W13 m ρ c (Proc.devRef .tc main_arg2) :=
  W14_of_ne m ρ c main_arg2 (by decide)
theorem across_buf (c : Dev nD) : W14 m ρ c (Proc.devRef .tc main_v86) = W13 m ρ c (Proc.devRef .tc main_v86) :=
  W14_of_ne m ρ c main_v86 (by decide)
/-- … and its output array ends at what the pipeline's write-backs leave. -/
theorem across_out (c : Dev nD) : W14 m ρ c (Proc.devRef .tc main_v98) = (dat6 (V13 m ρ) c).arrAt 2 cfg6.N :=
  W14_arr m ρ c 2

end Cert.KernelIdeal.Host6

end
-- ==== Proof.Region6.lean ====
/-
  Launch 6 of the layer kernel, read as a value: whatever the two input arrays hold when the launch is entered, the
  output array [1, 16384] ends holding, at node `r`, the layer function of row `r` of the weight array and row `r` of the
  gathered array. Point `t` of the grid of 8 works on rows 2048·t … 2048·t + 2047 and writes columns 2048·t … of the
  output; the eight blocks tile it.
-/
import proofs.«128059_j1726576856803_1_alg».proof.Proof.Gen.KernelIdeal.Frame
import proofs.«128059_j1726576856803_1_alg».proof.Proof.LayerKer
import proofs.«128059_j1726576856803_1_alg».proof.Proof.LayerOut
import Idealize.ShloMosaic.Lib.Pipeline.Value

set_option maxRecDepth 16384

noncomputable section

open scoped BigOperators

namespace Cert.KernelIdeal.Region6

open Cert.KernelIdeal Cert.KernelIdeal.Gen Cert.LayerSpec Cert.LayerKer Cert.LayerOut
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The weight array and the gathered array as the launch finds them, and their blocks at a point. -/
abbrev warr (c : Dev nD) : S16384x128.Idx → EReal := V c main_v97
abbrev garr (c : Dev nD) : S16384x128.Idx → EReal := V c main_v95
abbrev wblk (c : Dev nD) (t : Fin cfg6.N) : Vec Ideal S2048x128 .f32 := iblk6 V c 0 t
abbrev gblk (c : Dev nD) (t : Fin cfg6.N) : Vec Ideal S2048x128 .f32 := iblk6 V c 1 t

theorem hz : (![0, 0] : Fin 2 → Nat) = fun _ => 0 := funext fun a => by fin_cases a <;> rfl

/-- The printed index maps over the grid: point `t` takes row block `t` of both inputs and column block `t` of the output. -/
theorem idx_facts : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = t.val ∧ t.val < 8 :=
  (by decide +kernel : ∀ t : Fin grid6.N, _)

/-- Row `q` of the weight block at point `t` is row 2048·t + q of the weight array. -/
theorem wblk_apply (c : Dev nD) (t : Fin cfg6.N) (q : Fin 2048) (k : Fin 128) (r : Fin 16384) (hr : r.val = t.val * 2048 + q.val) :
    wblk V c t (ix2 q k) = warr V c (ix2 r k) := by
  obtain ⟨e0, e1, -, -, -, -, -⟩ := idx_facts t
  show V c main_v97 (((cfg6.win 0).blk t).view.emb (ix2 q k)) = V c main_v97 (ix2 r k)
  congr 1
  funext a; apply Fin.ext
  match a with
  | ⟨0, _⟩ => show win6_0.index t (0 : Fin 2) * 2048 + 1 * q.val = r.val; omega
  | ⟨1, _⟩ => show win6_0.index t (1 : Fin 2) * 128 + 1 * k.val = k.val; omega

/-- Row `q` of the gathered block at point `t` is row 2048·t + q of the gathered array. -/
theorem gblk_apply (c : Dev nD) (t : Fin cfg6.N) (q : Fin 2048) (k : Fin 128) (r : Fin 16384) (hr : r.val = t.val * 2048 + q.val) :
    gblk V c t (ix2 q k) = garr V c (ix2 r k) := by
  obtain ⟨-, -, e0, e1, -, -, -⟩ := idx_facts t
  show V c main_v95 (((cfg6.win 1).blk t).view.emb (ix2 q k)) = V c main_v95 (ix2 r k)
  congr 1
  funext a; apply Fin.ext
  match a with
  | ⟨0, _⟩ => show win6_1.index t (0 : Fin 2) * 2048 + 1 * q.val = r.val; omega
  | ⟨1, _⟩ => show win6_1.index t (1 : Fin 2) * 128 + 1 * k.val = k.val; omega

/-- What point `t` writes back is block `t` of the layer's output array. -/
theorem flushed_eq (c : Dev nD) (t : Fin cfg6.N) :
    (dat6 V c).flushed 2 t = ((cfg6.win 2).blk t).view.read (Elt Ideal) (outArr (warr V c) (garr V c)) := by
  show (cfg6.win 2).cut (grid6.coords t) ((dat6 V c).after 2 t) = _
  rw [after6_2]
  unfold out6_2
  rw [View.canon_unit_zero hz]
  simp only [View.ld_unit_zero (S := S2048x128) hz]
  obtain ⟨-, -, -, -, e0, e1, ht⟩ := idx_facts t
  funext j
  obtain ⟨p0, q, rfl⟩ : ∃ (p0 : Fin 1) (q : Fin 2048), j = ix2 p0 q := ⟨j 0, j 1, eq_ix2 j⟩
  obtain rfl : p0 = 0 := Subsingleton.elim _ _
  have hrlt : t.val * 2048 + q.val < 16384 := by have := q.isLt; omega
  show k6_pay1 (F := Ideal) (wblk V c t) (gblk V c t) (ix2 (0 : Fin 1) q)
    = outArr (warr V c) (garr V c) (((cfg6.win 2).blk t).view.emb (ix2 (0 : Fin 1) q))
  rw [pay6_apply]
  unfold rowAct outArr asRow act
  have hcol : ((((cfg6.win 2).blk t).view.emb (ix2 (0 : Fin 1) q)) 1).val = t.val * 2048 + q.val := by
    show win6_2.index t (1 : Fin 2) * 2048 + 1 * q.val = _
    omega
  have hix : (ix1 ⟨((((cfg6.win 2).blk t).view.emb (ix2 (0 : Fin 1) q)) 1).val, idx2_lt1 _⟩ : S16384.Idx)
      = ix1 ⟨t.val * 2048 + q.val, hrlt⟩ := by
    funext a; apply Fin.ext
    match a with
    | ⟨0, _⟩ => exact hcol
  rw [hix]
  refine congrArg (fun s => Ideal.logistic (scale * s)) (Finset.sum_congr rfl fun k _ => ?_)
  rw [wblk_apply V c t q k ⟨t.val * 2048 + q.val, hrlt⟩ rfl, gblk_apply V c t q k ⟨t.val * 2048 + q.val, hrlt⟩ rfl]

/-- An index of the output array is in point `t`'s block iff its column lies in block `t`. -/
theorem mem_blk (t : Fin cfg6.N) (i : S1x16384.Idx) :
    i ∈ ((cfg6.win 2).blk t).view.set ↔ ∀ a : Fin 2, win6_2.index t a * S1x2048.size a ≤ (i a).val ∧ (i a).val < win6_2.index t a * S1x2048.size a + S1x2048.size a := by
  show i ∈ ((View.whole main_v98).slice (win6_2.rect t)).set ↔ _
  rw [View.set_slice_whole, Rect.mem_set_unit]
  exact Iff.rfl

/-- Every block index of the output is some point's. -/
theorem idx_onto : ∀ q1 : Fin 8, ∃ t : Fin cfg6.N, win6_2.index t = ![0, q1.val] :=
  (by decide +kernel : ∀ q1 : Fin 8, ∃ t : Fin grid6.N, win6_2.index t = ![0, q1.val])

/-- THE OUTPUT ARRAY after the launch: the layer function of the two input arrays, node by node. -/
theorem final (c : Dev nD) : (dat6 V c).arrAt 2 cfg6.N = outArr (warr V c) (garr V c) :=
  (dat6 V c).arrAt_eq_of_cover 2 (outArr (warr V c) (garr V c)) (fun t _ => flushed_eq V c t) fun i => by
    have hi0 : (i 0).val < 1 := (i 0).isLt
    have hi1 : (i 1).val < 16384 := (i 1).isLt
    obtain ⟨t, ht⟩ := idx_onto ⟨(i 1).val / 2048, by omega⟩
    have q0 : win6_2.index t (0 : Fin 2) = 0 := congrFun ht 0
    have q1 : win6_2.index t (1 : Fin 2) = (i 1).val / 2048 := congrFun ht 1
    refine ⟨t, flush6_2 t, ?_⟩
    rw [mem_blk]
    intro a
    match a with
    | ⟨0, _⟩ => show win6_2.index t (0 : Fin 2) * 1 ≤ (i 0).val ∧ (i 0).val < win6_2.index t (0 : Fin 2) * 1 + 1; omega
    | ⟨1, _⟩ => show win6_2.index t (1 : Fin 2) * 2048 ≤ (i 1).val ∧ (i 1).val < win6_2.index t (1 : Fin 2) * 2048 + 2048; omega

end Cert.KernelIdeal.Region6

end
-- ==== Proof.Host7.lean ====
/-
  The host operations before launch 7, read as values: from the buffer contents at the boundary before them to the
  contents launch 7 is entered with. The node buffer grows by the previous launch's output, reshaped to a flat run of 16384 activations;
  the layer's index table is taken from the index argument, negative entries moved up by the buffer's length 118785,
  and gathered from the node buffer; the layer's weights are sliced from the weight argument. Neither argument array is
  written.
-/
import proofs.«128059_j1726576856803_1_alg».proof.Proof.Gen.KernelIdeal.Frame
import Idealize.ShloMosaic.Lib.StableHlo.Run

set_option maxRecDepth 16384

noncomputable section

namespace Cert.KernelIdeal.Host7

open Cert.KernelIdeal Cert.KernelIdeal.Gen
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ) (ρ : Dev nD → PrngReg)

/-- The stretch writes neither argument. -/
theorem keep_arg1 (c : Dev nD) : W15 m ρ c (Proc.devRef .tc main_arg1) = W14 m ρ c (Proc.devRef .tc main_arg1) := by
  show StableHlo.after hostOps7 (W14 m ρ c) (Proc.devRef .tc main_arg1) = _
  after_results
theorem keep_arg2 (c : Dev nD) : W15 m ρ c (Proc.devRef .tc main_arg2) = W14 m ρ c (Proc.devRef .tc main_arg2) := by
  show StableHlo.after hostOps7 (W14 m ρ c) (Proc.devRef .tc main_arg2) = _
  after_results

/-- The node buffer at entry: the previous buffer, then the previous launch's output as a flat run. -/
theorem buf_eq (c : Dev nD) : W15 m ρ c (Proc.devRef .tc main_v100)
    = concatenate S118785 0 [⟨S102401, W14 m ρ c (Proc.devRef .tc main_v86)⟩,
        ⟨S16384, shapeCast S16384 (W14 m ρ c (Proc.devRef .tc main_v98)) shapeCasts_S1x16384_S16384⟩] concatenates_S102401_S16384_S118785_d0 := by
  show StableHlo.after hostOps7 (W14 m ρ c) (Proc.devRef .tc main_v100) = _
  after_results
  rfl

/-- The layer's index table: slice 7 of the index argument. -/
abbrev idxTab (c : Dev nD) : IVec S16384x128 32 :=
  shapeCast S16384x128 (extractStridedSlice S1x16384x128 ![7, 0, 0] (W14 m ρ c (Proc.devRef .tc main_arg2)) slices_S8x16384x128_S1x16384x128_7_0_0) shapeCasts_S1x16384x128_S16384x128

/-- The gathered array at entry: the node buffer at the normalised indices. -/
theorem gat_eq (c : Dev nD) : W15 m ρ c (Proc.devRef .tc main_v109)
    = Host.gather gather_S118785_S16384x128x1_S16384x128_n_0_n_n_0_2_1 (W15 m ρ c (Proc.devRef .tc main_v100))
        (broadcastInDim S16384x128x1 ![0, 1] bcast_S16384x128_S16384x128x1_0_1
          (select (cmpi .slt (idxTab m ρ c) (broadcastInDim S16384x128 ![] bcast_S_S16384x128 (constantI S_ 32 0#32)))
            (addi (idxTab m ρ c) (broadcastInDim S16384x128 ![] bcast_S_S16384x128 (constantI S_ 32 118785#32))) (idxTab m ρ c))) := by
  show StableHlo.after hostOps7 (W14 m ρ c) (Proc.devRef .tc main_v109) = Host.gather _ (StableHlo.after hostOps7 (W14 m ρ c) (Proc.devRef .tc main_v100)) _
  after_results_simp
  rfl

/-- The weight array at entry: slice 7 of the weight argument. -/
theorem wgt_eq (c : Dev nD) : W15 m ρ c (Proc.devRef .tc main_v111)
    = shapeCast S16384x128 (extractStridedSlice S1x16384x128 ![7, 0, 0] (W14 m ρ c (Proc.devRef .tc main_arg1)) slices_S8x16384x128_S1x16384x128_7_0_0) shapeCasts_S1x16384x128_S16384x128 := by
  show StableHlo.after hostOps7 (W14 m ρ c) (Proc.devRef .tc main_v111) = _
  after_results
  rfl

/-- Launch 7 writes only its output array: both arguments and the node buffer pass through it. -/
theorem across_arg1 (c : Dev nD) : W16 m ρ c (Proc.devRef .tc main_arg1) = W15 m ρ c (Proc.devRef .tc main_arg1) :=
  W16_of_ne m ρ c main_arg1 (by decide)
theorem across_arg2 (c : Dev nD) : W16 m ρ c (Proc.devRef .tc main_arg2) = W15 m ρ c (Proc.devRef .tc main_arg2) :=
  W16_of_ne m ρ c main_arg2 (by decide)
theorem across_buf (c : Dev nD) : W16 m ρ c (Proc.devRef .tc main_v100) = W15 m ρ c (Proc.devRef .tc main_v100) :=
  W16_of_ne m ρ c main_v100 (by decide)
/-- … and its output array ends at what the pipeline's write-backs leave. -/
theorem across_out (c : Dev nD) : W16 m ρ c (Proc.devRef .tc main_v112) = (dat7 (V15 m ρ) c).arrAt 2 cfg7.N :=
  W16_arr m ρ c 2

end Cert.KernelIdeal.Host7

end
-- ==== Proof.Region7.lean ====
/-
  Launch 7 of the layer kernel, read as a value: whatever the two input arrays hold when the launch is entered, the
  output array [1, 16384] ends holding, at node `r`, the layer function of row `r` of the weight array and row `r` of the
  gathered array. Point `t` of the grid of 8 works on rows 2048·t … 2048·t + 2047 and writes columns 2048·t … of the
  output; the eight blocks tile it.
-/
import proofs.«128059_j1726576856803_1_alg».proof.Proof.Gen.KernelIdeal.Frame
import proofs.«128059_j1726576856803_1_alg».proof.Proof.LayerKer
import proofs.«128059_j1726576856803_1_alg».proof.Proof.LayerOut
import Idealize.ShloMosaic.Lib.Pipeline.Value

set_option maxRecDepth 16384

noncomputable section

open scoped BigOperators

namespace Cert.KernelIdeal.Region7

open Cert.KernelIdeal Cert.KernelIdeal.Gen Cert.LayerSpec Cert.LayerKer Cert.LayerOut
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The weight array and the gathered array as the launch finds them, and their blocks at a point. -/
abbrev warr (c : Dev nD) : S16384x128.Idx → EReal := V c main_v111
abbrev garr (c : Dev nD) : S16384x128.Idx → EReal := V c main_v109
abbrev wblk (c : Dev nD) (t : Fin cfg7.N) : Vec Ideal S2048x128 .f32 := iblk7 V c 0 t
abbrev gblk (c : Dev nD) (t : Fin cfg7.N) : Vec Ideal S2048x128 .f32 := iblk7 V c 1 t

theorem hz : (![0, 0] : Fin 2 → Nat) = fun _ => 0 := funext fun a => by fin_cases a <;> rfl

/-- The printed index maps over the grid: point `t` takes row block `t` of both inputs and column block `t` of the output. -/
theorem idx_facts : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = t.val ∧ t.val < 8 :=
  (by decide +kernel : ∀ t : Fin grid7.N, _)

/-- Row `q` of the weight block at point `t` is row 2048·t + q of the weight array. -/
theorem wblk_apply (c : Dev nD) (t : Fin cfg7.N) (q : Fin 2048) (k : Fin 128) (r : Fin 16384) (hr : r.val = t.val * 2048 + q.val) :
    wblk V c t (ix2 q k) = warr V c (ix2 r k) := by
  obtain ⟨e0, e1, -, -, -, -, -⟩ := idx_facts t
  show V c main_v111 (((cfg7.win 0).blk t).view.emb (ix2 q k)) = V c main_v111 (ix2 r k)
  congr 1
  funext a; apply Fin.ext
  match a with
  | ⟨0, _⟩ => show win7_0.index t (0 : Fin 2) * 2048 + 1 * q.val = r.val; omega
  | ⟨1, _⟩ => show win7_0.index t (1 : Fin 2) * 128 + 1 * k.val = k.val; omega

/-- Row `q` of the gathered block at point `t` is row 2048·t + q of the gathered array. -/
theorem gblk_apply (c : Dev nD) (t : Fin cfg7.N) (q : Fin 2048) (k : Fin 128) (r : Fin 16384) (hr : r.val = t.val * 2048 + q.val) :
    gblk V c t (ix2 q k) = garr V c (ix2 r k) := by
  obtain ⟨-, -, e0, e1, -, -, -⟩ := idx_facts t
  show V c main_v109 (((cfg7.win 1).blk t).view.emb (ix2 q k)) = V c main_v109 (ix2 r k)
  congr 1
  funext a; apply Fin.ext
  match a with
  | ⟨0, _⟩ => show win7_1.index t (0 : Fin 2) * 2048 + 1 * q.val = r.val; omega
  | ⟨1, _⟩ => show win7_1.index t (1 : Fin 2) * 128 + 1 * k.val = k.val; omega

/-- What point `t` writes back is block `t` of the layer's output array. -/
theorem flushed_eq (c : Dev nD) (t : Fin cfg7.N) :
    (dat7 V c).flushed 2 t = ((cfg7.win 2).blk t).view.read (Elt Ideal) (outArr (warr V c) (garr V c)) := by
  show (cfg7.win 2).cut (grid7.coords t) ((dat7 V c).after 2 t) = _
  rw [after7_2]
  unfold out7_2
  rw [View.canon_unit_zero hz]
  simp only [View.ld_unit_zero (S := S2048x128) hz]
  obtain ⟨-, -, -, -, e0, e1, ht⟩ := idx_facts t
  funext j
  obtain ⟨p0, q, rfl⟩ : ∃ (p0 : Fin 1) (q : Fin 2048), j = ix2 p0 q := ⟨j 0, j 1, eq_ix2 j⟩
  obtain rfl : p0 = 0 := Subsingleton.elim _ _
  have hrlt : t.val * 2048 + q.val < 16384 := by have := q.isLt; omega
  show k7_pay1 (F := Ideal) (wblk V c t) (gblk V c t) (ix2 (0 : Fin 1) q)
    = outArr (warr V c) (garr V c) (((cfg7.win 2).blk t).view.emb (ix2 (0 : Fin 1) q))
  rw [pay7_apply]
  unfold rowAct outArr asRow act
  have hcol : ((((cfg7.win 2).blk t).view.emb (ix2 (0 : Fin 1) q)) 1).val = t.val * 2048 + q.val := by
    show win7_2.index t (1 : Fin 2) * 2048 + 1 * q.val = _
    omega
  have hix : (ix1 ⟨((((cfg7.win 2).blk t).view.emb (ix2 (0 : Fin 1) q)) 1).val, idx2_lt1 _⟩ : S16384.Idx)
      = ix1 ⟨t.val * 2048 + q.val, hrlt⟩ := by
    funext a; apply Fin.ext
    match a with
    | ⟨0, _⟩ => exact hcol
  rw [hix]
  refine congrArg (fun s => Ideal.logistic (scale * s)) (Finset.sum_congr rfl fun k _ => ?_)
  rw [wblk_apply V c t q k ⟨t.val * 2048 + q.val, hrlt⟩ rfl, gblk_apply V c t q k ⟨t.val * 2048 + q.val, hrlt⟩ rfl]

/-- An index of the output array is in point `t`'s block iff its column lies in block `t`. -/
theorem mem_blk (t : Fin cfg7.N) (i : S1x16384.Idx) :
    i ∈ ((cfg7.win 2).blk t).view.set ↔ ∀ a : Fin 2, win7_2.index t a * S1x2048.size a ≤ (i a).val ∧ (i a).val < win7_2.index t a * S1x2048.size a + S1x2048.size a := by
  show i ∈ ((View.whole main_v112).slice (win7_2.rect t)).set ↔ _
  rw [View.set_slice_whole, Rect.mem_set_unit]
  exact Iff.rfl

/-- Every block index of the output is some point's. -/
theorem idx_onto : ∀ q1 : Fin 8, ∃ t : Fin cfg7.N, win7_2.index t = ![0, q1.val] :=
  (by decide +kernel : ∀ q1 : Fin 8, ∃ t : Fin grid7.N, win7_2.index t = ![0, q1.val])

/-- THE OUTPUT ARRAY after the launch: the layer function of the two input arrays, node by node. -/
theorem final (c : Dev nD) : (dat7 V c).arrAt 2 cfg7.N = outArr (warr V c) (garr V c) :=
  (dat7 V c).arrAt_eq_of_cover 2 (outArr (warr V c) (garr V c)) (fun t _ => flushed_eq V c t) fun i => by
    have hi0 : (i 0).val < 1 := (i 0).isLt
    have hi1 : (i 1).val < 16384 := (i 1).isLt
    obtain ⟨t, ht⟩ := idx_onto ⟨(i 1).val / 2048, by omega⟩
    have q0 : win7_2.index t (0 : Fin 2) = 0 := congrFun ht 0
    have q1 : win7_2.index t (1 : Fin 2) = (i 1).val / 2048 := congrFun ht 1
    refine ⟨t, flush7_2 t, ?_⟩
    rw [mem_blk]
    intro a
    match a with
    | ⟨0, _⟩ => show win7_2.index t (0 : Fin 2) * 1 ≤ (i 0).val ∧ (i 0).val < win7_2.index t (0 : Fin 2) * 1 + 1; omega
    | ⟨1, _⟩ => show win7_2.index t (1 : Fin 2) * 2048 ≤ (i 1).val ∧ (i 1).val < win7_2.index t (1 : Fin 2) * 2048 + 2048; omega

end Cert.KernelIdeal.Region7

end
-- ==== Proof.Bridge.lean ====
/-
  The two programs compute the same activations. By induction over the eight layers: before layer `l` the kernel's
  node buffer (4097 + 16384·l entries) is the first 4097 + 16384·l entries of the reference's node buffer (135169
  entries, the not yet computed tail still zero). Under the precondition every source index of layer `l` is a
  position inside that prefix, so neither the normalisation of negative indices nor the gather's clamp changes it and
  both programs gather the same activations; the layer function of the same weights and the same activations is the
  same run of 16384 values, which the kernel appends to its buffer and the reference writes into its buffer at position
  4097 + 16384·l. After layer 7 the kernel returns that layer's activations and the reference the last 16384 entries of
  its buffer: the same row.
-/
import proofs.«128059_j1726576856803_1_alg».proof.Proof.KernelRun
import proofs.«128059_j1726576856803_1_alg».proof.Proof.RefChain
import proofs.«128059_j1726576856803_1_alg».proof.Proof.BridgeStep
import proofs.«128059_j1726576856803_1_alg».proof.Proof.LayerSlice
import proofs.«128059_j1726576856803_1_alg».proof.Proof.LibTake
import proofs.«128059_j1726576856803_1_alg».proof.Proof.Host0
import proofs.«128059_j1726576856803_1_alg».proof.Proof.Region0
import proofs.«128059_j1726576856803_1_alg».proof.Proof.Host1
import proofs.«128059_j1726576856803_1_alg».proof.Proof.Region1
import proofs.«128059_j1726576856803_1_alg».proof.Proof.Host2
import proofs.«128059_j1726576856803_1_alg».proof.Proof.Region2
import proofs.«128059_j1726576856803_1_alg».proof.Proof.Host3
import proofs.«128059_j1726576856803_1_alg».proof.Proof.Region3
import proofs.«128059_j1726576856803_1_alg».proof.Proof.Host4
import proofs.«128059_j1726576856803_1_alg».proof.Proof.Region4
import proofs.«128059_j1726576856803_1_alg».proof.Proof.Host5
import proofs.«128059_j1726576856803_1_alg».proof.Proof.Region5
import proofs.«128059_j1726576856803_1_alg».proof.Proof.Host6
import proofs.«128059_j1726576856803_1_alg».proof.Proof.Region6
import proofs.«128059_j1726576856803_1_alg».proof.Proof.Host7
import proofs.«128059_j1726576856803_1_alg».proof.Proof.Region7

set_option maxRecDepth 16384

noncomputable section

namespace Cert.Bridge

open Idealize.ShloMosaic Idealize.ShloMosaic.TcCoe Idealize.ShloMosaic.ValueIdx Idealize.ShloMosaic.StableHlo
open Idealize.SL Idealize.SL.Sem
open Cert.LibFlat Cert.LibTake Cert.LayerSpec Cert.LayerOut Cert.LayerSlice

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)
variable (V0 : Valuation Cert.ReferenceIdeal.τ Cert.ReferenceIdeal.sig (Elt Ideal))

/-- The reference runs on the kernel's argument arrays. -/
structure Agree : Prop where
  a0 : V0 (Proc.devRef .tc Cert.ReferenceIdeal.main_arg0) = m ((c.tc : Thread Cert.KernelIdeal.nD Cert.KernelIdeal.τ).loc Cert.KernelIdeal.main_arg0)
  a1 : V0 (Proc.devRef .tc Cert.ReferenceIdeal.main_arg1) = m ((c.tc : Thread Cert.KernelIdeal.nD Cert.KernelIdeal.τ).loc Cert.KernelIdeal.main_arg1)
  a2 : V0 (Proc.devRef .tc Cert.ReferenceIdeal.main_arg2) = m ((c.tc : Thread Cert.KernelIdeal.nD Cert.KernelIdeal.τ).loc Cert.KernelIdeal.main_arg2)

/-- Every source index of layer `l` names a node before layer `l`. -/
def SrcInRange : Prop :=
  ∀ (l : Nat) (hl : l < 8) (r : Fin 16384) (k : Fin 128),
    0 ≤ ((m ((c.tc : Thread Cert.KernelIdeal.nD Cert.KernelIdeal.τ).loc Cert.KernelIdeal.main_arg2) : Cert.KernelIdeal.S8x16384x128.Idx → BitVec 32) (ix3 ⟨l, hl⟩ r k)).toInt
    ∧ ((m ((c.tc : Thread Cert.KernelIdeal.nD Cert.KernelIdeal.τ).loc Cert.KernelIdeal.main_arg2) : Cert.KernelIdeal.S8x16384x128.Idx → BitVec 32) (ix3 ⟨l, hl⟩ r k)).toInt < (4097 + 16384 * l : Int)

/-! ## The kernel's argument arrays at every boundary: as launched -/

theorem karg0_0 : Cert.KernelIdeal.Gen.W0 m ρ c (Proc.devRef .tc Cert.KernelIdeal.main_arg0) = m ((c.tc : Thread Cert.KernelIdeal.nD Cert.KernelIdeal.τ).loc Cert.KernelIdeal.main_arg0) := rfl
theorem karg1_0 : Cert.KernelIdeal.Gen.W0 m ρ c (Proc.devRef .tc Cert.KernelIdeal.main_arg1) = m ((c.tc : Thread Cert.KernelIdeal.nD Cert.KernelIdeal.τ).loc Cert.KernelIdeal.main_arg1) := rfl
theorem karg2_0 : Cert.KernelIdeal.Gen.W0 m ρ c (Proc.devRef .tc Cert.KernelIdeal.main_arg2) = m ((c.tc : Thread Cert.KernelIdeal.nD Cert.KernelIdeal.τ).loc Cert.KernelIdeal.main_arg2) := rfl
theorem karg1_1 : Cert.KernelIdeal.Gen.W2 m ρ c (Proc.devRef .tc Cert.KernelIdeal.main_arg1) = m ((c.tc : Thread Cert.KernelIdeal.nD Cert.KernelIdeal.τ).loc Cert.KernelIdeal.main_arg1) :=
  (Cert.KernelIdeal.Host0.across_arg1 m ρ c).trans ((Cert.KernelIdeal.Host0.keep_arg1 m ρ c).trans (karg1_0 m ρ c))
theorem karg2_1 : Cert.KernelIdeal.Gen.W2 m ρ c (Proc.devRef .tc Cert.KernelIdeal.main_arg2) = m ((c.tc : Thread Cert.KernelIdeal.nD Cert.KernelIdeal.τ).loc Cert.KernelIdeal.main_arg2) :=
  (Cert.KernelIdeal.Host0.across_arg2 m ρ c).trans ((Cert.KernelIdeal.Host0.keep_arg2 m ρ c).trans (karg2_0 m ρ c))
theorem karg1_2 : Cert.KernelIdeal.Gen.W4 m ρ c (Proc.devRef .tc Cert.KernelIdeal.main_arg1) = m ((c.tc : Thread Cert.KernelIdeal.nD Cert.KernelIdeal.τ).loc Cert.KernelIdeal.main_arg1) :=
  (Cert.KernelIdeal.Host1.across_arg1 m ρ c).trans ((Cert.KernelIdeal.Host1.keep_arg1 m ρ c).trans (karg1_1 m ρ c))
theorem karg2_2 : Cert.KernelIdeal.Gen.W4 m ρ c (Proc.devRef .tc Cert.KernelIdeal.main_arg2) = m ((c.tc : Thread Cert.KernelIdeal.nD Cert.KernelIdeal.τ).loc Cert.KernelIdeal.main_arg2) :=
  (Cert.KernelIdeal.Host1.across_arg2 m ρ c).trans ((Cert.KernelIdeal.Host1.keep_arg2 m ρ c).trans (karg2_1 m ρ c))
theorem karg1_3 : Cert.KernelIdeal.Gen.W6 m ρ c (Proc.devRef .tc Cert.KernelIdeal.main_arg1) = m ((c.tc : Thread Cert.KernelIdeal.nD Cert.KernelIdeal.τ).loc Cert.KernelIdeal.main_arg1) :=
  (Cert.KernelIdeal.Host2.across_arg1 m ρ c).trans ((Cert.KernelIdeal.Host2.keep_arg1 m ρ c).trans (karg1_2 m ρ c))
theorem karg2_3 : Cert.KernelIdeal.Gen.W6 m ρ c (Proc.devRef .tc Cert.KernelIdeal.main_arg2) = m ((c.tc : Thread Cert.KernelIdeal.nD Cert.KernelIdeal.τ).loc Cert.KernelIdeal.main_arg2) :=
  (Cert.KernelIdeal.Host2.across_arg2 m ρ c).trans ((Cert.KernelIdeal.Host2.keep_arg2 m ρ c).trans (karg2_2 m ρ c))
theorem karg1_4 : Cert.KernelIdeal.Gen.W8 m ρ c (Proc.devRef .tc Cert.KernelIdeal.main_arg1) = m ((c.tc : Thread Cert.KernelIdeal.nD Cert.KernelIdeal.τ).loc Cert.KernelIdeal.main_arg1) :=
  (Cert.KernelIdeal.Host3.across_arg1 m ρ c).trans ((Cert.KernelIdeal.Host3.keep_arg1 m ρ c).trans (karg1_3 m ρ c))
theorem karg2_4 : Cert.KernelIdeal.Gen.W8 m ρ c (Proc.devRef .tc Cert.KernelIdeal.main_arg2) = m ((c.tc : Thread Cert.KernelIdeal.nD Cert.KernelIdeal.τ).loc Cert.KernelIdeal.main_arg2) :=
  (Cert.KernelIdeal.Host3.across_arg2 m ρ c).trans ((Cert.KernelIdeal.Host3.keep_arg2 m ρ c).trans (karg2_3 m ρ c))
theorem karg1_5 : Cert.KernelIdeal.Gen.W10 m ρ c (Proc.devRef .tc Cert.KernelIdeal.main_arg1) = m ((c.tc : Thread Cert.KernelIdeal.nD Cert.KernelIdeal.τ).loc Cert.KernelIdeal.main_arg1) :=
  (Cert.KernelIdeal.Host4.across_arg1 m ρ c).trans ((Cert.KernelIdeal.Host4.keep_arg1 m ρ c).trans (karg1_4 m ρ c))
theorem karg2_5 : Cert.KernelIdeal.Gen.W10 m ρ c (Proc.devRef .tc Cert.KernelIdeal.main_arg2) = m ((c.tc : Thread Cert.KernelIdeal.nD Cert.KernelIdeal.τ).loc Cert.KernelIdeal.main_arg2) :=
  (Cert.KernelIdeal.Host4.across_arg2 m ρ c).trans ((Cert.KernelIdeal.Host4.keep_arg2 m ρ c).trans (karg2_4 m ρ c))
theorem karg1_6 : Cert.KernelIdeal.Gen.W12 m ρ c (Proc.devRef .tc Cert.KernelIdeal.main_arg1) = m ((c.tc : Thread Cert.KernelIdeal.nD Cert.KernelIdeal.τ).loc Cert.KernelIdeal.main_arg1) :=
  (Cert.KernelIdeal.Host5.across_arg1 m ρ c).trans ((Cert.KernelIdeal.Host5.keep_arg1 m ρ c).trans (karg1_5 m ρ c))
theorem karg2_6 : Cert.KernelIdeal.Gen.W12 m ρ c (Proc.devRef .tc Cert.KernelIdeal.main_arg2) = m ((c.tc : Thread Cert.KernelIdeal.nD Cert.KernelIdeal.τ).loc Cert.KernelIdeal.main_arg2) :=
  (Cert.KernelIdeal.Host5.across_arg2 m ρ c).trans ((Cert.KernelIdeal.Host5.keep_arg2 m ρ c).trans (karg2_5 m ρ c))
theorem karg1_7 : Cert.KernelIdeal.Gen.W14 m ρ c (Proc.devRef .tc Cert.KernelIdeal.main_arg1) = m ((c.tc : Thread Cert.KernelIdeal.nD Cert.KernelIdeal.τ).loc Cert.KernelIdeal.main_arg1) :=
  (Cert.KernelIdeal.Host6.across_arg1 m ρ c).trans ((Cert.KernelIdeal.Host6.keep_arg1 m ρ c).trans (karg1_6 m ρ c))
theorem karg2_7 : Cert.KernelIdeal.Gen.W14 m ρ c (Proc.devRef .tc Cert.KernelIdeal.main_arg2) = m ((c.tc : Thread Cert.KernelIdeal.nD Cert.KernelIdeal.τ).loc Cert.KernelIdeal.main_arg2) :=
  (Cert.KernelIdeal.Host6.across_arg2 m ρ c).trans ((Cert.KernelIdeal.Host6.keep_arg2 m ρ c).trans (karg2_6 m ρ c))
theorem karg1_8 : Cert.KernelIdeal.Gen.W16 m ρ c (Proc.devRef .tc Cert.KernelIdeal.main_arg1) = m ((c.tc : Thread Cert.KernelIdeal.nD Cert.KernelIdeal.τ).loc Cert.KernelIdeal.main_arg1) :=
  (Cert.KernelIdeal.Host7.across_arg1 m ρ c).trans ((Cert.KernelIdeal.Host7.keep_arg1 m ρ c).trans (karg1_7 m ρ c))
theorem karg2_8 : Cert.KernelIdeal.Gen.W16 m ρ c (Proc.devRef .tc Cert.KernelIdeal.main_arg2) = m ((c.tc : Thread Cert.KernelIdeal.nD Cert.KernelIdeal.τ).loc Cert.KernelIdeal.main_arg2) :=
  (Cert.KernelIdeal.Host7.across_arg2 m ρ c).trans ((Cert.KernelIdeal.Host7.keep_arg2 m ρ c).trans (karg2_7 m ρ c))

variable {m ρ c V0}

/-! ## The layers -/

/-- Before layer 0: the bias node and the inputs. -/
theorem inv0 (ha : Agree m c V0) : Cert.KernelIdeal.Gen.W1 m ρ c (Proc.devRef .tc Cert.KernelIdeal.main_v2)
    = firstN 4097 (by decide) (Cert.ReferenceIdeal.Value.res_main_v5 V0) := by
  rw [Cert.KernelIdeal.Host0.buf_eq, karg0_0, ← ha.a0, Cert.ReferenceIdeal.Chain.b0_eq]
  exact concat_bias_inputs Cert.ReferenceIdeal.Chain.zero Cert.ReferenceIdeal.Chain.one _ _

/-- Layer 0's index table is inside the prefix of 4097 nodes. -/
theorem idx0_inRange (ha : Agree m c V0) (hs : SrcInRange m c) (y : Cert.ReferenceIdeal.S16384x128.Idx) :
    0 ≤ ((Cert.ReferenceIdeal.Value.res_main_v7 V0 : Cert.ReferenceIdeal.S16384x128.Idx → BitVec 32) y).toInt ∧ ((Cert.ReferenceIdeal.Value.res_main_v7 V0 : Cert.ReferenceIdeal.S16384x128.Idx → BitVec 32) y).toInt < (4097 : Int) := by
  obtain ⟨r, k, rfl⟩ : ∃ (r : Fin 16384) (k : Fin 128), y = ix2 r k := ⟨y 0, y 1, eq_ix2 y⟩
  have e : (Cert.ReferenceIdeal.Value.res_main_v7 V0 : Cert.ReferenceIdeal.S16384x128.Idx → BitVec 32) (ix2 r k)
      = (m ((c.tc : Thread Cert.KernelIdeal.nD Cert.KernelIdeal.τ).loc Cert.KernelIdeal.main_arg2) : Cert.KernelIdeal.S8x16384x128.Idx → BitVec 32) (ix3 ⟨0, by decide⟩ r k) := by
    rw [← ha.a2]
    exact layer_slice_apply _ 0 (by decide) _ _ r k
  rw [e]
  exact hs 0 (by decide) r k

/-- Both programs gather the same source activations for layer 0. -/
theorem gat0_eq (ha : Agree m c V0) (hs : SrcInRange m c)
    (hinv : Cert.KernelIdeal.Gen.W1 m ρ c (Proc.devRef .tc Cert.KernelIdeal.main_v2) = firstN 4097 (by decide) (Cert.ReferenceIdeal.Value.res_main_v5 V0)) :
    Cert.KernelIdeal.Gen.W1 m ρ c (Proc.devRef .tc Cert.KernelIdeal.main_v11) = Cert.ReferenceIdeal.Chain.gat (Cert.ReferenceIdeal.Value.res_main_v5 V0) (Cert.ReferenceIdeal.Value.res_main_v7 V0) := by
  rw [Cert.KernelIdeal.Host0.gat_eq, hinv]
  have hI : Cert.KernelIdeal.Host0.idxTab m ρ c = Cert.ReferenceIdeal.Value.res_main_v7 V0 := by
    unfold Cert.KernelIdeal.Host0.idxTab Cert.ReferenceIdeal.Value.res_main_v7
    rw [karg2_0, ← ha.a2]
    rfl
  rw [hI]
  exact take_firstN_eq_take (by decide) (by decide) Cert.KernelIdeal.Facts₀.gather_S4097_S16384x128x1_S16384x128_n_0_n_n_0_2_1_wf
    Cert.ReferenceIdeal.Facts₀.gather_S135169_S16384x128x1_S16384x128_n_0_n_n_0_2_1_wf _ _ _ _ _ _ (idx0_inRange ha hs)

/-- Launch 0 leaves layer 0's activations, of the reference's weights and gathered activations. -/
theorem out0_eq (ha : Agree m c V0) (hs : SrcInRange m c)
    (hinv : Cert.KernelIdeal.Gen.W1 m ρ c (Proc.devRef .tc Cert.KernelIdeal.main_v2) = firstN 4097 (by decide) (Cert.ReferenceIdeal.Value.res_main_v5 V0)) :
    Cert.KernelIdeal.Gen.W2 m ρ c (Proc.devRef .tc Cert.KernelIdeal.main_v14)
      = outArr (Cert.ReferenceIdeal.Chain.wl0 V0) (Cert.ReferenceIdeal.Chain.gat (Cert.ReferenceIdeal.Value.res_main_v5 V0) (Cert.ReferenceIdeal.Value.res_main_v7 V0)) := by
  rw [Cert.KernelIdeal.Host0.across_out, Cert.KernelIdeal.Region0.final]
  show outArr (Cert.KernelIdeal.Gen.W1 m ρ c (Proc.devRef .tc Cert.KernelIdeal.main_v13)) (Cert.KernelIdeal.Gen.W1 m ρ c (Proc.devRef .tc Cert.KernelIdeal.main_v11)) = _
  rw [gat0_eq ha hs hinv, Cert.KernelIdeal.Host0.wgt_eq, karg1_0, ← ha.a1]

/-- Before layer 1: the kernel's buffer is the first 20481 entries of the reference's. -/
theorem inv1 (ha : Agree m c V0) (hs : SrcInRange m c) : Cert.KernelIdeal.Gen.W3 m ρ c (Proc.devRef .tc Cert.KernelIdeal.main_v16)
    = firstN 20481 (by decide) (Cert.ReferenceIdeal.Value.res_main_v28 V0) := by
  have hinv := inv0 (ρ := ρ) ha
  refine Cert.BridgeStep.step (N := 4097) (K := 20481) (by decide) (by decide) (by decide) (Cert.ReferenceIdeal.Value.res_main_v5 V0) _ _ _
    (Cert.ReferenceIdeal.Chain.wl0 V0) _ _ Cert.KernelIdeal.Facts₀.shapeCasts_S1x16384_S16384 Cert.KernelIdeal.Facts₀.concatenates_S4097_S16384_S20481_d0
    hinv (out0_eq ha hs hinv) ?_ (Cert.ReferenceIdeal.Chain.b1_eq V0)
  rw [Cert.KernelIdeal.Host1.buf_eq, Cert.KernelIdeal.Host0.across_buf]

/-- Layer 1's index table is inside the prefix of 20481 nodes. -/
theorem idx1_inRange (ha : Agree m c V0) (hs : SrcInRange m c) (y : Cert.ReferenceIdeal.S16384x128.Idx) :
    0 ≤ ((Cert.ReferenceIdeal.Value.res_main_v30 V0 : Cert.ReferenceIdeal.S16384x128.Idx → BitVec 32) y).toInt ∧ ((Cert.ReferenceIdeal.Value.res_main_v30 V0 : Cert.ReferenceIdeal.S16384x128.Idx → BitVec 32) y).toInt < (20481 : Int) := by
  obtain ⟨r, k, rfl⟩ : ∃ (r : Fin 16384) (k : Fin 128), y = ix2 r k := ⟨y 0, y 1, eq_ix2 y⟩
  have e : (Cert.ReferenceIdeal.Value.res_main_v30 V0 : Cert.ReferenceIdeal.S16384x128.Idx → BitVec 32) (ix2 r k)
      = (m ((c.tc : Thread Cert.KernelIdeal.nD Cert.KernelIdeal.τ).loc Cert.KernelIdeal.main_arg2) : Cert.KernelIdeal.S8x16384x128.Idx → BitVec 32) (ix3 ⟨1, by decide⟩ r k) := by
    rw [← ha.a2]
    exact layer_slice_apply _ 1 (by decide) _ _ r k
  rw [e]
  exact hs 1 (by decide) r k

/-- Both programs gather the same source activations for layer 1. -/
theorem gat1_eq (ha : Agree m c V0) (hs : SrcInRange m c)
    (hinv : Cert.KernelIdeal.Gen.W3 m ρ c (Proc.devRef .tc Cert.KernelIdeal.main_v16) = firstN 20481 (by decide) (Cert.ReferenceIdeal.Value.res_main_v28 V0)) :
    Cert.KernelIdeal.Gen.W3 m ρ c (Proc.devRef .tc Cert.KernelIdeal.main_v25) = Cert.ReferenceIdeal.Chain.gat (Cert.ReferenceIdeal.Value.res_main_v28 V0) (Cert.ReferenceIdeal.Value.res_main_v30 V0) := by
  rw [Cert.KernelIdeal.Host1.gat_eq, hinv]
  have hI : Cert.KernelIdeal.Host1.idxTab m ρ c = Cert.ReferenceIdeal.Value.res_main_v30 V0 := by
    unfold Cert.KernelIdeal.Host1.idxTab Cert.ReferenceIdeal.Value.res_main_v30
    rw [karg2_1, ← ha.a2]
    rfl
  rw [hI]
  exact take_firstN_eq_take (by decide) (by decide) Cert.KernelIdeal.Facts₀.gather_S20481_S16384x128x1_S16384x128_n_0_n_n_0_2_1_wf
    Cert.ReferenceIdeal.Facts₀.gather_S135169_S16384x128x1_S16384x128_n_0_n_n_0_2_1_wf _ _ _ _ _ _ (idx1_inRange ha hs)

/-- Launch 1 leaves layer 1's activations, of the reference's weights and gathered activations. -/
theorem out1_eq (ha : Agree m c V0) (hs : SrcInRange m c)
    (hinv : Cert.KernelIdeal.Gen.W3 m ρ c (Proc.devRef .tc Cert.KernelIdeal.main_v16) = firstN 20481 (by decide) (Cert.ReferenceIdeal.Value.res_main_v28 V0)) :
    Cert.KernelIdeal.Gen.W4 m ρ c (Proc.devRef .tc Cert.KernelIdeal.main_v28)
      = outArr (Cert.ReferenceIdeal.Chain.wl1 V0) (Cert.ReferenceIdeal.Chain.gat (Cert.ReferenceIdeal.Value.res_main_v28 V0) (Cert.ReferenceIdeal.Value.res_main_v30 V0)) := by
  rw [Cert.KernelIdeal.Host1.across_out, Cert.KernelIdeal.Region1.final]
  show outArr (Cert.KernelIdeal.Gen.W3 m ρ c (Proc.devRef .tc Cert.KernelIdeal.main_v27)) (Cert.KernelIdeal.Gen.W3 m ρ c (Proc.devRef .tc Cert.KernelIdeal.main_v25)) = _
  rw [gat1_eq ha hs hinv, Cert.KernelIdeal.Host1.wgt_eq, karg1_1, ← ha.a1]

/-- Before layer 2: the kernel's buffer is the first 36865 entries of the reference's. -/
theorem inv2 (ha : Agree m c V0) (hs : SrcInRange m c) : Cert.KernelIdeal.Gen.W5 m ρ c (Proc.devRef .tc Cert.KernelIdeal.main_v30)
    = firstN 36865 (by decide) (Cert.ReferenceIdeal.Value.res_main_v51 V0) := by
  have hinv := inv1 (ρ := ρ) ha hs
  refine Cert.BridgeStep.step (N := 20481) (K := 36865) (by decide) (by decide) (by decide) (Cert.ReferenceIdeal.Value.res_main_v28 V0) _ _ _
    (Cert.ReferenceIdeal.Chain.wl1 V0) _ _ Cert.KernelIdeal.Facts₀.shapeCasts_S1x16384_S16384 Cert.KernelIdeal.Facts₀.concatenates_S20481_S16384_S36865_d0
    hinv (out1_eq ha hs hinv) ?_ (Cert.ReferenceIdeal.Chain.b2_eq V0)
  rw [Cert.KernelIdeal.Host2.buf_eq, Cert.KernelIdeal.Host1.across_buf]

/-- Layer 2's index table is inside the prefix of 36865 nodes. -/
theorem idx2_inRange (ha : Agree m c V0) (hs : SrcInRange m c) (y : Cert.ReferenceIdeal.S16384x128.Idx) :
    0 ≤ ((Cert.ReferenceIdeal.Value.res_main_v53 V0 : Cert.ReferenceIdeal.S16384x128.Idx → BitVec 32) y).toInt ∧ ((Cert.ReferenceIdeal.Value.res_main_v53 V0 : Cert.ReferenceIdeal.S16384x128.Idx → BitVec 32) y).toInt < (36865 : Int) := by
  obtain ⟨r, k, rfl⟩ : ∃ (r : Fin 16384) (k : Fin 128), y = ix2 r k := ⟨y 0, y 1, eq_ix2 y⟩
  have e : (Cert.ReferenceIdeal.Value.res_main_v53 V0 : Cert.ReferenceIdeal.S16384x128.Idx → BitVec 32) (ix2 r k)
      = (m ((c.tc : Thread Cert.KernelIdeal.nD Cert.KernelIdeal.τ).loc Cert.KernelIdeal.main_arg2) : Cert.KernelIdeal.S8x16384x128.Idx → BitVec 32) (ix3 ⟨2, by decide⟩ r k) := by
    rw [← ha.a2]
    exact layer_slice_apply _ 2 (by decide) _ _ r k
  rw [e]
  exact hs 2 (by decide) r k

/-- Both programs gather the same source activations for layer 2. -/
theorem gat2_eq (ha : Agree m c V0) (hs : SrcInRange m c)
    (hinv : Cert.KernelIdeal.Gen.W5 m ρ c (Proc.devRef .tc Cert.KernelIdeal.main_v30) = firstN 36865 (by decide) (Cert.ReferenceIdeal.Value.res_main_v51 V0)) :
    Cert.KernelIdeal.Gen.W5 m ρ c (Proc.devRef .tc Cert.KernelIdeal.main_v39) = Cert.ReferenceIdeal.Chain.gat (Cert.ReferenceIdeal.Value.res_main_v51 V0) (Cert.ReferenceIdeal.Value.res_main_v53 V0) := by
  rw [Cert.KernelIdeal.Host2.gat_eq, hinv]
  have hI : Cert.KernelIdeal.Host2.idxTab m ρ c = Cert.ReferenceIdeal.Value.res_main_v53 V0 := by
    unfold Cert.KernelIdeal.Host2.idxTab Cert.ReferenceIdeal.Value.res_main_v53
    rw [karg2_2, ← ha.a2]
    rfl
  rw [hI]
  exact take_firstN_eq_take (by decide) (by decide) Cert.KernelIdeal.Facts₀.gather_S36865_S16384x128x1_S16384x128_n_0_n_n_0_2_1_wf
    Cert.ReferenceIdeal.Facts₀.gather_S135169_S16384x128x1_S16384x128_n_0_n_n_0_2_1_wf _ _ _ _ _ _ (idx2_inRange ha hs)

/-- Launch 2 leaves layer 2's activations, of the reference's weights and gathered activations. -/
theorem out2_eq (ha : Agree m c V0) (hs : SrcInRange m c)
    (hinv : Cert.KernelIdeal.Gen.W5 m ρ c (Proc.devRef .tc Cert.KernelIdeal.main_v30) = firstN 36865 (by decide) (Cert.ReferenceIdeal.Value.res_main_v51 V0)) :
    Cert.KernelIdeal.Gen.W6 m ρ c (Proc.devRef .tc Cert.KernelIdeal.main_v42)
      = outArr (Cert.ReferenceIdeal.Chain.wl2 V0) (Cert.ReferenceIdeal.Chain.gat (Cert.ReferenceIdeal.Value.res_main_v51 V0) (Cert.ReferenceIdeal.Value.res_main_v53 V0)) := by
  rw [Cert.KernelIdeal.Host2.across_out, Cert.KernelIdeal.Region2.final]
  show outArr (Cert.KernelIdeal.Gen.W5 m ρ c (Proc.devRef .tc Cert.KernelIdeal.main_v41)) (Cert.KernelIdeal.Gen.W5 m ρ c (Proc.devRef .tc Cert.KernelIdeal.main_v39)) = _
  rw [gat2_eq ha hs hinv, Cert.KernelIdeal.Host2.wgt_eq, karg1_2, ← ha.a1]

/-- Before layer 3: the kernel's buffer is the first 53249 entries of the reference's. -/
theorem inv3 (ha : Agree m c V0) (hs : SrcInRange m c) : Cert.KernelIdeal.Gen.W7 m ρ c (Proc.devRef .tc Cert.KernelIdeal.main_v44)
    = firstN 53249 (by decide) (Cert.ReferenceIdeal.Value.res_main_v74 V0) := by
  have hinv := inv2 (ρ := ρ) ha hs
  refine Cert.BridgeStep.step (N := 36865) (K := 53249) (by decide) (by decide) (by decide) (Cert.ReferenceIdeal.Value.res_main_v51 V0) _ _ _
    (Cert.ReferenceIdeal.Chain.wl2 V0) _ _ Cert.KernelIdeal.Facts₀.shapeCasts_S1x16384_S16384 Cert.KernelIdeal.Facts₀.concatenates_S36865_S16384_S53249_d0
    hinv (out2_eq ha hs hinv) ?_ (Cert.ReferenceIdeal.Chain.b3_eq V0)
  rw [Cert.KernelIdeal.Host3.buf_eq, Cert.KernelIdeal.Host2.across_buf]

/-- Layer 3's index table is inside the prefix of 53249 nodes. -/
theorem idx3_inRange (ha : Agree m c V0) (hs : SrcInRange m c) (y : Cert.ReferenceIdeal.S16384x128.Idx) :
    0 ≤ ((Cert.ReferenceIdeal.Value.res_main_v76 V0 : Cert.ReferenceIdeal.S16384x128.Idx → BitVec 32) y).toInt ∧ ((Cert.ReferenceIdeal.Value.res_main_v76 V0 : Cert.ReferenceIdeal.S16384x128.Idx → BitVec 32) y).toInt < (53249 : Int) := by
  obtain ⟨r, k, rfl⟩ : ∃ (r : Fin 16384) (k : Fin 128), y = ix2 r k := ⟨y 0, y 1, eq_ix2 y⟩
  have e : (Cert.ReferenceIdeal.Value.res_main_v76 V0 : Cert.ReferenceIdeal.S16384x128.Idx → BitVec 32) (ix2 r k)
      = (m ((c.tc : Thread Cert.KernelIdeal.nD Cert.KernelIdeal.τ).loc Cert.KernelIdeal.main_arg2) : Cert.KernelIdeal.S8x16384x128.Idx → BitVec 32) (ix3 ⟨3, by decide⟩ r k) := by
    rw [← ha.a2]
    exact layer_slice_apply _ 3 (by decide) _ _ r k
  rw [e]
  exact hs 3 (by decide) r k

/-- Both programs gather the same source activations for layer 3. -/
theorem gat3_eq (ha : Agree m c V0) (hs : SrcInRange m c)
    (hinv : Cert.KernelIdeal.Gen.W7 m ρ c (Proc.devRef .tc Cert.KernelIdeal.main_v44) = firstN 53249 (by decide) (Cert.ReferenceIdeal.Value.res_main_v74 V0)) :
    Cert.KernelIdeal.Gen.W7 m ρ c (Proc.devRef .tc Cert.KernelIdeal.main_v53) = Cert.ReferenceIdeal.Chain.gat (Cert.ReferenceIdeal.Value.res_main_v74 V0) (Cert.ReferenceIdeal.Value.res_main_v76 V0) := by
  rw [Cert.KernelIdeal.Host3.gat_eq, hinv]
  have hI : Cert.KernelIdeal.Host3.idxTab m ρ c = Cert.ReferenceIdeal.Value.res_main_v76 V0 := by
    unfold Cert.KernelIdeal.Host3.idxTab Cert.ReferenceIdeal.Value.res_main_v76
    rw [karg2_3, ← ha.a2]
    rfl
  rw [hI]
  exact take_firstN_eq_take (by decide) (by decide) Cert.KernelIdeal.Facts₀.gather_S53249_S16384x128x1_S16384x128_n_0_n_n_0_2_1_wf
    Cert.ReferenceIdeal.Facts₀.gather_S135169_S16384x128x1_S16384x128_n_0_n_n_0_2_1_wf _ _ _ _ _ _ (idx3_inRange ha hs)

/-- Launch 3 leaves layer 3's activations, of the reference's weights and gathered activations. -/
theorem out3_eq (ha : Agree m c V0) (hs : SrcInRange m c)
    (hinv : Cert.KernelIdeal.Gen.W7 m ρ c (Proc.devRef .tc Cert.KernelIdeal.main_v44) = firstN 53249 (by decide) (Cert.ReferenceIdeal.Value.res_main_v74 V0)) :
    Cert.KernelIdeal.Gen.W8 m ρ c (Proc.devRef .tc Cert.KernelIdeal.main_v56)
      = outArr (Cert.ReferenceIdeal.Chain.wl3 V0) (Cert.ReferenceIdeal.Chain.gat (Cert.ReferenceIdeal.Value.res_main_v74 V0) (Cert.ReferenceIdeal.Value.res_main_v76 V0)) := by
  rw [Cert.KernelIdeal.Host3.across_out, Cert.KernelIdeal.Region3.final]
  show outArr (Cert.KernelIdeal.Gen.W7 m ρ c (Proc.devRef .tc Cert.KernelIdeal.main_v55)) (Cert.KernelIdeal.Gen.W7 m ρ c (Proc.devRef .tc Cert.KernelIdeal.main_v53)) = _
  rw [gat3_eq ha hs hinv, Cert.KernelIdeal.Host3.wgt_eq, karg1_3, ← ha.a1]

/-- Before layer 4: the kernel's buffer is the first 69633 entries of the reference's. -/
theorem inv4 (ha : Agree m c V0) (hs : SrcInRange m c) : Cert.KernelIdeal.Gen.W9 m ρ c (Proc.devRef .tc Cert.KernelIdeal.main_v58)
    = firstN 69633 (by decide) (Cert.ReferenceIdeal.Value.res_main_v97 V0) := by
  have hinv := inv3 (ρ := ρ) ha hs
  refine Cert.BridgeStep.step (N := 53249) (K := 69633) (by decide) (by decide) (by decide) (Cert.ReferenceIdeal.Value.res_main_v74 V0) _ _ _
    (Cert.ReferenceIdeal.Chain.wl3 V0) _ _ Cert.KernelIdeal.Facts₀.shapeCasts_S1x16384_S16384 Cert.KernelIdeal.Facts₀.concatenates_S53249_S16384_S69633_d0
    hinv (out3_eq ha hs hinv) ?_ (Cert.ReferenceIdeal.Chain.b4_eq V0)
  rw [Cert.KernelIdeal.Host4.buf_eq, Cert.KernelIdeal.Host3.across_buf]

/-- Layer 4's index table is inside the prefix of 69633 nodes. -/
theorem idx4_inRange (ha : Agree m c V0) (hs : SrcInRange m c) (y : Cert.ReferenceIdeal.S16384x128.Idx) :
    0 ≤ ((Cert.ReferenceIdeal.Value.res_main_v99 V0 : Cert.ReferenceIdeal.S16384x128.Idx → BitVec 32) y).toInt ∧ ((Cert.ReferenceIdeal.Value.res_main_v99 V0 : Cert.ReferenceIdeal.S16384x128.Idx → BitVec 32) y).toInt < (69633 : Int) := by
  obtain ⟨r, k, rfl⟩ : ∃ (r : Fin 16384) (k : Fin 128), y = ix2 r k := ⟨y 0, y 1, eq_ix2 y⟩
  have e : (Cert.ReferenceIdeal.Value.res_main_v99 V0 : Cert.ReferenceIdeal.S16384x128.Idx → BitVec 32) (ix2 r k)
      = (m ((c.tc : Thread Cert.KernelIdeal.nD Cert.KernelIdeal.τ).loc Cert.KernelIdeal.main_arg2) : Cert.KernelIdeal.S8x16384x128.Idx → BitVec 32) (ix3 ⟨4, by decide⟩ r k) := by
    rw [← ha.a2]
    exact layer_slice_apply _ 4 (by decide) _ _ r k
  rw [e]
  exact hs 4 (by decide) r k

/-- Both programs gather the same source activations for layer 4. -/
theorem gat4_eq (ha : Agree m c V0) (hs : SrcInRange m c)
    (hinv : Cert.KernelIdeal.Gen.W9 m ρ c (Proc.devRef .tc Cert.KernelIdeal.main_v58) = firstN 69633 (by decide) (Cert.ReferenceIdeal.Value.res_main_v97 V0)) :
    Cert.KernelIdeal.Gen.W9 m ρ c (Proc.devRef .tc Cert.KernelIdeal.main_v67) = Cert.ReferenceIdeal.Chain.gat (Cert.ReferenceIdeal.Value.res_main_v97 V0) (Cert.ReferenceIdeal.Value.res_main_v99 V0) := by
  rw [Cert.KernelIdeal.Host4.gat_eq, hinv]
  have hI : Cert.KernelIdeal.Host4.idxTab m ρ c = Cert.ReferenceIdeal.Value.res_main_v99 V0 := by
    unfold Cert.KernelIdeal.Host4.idxTab Cert.ReferenceIdeal.Value.res_main_v99
    rw [karg2_4, ← ha.a2]
    rfl
  rw [hI]
  exact take_firstN_eq_take (by decide) (by decide) Cert.KernelIdeal.Facts₀.gather_S69633_S16384x128x1_S16384x128_n_0_n_n_0_2_1_wf
    Cert.ReferenceIdeal.Facts₀.gather_S135169_S16384x128x1_S16384x128_n_0_n_n_0_2_1_wf _ _ _ _ _ _ (idx4_inRange ha hs)

/-- Launch 4 leaves layer 4's activations, of the reference's weights and gathered activations. -/
theorem out4_eq (ha : Agree m c V0) (hs : SrcInRange m c)
    (hinv : Cert.KernelIdeal.Gen.W9 m ρ c (Proc.devRef .tc Cert.KernelIdeal.main_v58) = firstN 69633 (by decide) (Cert.ReferenceIdeal.Value.res_main_v97 V0)) :
    Cert.KernelIdeal.Gen.W10 m ρ c (Proc.devRef .tc Cert.KernelIdeal.main_v70)
      = outArr (Cert.ReferenceIdeal.Chain.wl4 V0) (Cert.ReferenceIdeal.Chain.gat (Cert.ReferenceIdeal.Value.res_main_v97 V0) (Cert.ReferenceIdeal.Value.res_main_v99 V0)) := by
  rw [Cert.KernelIdeal.Host4.across_out, Cert.KernelIdeal.Region4.final]
  show outArr (Cert.KernelIdeal.Gen.W9 m ρ c (Proc.devRef .tc Cert.KernelIdeal.main_v69)) (Cert.KernelIdeal.Gen.W9 m ρ c (Proc.devRef .tc Cert.KernelIdeal.main_v67)) = _
  rw [gat4_eq ha hs hinv, Cert.KernelIdeal.Host4.wgt_eq, karg1_4, ← ha.a1]

/-- Before layer 5: the kernel's buffer is the first 86017 entries of the reference's. -/
theorem inv5 (ha : Agree m c V0) (hs : SrcInRange m c) : Cert.KernelIdeal.Gen.W11 m ρ c (Proc.devRef .tc Cert.KernelIdeal.main_v72)
    = firstN 86017 (by decide) (Cert.ReferenceIdeal.Value.res_main_v120 V0) := by
  have hinv := inv4 (ρ := ρ) ha hs
  refine Cert.BridgeStep.step (N := 69633) (K := 86017) (by decide) (by decide) (by decide) (Cert.ReferenceIdeal.Value.res_main_v97 V0) _ _ _
    (Cert.ReferenceIdeal.Chain.wl4 V0) _ _ Cert.KernelIdeal.Facts₀.shapeCasts_S1x16384_S16384 Cert.KernelIdeal.Facts₀.concatenates_S69633_S16384_S86017_d0
    hinv (out4_eq ha hs hinv) ?_ (Cert.ReferenceIdeal.Chain.b5_eq V0)
  rw [Cert.KernelIdeal.Host5.buf_eq, Cert.KernelIdeal.Host4.across_buf]

/-- Layer 5's index table is inside the prefix of 86017 nodes. -/
theorem idx5_inRange (ha : Agree m c V0) (hs : SrcInRange m c) (y : Cert.ReferenceIdeal.S16384x128.Idx) :
    0 ≤ ((Cert.ReferenceIdeal.Value.res_main_v122 V0 : Cert.ReferenceIdeal.S16384x128.Idx → BitVec 32) y).toInt ∧ ((Cert.ReferenceIdeal.Value.res_main_v122 V0 : Cert.ReferenceIdeal.S16384x128.Idx → BitVec 32) y).toInt < (86017 : Int) := by
  obtain ⟨r, k, rfl⟩ : ∃ (r : Fin 16384) (k : Fin 128), y = ix2 r k := ⟨y 0, y 1, eq_ix2 y⟩
  have e : (Cert.ReferenceIdeal.Value.res_main_v122 V0 : Cert.ReferenceIdeal.S16384x128.Idx → BitVec 32) (ix2 r k)
      = (m ((c.tc : Thread Cert.KernelIdeal.nD Cert.KernelIdeal.τ).loc Cert.KernelIdeal.main_arg2) : Cert.KernelIdeal.S8x16384x128.Idx → BitVec 32) (ix3 ⟨5, by decide⟩ r k) := by
    rw [← ha.a2]
    exact layer_slice_apply _ 5 (by decide) _ _ r k
  rw [e]
  exact hs 5 (by decide) r k

/-- Both programs gather the same source activations for layer 5. -/
theorem gat5_eq (ha : Agree m c V0) (hs : SrcInRange m c)
    (hinv : Cert.KernelIdeal.Gen.W11 m ρ c (Proc.devRef .tc Cert.KernelIdeal.main_v72) = firstN 86017 (by decide) (Cert.ReferenceIdeal.Value.res_main_v120 V0)) :
    Cert.KernelIdeal.Gen.W11 m ρ c (Proc.devRef .tc Cert.KernelIdeal.main_v81) = Cert.ReferenceIdeal.Chain.gat (Cert.ReferenceIdeal.Value.res_main_v120 V0) (Cert.ReferenceIdeal.Value.res_main_v122 V0) := by
  rw [Cert.KernelIdeal.Host5.gat_eq, hinv]
  have hI : Cert.KernelIdeal.Host5.idxTab m ρ c = Cert.ReferenceIdeal.Value.res_main_v122 V0 := by
    unfold Cert.KernelIdeal.Host5.idxTab Cert.ReferenceIdeal.Value.res_main_v122
    rw [karg2_5, ← ha.a2]
    rfl
  rw [hI]
  exact take_firstN_eq_take (by decide) (by decide) Cert.KernelIdeal.Facts₀.gather_S86017_S16384x128x1_S16384x128_n_0_n_n_0_2_1_wf
    Cert.ReferenceIdeal.Facts₀.gather_S135169_S16384x128x1_S16384x128_n_0_n_n_0_2_1_wf _ _ _ _ _ _ (idx5_inRange ha hs)

/-- Launch 5 leaves layer 5's activations, of the reference's weights and gathered activations. -/
theorem out5_eq (ha : Agree m c V0) (hs : SrcInRange m c)
    (hinv : Cert.KernelIdeal.Gen.W11 m ρ c (Proc.devRef .tc Cert.KernelIdeal.main_v72) = firstN 86017 (by decide) (Cert.ReferenceIdeal.Value.res_main_v120 V0)) :
    Cert.KernelIdeal.Gen.W12 m ρ c (Proc.devRef .tc Cert.KernelIdeal.main_v84)
      = outArr (Cert.ReferenceIdeal.Chain.wl5 V0) (Cert.ReferenceIdeal.Chain.gat (Cert.ReferenceIdeal.Value.res_main_v120 V0) (Cert.ReferenceIdeal.Value.res_main_v122 V0)) := by
  rw [Cert.KernelIdeal.Host5.across_out, Cert.KernelIdeal.Region5.final]
  show outArr (Cert.KernelIdeal.Gen.W11 m ρ c (Proc.devRef .tc Cert.KernelIdeal.main_v83)) (Cert.KernelIdeal.Gen.W11 m ρ c (Proc.devRef .tc Cert.KernelIdeal.main_v81)) = _
  rw [gat5_eq ha hs hinv, Cert.KernelIdeal.Host5.wgt_eq, karg1_5, ← ha.a1]

/-- Before layer 6: the kernel's buffer is the first 102401 entries of the reference's. -/
theorem inv6 (ha : Agree m c V0) (hs : SrcInRange m c) : Cert.KernelIdeal.Gen.W13 m ρ c (Proc.devRef .tc Cert.KernelIdeal.main_v86)
    = firstN 102401 (by decide) (Cert.ReferenceIdeal.Value.res_main_v143 V0) := by
  have hinv := inv5 (ρ := ρ) ha hs
  refine Cert.BridgeStep.step (N := 86017) (K := 102401) (by decide) (by decide) (by decide) (Cert.ReferenceIdeal.Value.res_main_v120 V0) _ _ _
    (Cert.ReferenceIdeal.Chain.wl5 V0) _ _ Cert.KernelIdeal.Facts₀.shapeCasts_S1x16384_S16384 Cert.KernelIdeal.Facts₀.concatenates_S86017_S16384_S102401_d0
    hinv (out5_eq ha hs hinv) ?_ (Cert.ReferenceIdeal.Chain.b6_eq V0)
  rw [Cert.KernelIdeal.Host6.buf_eq, Cert.KernelIdeal.Host5.across_buf]

/-- Layer 6's index table is inside the prefix of 102401 nodes. -/
theorem idx6_inRange (ha : Agree m c V0) (hs : SrcInRange m c) (y : Cert.ReferenceIdeal.S16384x128.Idx) :
    0 ≤ ((Cert.ReferenceIdeal.Value.res_main_v145 V0 : Cert.ReferenceIdeal.S16384x128.Idx → BitVec 32) y).toInt ∧ ((Cert.ReferenceIdeal.Value.res_main_v145 V0 : Cert.ReferenceIdeal.S16384x128.Idx → BitVec 32) y).toInt < (102401 : Int) := by
  obtain ⟨r, k, rfl⟩ : ∃ (r : Fin 16384) (k : Fin 128), y = ix2 r k := ⟨y 0, y 1, eq_ix2 y⟩
  have e : (Cert.ReferenceIdeal.Value.res_main_v145 V0 : Cert.ReferenceIdeal.S16384x128.Idx → BitVec 32) (ix2 r k)
      = (m ((c.tc : Thread Cert.KernelIdeal.nD Cert.KernelIdeal.τ).loc Cert.KernelIdeal.main_arg2) : Cert.KernelIdeal.S8x16384x128.Idx → BitVec 32) (ix3 ⟨6, by decide⟩ r k) := by
    rw [← ha.a2]
    exact layer_slice_apply _ 6 (by decide) _ _ r k
  rw [e]
  exact hs 6 (by decide) r k

/-- Both programs gather the same source activations for layer 6. -/
theorem gat6_eq (ha : Agree m c V0) (hs : SrcInRange m c)
    (hinv : Cert.KernelIdeal.Gen.W13 m ρ c (Proc.devRef .tc Cert.KernelIdeal.main_v86) = firstN 102401 (by decide) (Cert.ReferenceIdeal.Value.res_main_v143 V0)) :
    Cert.KernelIdeal.Gen.W13 m ρ c (Proc.devRef .tc Cert.KernelIdeal.main_v95) = Cert.ReferenceIdeal.Chain.gat (Cert.ReferenceIdeal.Value.res_main_v143 V0) (Cert.ReferenceIdeal.Value.res_main_v145 V0) := by
  rw [Cert.KernelIdeal.Host6.gat_eq, hinv]
  have hI : Cert.KernelIdeal.Host6.idxTab m ρ c = Cert.ReferenceIdeal.Value.res_main_v145 V0 := by
    unfold Cert.KernelIdeal.Host6.idxTab Cert.ReferenceIdeal.Value.res_main_v145
    rw [karg2_6, ← ha.a2]
    rfl
  rw [hI]
  exact take_firstN_eq_take (by decide) (by decide) Cert.KernelIdeal.Facts₀.gather_S102401_S16384x128x1_S16384x128_n_0_n_n_0_2_1_wf
    Cert.ReferenceIdeal.Facts₀.gather_S135169_S16384x128x1_S16384x128_n_0_n_n_0_2_1_wf _ _ _ _ _ _ (idx6_inRange ha hs)

/-- Launch 6 leaves layer 6's activations, of the reference's weights and gathered activations. -/
theorem out6_eq (ha : Agree m c V0) (hs : SrcInRange m c)
    (hinv : Cert.KernelIdeal.Gen.W13 m ρ c (Proc.devRef .tc Cert.KernelIdeal.main_v86) = firstN 102401 (by decide) (Cert.ReferenceIdeal.Value.res_main_v143 V0)) :
    Cert.KernelIdeal.Gen.W14 m ρ c (Proc.devRef .tc Cert.KernelIdeal.main_v98)
      = outArr (Cert.ReferenceIdeal.Chain.wl6 V0) (Cert.ReferenceIdeal.Chain.gat (Cert.ReferenceIdeal.Value.res_main_v143 V0) (Cert.ReferenceIdeal.Value.res_main_v145 V0)) := by
  rw [Cert.KernelIdeal.Host6.across_out, Cert.KernelIdeal.Region6.final]
  show outArr (Cert.KernelIdeal.Gen.W13 m ρ c (Proc.devRef .tc Cert.KernelIdeal.main_v97)) (Cert.KernelIdeal.Gen.W13 m ρ c (Proc.devRef .tc Cert.KernelIdeal.main_v95)) = _
  rw [gat6_eq ha hs hinv, Cert.KernelIdeal.Host6.wgt_eq, karg1_6, ← ha.a1]

/-- Before layer 7: the kernel's buffer is the first 118785 entries of the reference's. -/
theorem inv7 (ha : Agree m c V0) (hs : SrcInRange m c) : Cert.KernelIdeal.Gen.W15 m ρ c (Proc.devRef .tc Cert.KernelIdeal.main_v100)
    = firstN 118785 (by decide) (Cert.ReferenceIdeal.Value.res_main_v166 V0) := by
  have hinv := inv6 (ρ := ρ) ha hs
  refine Cert.BridgeStep.step (N := 102401) (K := 118785) (by decide) (by decide) (by decide) (Cert.ReferenceIdeal.Value.res_main_v143 V0) _ _ _
    (Cert.ReferenceIdeal.Chain.wl6 V0) _ _ Cert.KernelIdeal.Facts₀.shapeCasts_S1x16384_S16384 Cert.KernelIdeal.Facts₀.concatenates_S102401_S16384_S118785_d0
    hinv (out6_eq ha hs hinv) ?_ (Cert.ReferenceIdeal.Chain.b7_eq V0)
  rw [Cert.KernelIdeal.Host7.buf_eq, Cert.KernelIdeal.Host6.across_buf]

/-- Layer 7's index table is inside the prefix of 118785 nodes. -/
theorem idx7_inRange (ha : Agree m c V0) (hs : SrcInRange m c) (y : Cert.ReferenceIdeal.S16384x128.Idx) :
    0 ≤ ((Cert.ReferenceIdeal.Value.res_main_v168 V0 : Cert.ReferenceIdeal.S16384x128.Idx → BitVec 32) y).toInt ∧ ((Cert.ReferenceIdeal.Value.res_main_v168 V0 : Cert.ReferenceIdeal.S16384x128.Idx → BitVec 32) y).toInt < (118785 : Int) := by
  obtain ⟨r, k, rfl⟩ : ∃ (r : Fin 16384) (k : Fin 128), y = ix2 r k := ⟨y 0, y 1, eq_ix2 y⟩
  have e : (Cert.ReferenceIdeal.Value.res_main_v168 V0 : Cert.ReferenceIdeal.S16384x128.Idx → BitVec 32) (ix2 r k)
      = (m ((c.tc : Thread Cert.KernelIdeal.nD Cert.KernelIdeal.τ).loc Cert.KernelIdeal.main_arg2) : Cert.KernelIdeal.S8x16384x128.Idx → BitVec 32) (ix3 ⟨7, by decide⟩ r k) := by
    rw [← ha.a2]
    exact layer_slice_apply _ 7 (by decide) _ _ r k
  rw [e]
  exact hs 7 (by decide) r k

/-- Both programs gather the same source activations for layer 7. -/
theorem gat7_eq (ha : Agree m c V0) (hs : SrcInRange m c)
    (hinv : Cert.KernelIdeal.Gen.W15 m ρ c (Proc.devRef .tc Cert.KernelIdeal.main_v100) = firstN 118785 (by decide) (Cert.ReferenceIdeal.Value.res_main_v166 V0)) :
    Cert.KernelIdeal.Gen.W15 m ρ c (Proc.devRef .tc Cert.KernelIdeal.main_v109) = Cert.ReferenceIdeal.Chain.gat (Cert.ReferenceIdeal.Value.res_main_v166 V0) (Cert.ReferenceIdeal.Value.res_main_v168 V0) := by
  rw [Cert.KernelIdeal.Host7.gat_eq, hinv]
  have hI : Cert.KernelIdeal.Host7.idxTab m ρ c = Cert.ReferenceIdeal.Value.res_main_v168 V0 := by
    unfold Cert.KernelIdeal.Host7.idxTab Cert.ReferenceIdeal.Value.res_main_v168
    rw [karg2_7, ← ha.a2]
    rfl
  rw [hI]
  exact take_firstN_eq_take (by decide) (by decide) Cert.KernelIdeal.Facts₀.gather_S118785_S16384x128x1_S16384x128_n_0_n_n_0_2_1_wf
    Cert.ReferenceIdeal.Facts₀.gather_S135169_S16384x128x1_S16384x128_n_0_n_n_0_2_1_wf _ _ _ _ _ _ (idx7_inRange ha hs)

/-- Launch 7 leaves layer 7's activations, of the reference's weights and gathered activations. -/
theorem out7_eq (ha : Agree m c V0) (hs : SrcInRange m c)
    (hinv : Cert.KernelIdeal.Gen.W15 m ρ c (Proc.devRef .tc Cert.KernelIdeal.main_v100) = firstN 118785 (by decide) (Cert.ReferenceIdeal.Value.res_main_v166 V0)) :
    Cert.KernelIdeal.Gen.W16 m ρ c (Proc.devRef .tc Cert.KernelIdeal.main_v112)
      = outArr (Cert.ReferenceIdeal.Chain.wl7 V0) (Cert.ReferenceIdeal.Chain.gat (Cert.ReferenceIdeal.Value.res_main_v166 V0) (Cert.ReferenceIdeal.Value.res_main_v168 V0)) := by
  rw [Cert.KernelIdeal.Host7.across_out, Cert.KernelIdeal.Region7.final]
  show outArr (Cert.KernelIdeal.Gen.W15 m ρ c (Proc.devRef .tc Cert.KernelIdeal.main_v111)) (Cert.KernelIdeal.Gen.W15 m ρ c (Proc.devRef .tc Cert.KernelIdeal.main_v109)) = _
  rw [gat7_eq ha hs hinv, Cert.KernelIdeal.Host7.wgt_eq, karg1_7, ← ha.a1]

/-- The kernel's result buffer ends holding what the reference's run states for its result. -/
theorem result_eq (ha : Agree m c V0) (hs : SrcInRange m c) :
    Cert.KernelIdeal.Gen.W17 m ρ c (Proc.devRef .tc Cert.KernelIdeal.main_v112)
      = outArr (Cert.ReferenceIdeal.Chain.wl7 V0) (Cert.ReferenceIdeal.Chain.gat (Cert.ReferenceIdeal.Value.res_main_v166 V0) (Cert.ReferenceIdeal.Value.res_main_v168 V0)) := by
  have hkeep : Cert.KernelIdeal.Gen.W17 m ρ c (Proc.devRef .tc Cert.KernelIdeal.main_v112) = Cert.KernelIdeal.Gen.W16 m ρ c (Proc.devRef .tc Cert.KernelIdeal.main_v112) := by
    show StableHlo.after Cert.KernelIdeal.Gen.hostOps8 (Cert.KernelIdeal.Gen.W16 m ρ c) (Proc.devRef .tc Cert.KernelIdeal.main_v112) = _
    after_results
  rw [hkeep]
  exact out7_eq ha hs (inv7 ha hs)

end Cert.Bridge

end
-- ==== Proof.lean ====
/-
  The certificate of the layered feed-forward kernel against its jnp reference, over the extended reals.

  The network has a bias node, 4096 input nodes and eight layers of 16384 nodes; node `r` of layer `l` has 128 weights
  and 128 source indices into the nodes before it, and its activation is the logistic function of 4.9 (the same f32 word
  in both programs) times the dot product of its weights with its sources' activations. The kernel keeps the node
  activations in a buffer that grows by one layer at a time — eight launches of one Pallas kernel, the gather done by the
  host between them —; the reference keeps a buffer of all 135169 nodes, zero where not yet computed, and writes each
  layer's activations into it. Both index the buffer jnp's way (a negative index wraps by the buffer's length, the gather
  clamps), and their buffers have different lengths: the claim holds where every source index of layer `l` names a node
  BEFORE layer `l`, which is what the precondition states (beside finite float inputs, which the proof does not need).

  The three frames: the two kernel programs' by the frame proofs made for them, the reference's by its run. The
  idealization rewrote nothing. The value claim: the kernel program's run with its result buffer named (the same launch
  as its frame), that buffer's contents traced back through the eight launches and the host operations between them
  (Region0 … Region7, Host0 … Host7), the reference's run read as plain functions (RefChain), and the induction over the
  layers that joins them (Bridge).
-/
import proofs.«128059_j1726576856803_1_alg».proof.Defs
import proofs.«128059_j1726576856803_1_alg».proof.Proof.Gen.Kernel
import proofs.«128059_j1726576856803_1_alg».proof.Proof.Gen.Kernel.Frame
import proofs.«128059_j1726576856803_1_alg».proof.Proof.Gen.KernelIdeal
import proofs.«128059_j1726576856803_1_alg».proof.Proof.Gen.KernelIdeal.Frame
import proofs.«128059_j1726576856803_1_alg».proof.Proof.Gen.ReferenceIdeal
import proofs.«128059_j1726576856803_1_alg».proof.Proof.Gen.ReferenceIdeal.Run
import proofs.«128059_j1726576856803_1_alg».proof.Proof.Gen.Pre_finite_inputs
import proofs.«128059_j1726576856803_1_alg».proof.Proof.KernelRun
import proofs.«128059_j1726576856803_1_alg».proof.Proof.RefChain
import proofs.«128059_j1726576856803_1_alg».proof.Proof.PreRange
import proofs.«128059_j1726576856803_1_alg».proof.Proof.Bridge
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The precondition, at the kernel's index argument: every source index of layer `l` names a node before layer `l`. -/
theorem srcInRange (m : (ℓ : Loc Cert.KernelIdeal.nD Cert.KernelIdeal.τ Cert.KernelIdeal.sig) → Buf (Elt Ideal) ℓ)
    (hpre : Cert.Pre_KernelIdeal m) (c : Dev Cert.KernelIdeal.nD) : Cert.Bridge.SrcInRange m c :=
  fun l hl r k => Cert.PreRange.src_inRange _ _ _ (hpre c) ⟨l, hl⟩ r k

/-- From memories agreeing on the arguments both programs run and end with the same result: layer 7's activations as a
    [1, 16384] row, of the reference's own node buffer and index table. -/
theorem algebraic : Cert.algebraic_KernelIdeal_ReferenceIdeal := by
  intro m ρ m' ρ' hpre hagree
  have ha : ∀ c : Dev Cert.KernelIdeal.nD, Cert.Bridge.Agree m c (StableHlo.launchContents m' c) := fun c =>
    ⟨(hagree c).1, (hagree c).2.1, (hagree c).2.2⟩
  refine ⟨fun c => Cert.LayerOut.outArr (Cert.ReferenceIdeal.Chain.wl7 (StableHlo.launchContents m' c))
      (Cert.ReferenceIdeal.Chain.gat (Cert.ReferenceIdeal.Value.res_main_v166 (StableHlo.launchContents m' c))
        (Cert.ReferenceIdeal.Value.res_main_v168 (StableHlo.launchContents m' c))), ?_, ?_⟩
  · exact (θ_run Cert.KernelIdeal.defs _ _).mono
      (fun r h c => ⟨(h c).1.trans (Cert.Bridge.result_eq (ha c) (srcInRange m hpre c)), (h c).2⟩)
      (Cert.KernelIdeal.RunNamed.run_named (F := Ideal) m ρ)
  · exact (θ_run Cert.ReferenceIdeal.defs _ _).mono
      (fun r h c => ⟨(h c).1.trans (Cert.ReferenceIdeal.Chain.result_eq (StableHlo.launchContents m' c)), (h c).2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
